-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_1)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_1) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4096x1024 : Shape := ⟨2, ![4096, 1024]⟩
abbrev S1024x1024 : Shape := ⟨2, ![1024, 1024]⟩
abbrev S8192x1024 : Shape := ⟨2, ![8192, 1024]⟩
abbrev S1x1024x1024 : Shape := ⟨3, ![1, 1024, 1024]⟩
abbrev S2x1024x1024 : Shape := ⟨3, ![2, 1024, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 22
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S1x1024x1024, .f32⟩
  | .hbm, ⟨8, _⟩ => ⟨S1x1024x1024, .f32⟩
  | .hbm, ⟨9, _⟩ => ⟨S2x1024x1024, .f32⟩
  | .hbm, ⟨10, _⟩ => ⟨S1x1024x1024, .f32⟩
  | .hbm, ⟨11, _⟩ => ⟨S1x1024x1024, .f32⟩
  | .hbm, ⟨12, _⟩ => ⟨S2x1024x1024, .f32⟩
  | .hbm, ⟨13, _⟩ => ⟨S8192x1024, .bf16⟩
  | .hbm, ⟨14, _⟩ => ⟨S8192x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x4096, .bf16⟩
  | .hbm, ⟨20, _⟩ => ⟨S4096x1024, .f32⟩
  | .hbm, ⟨21, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S4096x1024, .bf16⟩
  | .local _ .vmem, ⟨13, _⟩ => ⟨S4096x1024, .bf16⟩
  | .local _ .vmem, ⟨14, _⟩ => ⟨S512x1024, .f32⟩
  | .local _ .vmem, ⟨15, _⟩ => ⟨S512x1024, .f32⟩
  | .local _ .vmem, ⟨16, _⟩ => ⟨S512x4096, .bf16⟩
  | .local _ .vmem, ⟨17, _⟩ => ⟨S512x4096, .bf16⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  concatenates_S4096x1024_S4096x1024_S8192x1024_d0 : Shape.Concatenates [S4096x1024, S4096x1024] S8192x1024 0
  bcast_S1024x1024_S1x1024x1024_1_2 : S1024x1024.BroadcastsInDim S1x1024x1024 (![1, 2] : Fin 2 → Fin S1x1024x1024.rank)
  concatenates_S1x1024x1024_S1x1024x1024_S2x1024x1024_d0 : Shape.Concatenates [S1x1024x1024, S1x1024x1024] S2x1024x1024 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  packedbf16_S1024x1024_S1024x1024_0_0 : (Rect.unit (s := S1024x1024) ![0, 0] S1024x1024.size inb_S1024x1024_S1024x1024_0_0).PackedRows (EltTy.packing .bf16)
  slices_S8192x1024_S4096x1024_0_0 : S8192x1024.Slices ![0, 0] S4096x1024
  slices_S8192x1024_S4096x1024_4096_0 : S8192x1024.Slices ![4096, 0] S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S512x4096_S512 : S512x4096.Reduces [1] S512
  shapeCasts_S512_S512x1 : S512.ShapeCasts S512x1
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  dot_S1024x1024_S1024x1024_S1024x1024_1_1_0_0_n_n_wf : DotDims.WF S1024x1024 S1024x1024 S1024x1024 [1] [1] [0] [0] [] []
  dot_S512x1024_S4096x1024_S512x4096_1_1_0_0_n_n_wf : DotDims.WF S512x1024 S4096x1024 S512x4096 [1] [1] [0] [0] [] []
  dot_S512x4096_S4096x1024_S512x1024_1_0_0_1_n_n_wf : DotDims.WF S512x4096 S4096x1024 S512x1024 [1] [0] [0] [1] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .f32 = 32 ∨ (Rect.block (s := S2x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x1024x1024.size a
  hwx0_2 : ∀ i : grid0.Coords, EltTy.bits .f32 = 32 ∨ (Rect.block (s := S2x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S4096x4096.size a
  hwx1_4 : ∀ i : grid1.Coords, EltTy.bits .bf16 = 32 ∨ (Rect.block (s := S4096x4096) S512x4096.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S4096x1024.size a
  hwx1_5 : ∀ i : grid1.Coords, EltTy.bits .f32 = 32 ∨ (Rect.block (s := S4096x1024) S512x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_0) S512x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12_1) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v12_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x4096, .f32⟩
  | .hbm, ⟨32, _⟩ => ⟨S4096x1024, .f32⟩
  | .hbm, ⟨33, _⟩ => ⟨S4096x1024, .f32⟩
  | .hbm, ⟨34, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S4096x1024_S1024x4096_1_0 : S4096x1024.Transposes [1, 0] S1024x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.Projections.lean ====
import proofs.«419996_j83399674953760_3_alg».proof.Proof.Gen.Kernel.Launch
import proofs.«419996_j83399674953760_3_alg».proof.Proof.Gen.Kernel.Skeleton
import proofs.«419996_j83399674953760_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first pallas_call of the cross-attention: the four projections, as a class-A region

The first TensorCore call of `main` runs on a grid of 8 points. Its first operand is the 8192 x 1024 matrix
`concat(inputs_a, inputs_v)` (rows 0..4095 are `inputs_a`, rows 4096..8191 are `inputs_v`), read in blocks of
1024 rows: point `i` holds rows `1024 i .. 1024 i + 1023`. Its second and third operands are two stacks of two
1024 x 1024 weight matrices; at point `i` the pipeline holds slab `i / 4` of each stack, so points 0..3 (the rows
of `inputs_a`) see the first weight of each stack and points 4..7 (the rows of `inputs_v`) the second. The
pipeline moves a slab only when its index changes, that is at points 0 and 4.

The body rounds the row block `x` and the two slabs `W, W'` to bf16, forms `x Wᵀ` and `x W'ᵀ` (contraction over
the second axis of both factors, f32 accumulation from zero) and rounds both products to bf16; each product is
stored whole, once, into the block of 1024 rows of its 8192 x 1024 bf16 result at the same row offset as `x`.

This file states that region at an arbitrary content `V` of the TensorCore's buffers on entry: which block each
window holds at a point, what the body leaves in each result block as a closed function of the operand blocks,
the body's separation-logic triple, the pipeline's proof data and its body obligation at every grid point.
-/

-- membership in a rectangle of 1024 x 1024 extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`): for window 0 the rows
    `1024 t .. 1024 t + 1023` of the concatenated input, for windows 1 and 2 slab `t / 4` of a weight stack, for
    windows 3 and 4 the rows `1024 t .. 1024 t + 1023` of a result. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the input: its current staging buffer holds rows `1024 t ..` at every point, for ANY proof data
    whose array is `V`'s (`hA`) and whose body leaves the block in place (`hafter`). The window is uncut and never
    idle; it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The slab of the first weight stack: the pipeline fetches it only where `t / 4` changes (points 0 and 4); at the
    other points the slab index has not moved and the body left the buffer as it found it, so the buffer still holds
    slab `t / 4`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The slab of the second weight stack, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 1024 x 1024 buffer (a row block of the input, or a block of a result). -/
abbrev r0_x : Rect S1024x1024 := Rect.unit (s := S1024x1024) ![0, 0] S1024x1024.size inb_S1024x1024_S1024x1024_0_0
/-- The whole of a 1 x 1024 x 1024 buffer (one slab of a weight stack). -/
abbrev r0_w : Rect S1x1024x1024 := Rect.unit (s := S1x1024x1024) ![0, 0, 0] S1x1024x1024.size inb_S1x1024x1024_S1x1024x1024_0_0_0

/-! ## What the body leaves in each result window's buffer -/

/-- The first result's block after the body, from the row block `x0` and the slab `x1` of the first stack: one
    store of the whole block, of `bf16 (bf16 x0 · (bf16 x1)ᵀ)` (the slab read as a 1024 x 1024 matrix, the product
    accumulated in f32 from zero). -/
def out0_3 (x0 : Vec F S1024x1024 .f32) (x1 : Vec F S1x1024x1024 .f32) : Vec F S1024x1024 .bf16 :=
  View.canon [⟨r0_x, k0_pay2 (View.ld x0 r0_x) (View.ld x1 r0_w)⟩]

/-- The second result's block after the body, from the row block `x0` and the slab `x2` of the second stack: the
    same product against the other weight. -/
def out0_4 (x0 : Vec F S1024x1024 .f32) (x2 : Vec F S1x1024x1024 .f32) : Vec F S1024x1024 .bf16 :=
  View.canon [⟨r0_x, k0_pay3 (View.ld x0 r0_x) (View.ld x2 r0_w)⟩]

/-- One store through the whole-buffer rectangle tiles the buffer (checked by evaluation), so it covers it. -/
theorem cover0_3 (p0 : Vec F S1024x1024 .bf16) (y : S1024x1024.Idx) :
    ∃ pc ∈ ([⟨r0_x, p0⟩] : List (View.Piece (Elt F) S1024x1024 .bf16)), y ∈ pc.1.set :=
  View.cover_of_tiled [⟨r0_x, p0⟩] S1024x1024.size (by rfl) y

/-- The same of the second result's one store. -/
theorem cover0_4 (p0 : Vec F S1024x1024 .bf16) (y : S1024x1024.Idx) :
    ∃ pc ∈ ([⟨r0_x, p0⟩] : List (View.Piece (Elt F) S1024x1024 .bf16)), y ∈ pc.1.set :=
  View.cover_of_tiled [⟨r0_x, p0⟩] S1024x1024.size (by rfl) y

/-! ## The body's triple -/

set_option maxHeartbeats 1000000 in
/-- The kernel body on whole staging memrefs — the row block's at read contents `x0`, the two slabs' at `x1`, `x2`,
    the two results' at anything — runs to the continuation holding the three operands' as they were and each
    result's at `out0_3` / `out0_4` of the operands. The printed function is its skeleton: three whole-buffer loads
    of the operands, then per result a load of its buffer (the value is discarded) and one whole-buffer store. The
    grid coordinate is not read. -/
theorem sound_kernel0 (c : Dev nD) (E : Set ℕ) (i : grid0.Coords)
    (arg1 : Memref sig .tc .vmem S1024x1024 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1024 .bf16) (harg4 : arg4.IsWhole)
    (arg5 : Memref sig .tc .vmem S1024x1024 .bf16) (harg5 : arg5.IsWhole)
    (x0 : Vec F S1024x1024 .f32) (x1 : Vec F S1x1024x1024 .f32) (x2 : Vec F S1x1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj4_kernel i arg1 harg1 arg2 harg2 arg3 harg3 arg4 harg4 arg5 harg5) K := by
  simp only [cc0__proj4_kernel_eq_skeleton]; unfold cc0__proj4_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  -- the three operands are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- each result's buffer reads as the canon of its one covering store
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_4 _)

/-! ## The pipeline's proof data -/

/-- The proof data of the region's pipeline on core `c`: the arrays as the region finds them (`V`); after the body
    at point `t` each operand's buffer at its block (the body leaves operands alone) and each result's at the
    rounded product of the row block with the slab of its stack; the invariant is the class's (the scoped rest and
    the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each operand's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the five windows' current
    staging buffers, each owned whole at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the operands' memrefs hold their blocks (`before0_0`, `before0_1`, `before0_2`), so
    `sound_kernel0` applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Attention.lean ====
/- REGION 1 of @main — the fused scores / softmax / weighted-sum kernel (custom_call 1, pipeline 1) — as a class-A
   region at a PARAMETER `V`, the TensorCore's buffer contents when the region is entered.

   The kernel runs on a grid of 8 points. At point `t` it is handed
     window 0: rows 512·t … 512·t+511 of `b_a` (4096 x 1024, bf16), a 512 x 1024 block;
     window 1: `a_v` whole (4096 x 1024, bf16), the same block at every point;
     window 2: `b_v` whole (4096 x 1024, bf16), the same block at every point;
     window 3: rows 512·t … 512·t+511 of the residual input (4096 x 1024, f32);
   and it fills
     window 4: rows 512·t … 512·t+511 of the attention weights `alpha` (4096 x 4096, bf16), a 512 x 4096 block:
               the row softmax of the scores  block(b_a) · a_vᵀ, rounded to bf16;
     window 5: rows 512·t … 512·t+511 of the output (4096 x 1024, f32):  alpha_block · b_v + residual block.
   Each staging buffer is loaded whole and each output buffer is stored whole, once, through a literal rectangle.

   Here: each window's block at a point read off `V` (`iblk1`), what the body leaves in each output buffer
   (`out1_4`, `out1_5`), the body's triple (`sound_kernel1`), the pipeline's proof data (`dat1`) and its body
   obligation (`body_obligation1`). -/
import proofs.«419996_j83399674953760_3_alg».proof.Proof.Gen.Kernel.Launch
import proofs.«419996_j83399674953760_3_alg».proof.Proof.Gen.Kernel.Skeleton
import proofs.«419996_j83399674953760_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, the fused scores / softmax / weighted-sum kernel (pipeline 1), at the entry contents `V` -/

/-! ## The windows' blocks -/

/-- Window `w`'s block at point `t`, read off its array as the region finds it (`V`): for windows 0, 3, 4, 5 the
    rows 512·t … 512·t+511 of the window's matrix, for windows 1 and 2 the whole matrix. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block — rows 512·t … 512·t+511 of the matrix `b_a` — at every point, fetched there or not, for
    ANY proof data whose array is `V`'s (`hA`) and whose body leaves the block in place (`hafter`): unfetched, the
    block index has not moved since the point before; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block — the matrix `a_v`, whole, the same at every point and fetched at the first only — at every point, fetched there or not, for
    ANY proof data whose array is `V`'s (`hA`) and whose body leaves the block in place (`hafter`): unfetched, the
    block index has not moved since the point before; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block — the matrix `b_v`, whole, the same at every point and fetched at the first only — at every point, fetched there or not, for
    ANY proof data whose array is `V`'s (`hA`) and whose body leaves the block in place (`hafter`): unfetched, the
    block index has not moved since the point before; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block — rows 512·t … 512·t+511 of the residual input — at every point, fetched there or not, for
    ANY proof data whose array is `V`'s (`hA`) and whose body leaves the block in place (`hafter`): unfetched, the
    block index has not moved since the point before; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

/-- The whole 512 x 1024 block (the `b_a` block; the residual block; the output block). -/
abbrev r1_0 : Rect S512x1024 := Rect.unit (s := S512x1024) ![0, 0] S512x1024.size inb_S512x1024_S512x1024_0_0
/-- The whole 4096 x 1024 matrix (the matrix `a_v`; the matrix `b_v`). -/
abbrev r1_1 : Rect S4096x1024 := Rect.unit (s := S4096x1024) ![0, 0] S4096x1024.size inb_S4096x1024_S4096x1024_0_0
/-- The whole 512 x 4096 block of attention weights. -/
abbrev r1_4 : Rect S512x4096 := Rect.unit (s := S512x4096) ![0, 0] S512x4096.size inb_S512x4096_S512x4096_0_0

/-! ## What the body leaves in each output window's buffer -/

/-- Window 4's staging buffer after the body, from the `b_a` block `x0` and the matrix `a_v` `x1`: its one store, of the
    whole block, of `k1_pay1` — the scores `x0 · x1ᵀ` (f32 accumulation from 0), less each row's maximum,
    exponentiated, divided by each row's sum, rounded to bf16: the row softmax. -/
def out1_4 (x0 : Vec F S512x1024 .bf16) (x1 : Vec F S4096x1024 .bf16) : Vec F S512x4096 .bf16 :=
  View.canon [⟨r1_4, k1_pay1 (View.ld x0 r1_0) (View.ld x1 r1_1)⟩]

/-- Window 5's staging buffer after the body, from the `b_a` block `x0`, the matrix `a_v` `x1`, the matrix `b_v` `x2` and the
    residual block `x3`: its one store, of the whole block, of `k1_pay2` — the attention weights (the bf16 softmax
    above) times `x2` (f32 accumulation from 0), plus `x3`. -/
def out1_5 (x0 : Vec F S512x1024 .bf16) (x1 : Vec F S4096x1024 .bf16) (x2 : Vec F S4096x1024 .bf16) (x3 : Vec F S512x1024 .f32) : Vec F S512x1024 .f32 :=
  View.canon [⟨r1_0, k1_pay2 (View.ld x0 r1_0) (View.ld x1 r1_1) (View.ld x2 r1_1) (View.ld x3 r1_0)⟩]

/-- The one store of window 4 is of the whole block, so it covers it (checked by evaluation). -/
theorem cover1_4 (p0 : Vec F S512x4096 .bf16) (y : S512x4096.Idx) :
    ∃ pc ∈ ([⟨r1_4, p0⟩] : List (View.Piece (Elt F) S512x4096 .bf16)), y ∈ pc.1.set :=
  View.cover_of_tiled [⟨r1_4, p0⟩] S512x4096.size (by rfl) y

/-- The one store of window 5 is of the whole block, so it covers it (checked by evaluation). -/
theorem cover1_5 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-! ## The body's triple -/

set_option maxHeartbeats 1000000 in
/-- The kernel body on whole staging memrefs, the four inputs' at read contents `x0 … x3` and the two outputs' at
    anything, runs to the continuation holding the inputs' as they were, window 4's at `out1_4 x0 x1` and window 5's
    at `out1_5 x0 x1 x2 x3`: the printed function is its skeleton — four whole loads, a (dead) load and the whole store
    of the softmax block, a (dead) load and the whole store of the weighted sum plus residual. -/
theorem sound_kernel1 (c : Dev nD) (E : Set ℕ) (i : grid1.Coords)
    (arg0 : Memref sig .tc .vmem S512x1024 .bf16) (harg0 : arg0.IsWhole) (arg1 : Memref sig .tc .vmem S4096x1024 .bf16) (harg1 : arg1.IsWhole)
    (arg2 : Memref sig .tc .vmem S4096x1024 .bf16) (harg2 : arg2.IsWhole) (arg3 : Memref sig .tc .vmem S512x1024 .f32) (harg3 : arg3.IsWhole)
    (arg4 : Memref sig .tc .vmem S512x4096 .bf16) (harg4 : arg4.IsWhole) (arg5 : Memref sig .tc .vmem S512x1024 .f32) (harg5 : arg5.IsWhole)
    (x0 : Vec F S512x1024 .bf16) (x1 : Vec F S4096x1024 .bf16) (x2 : Vec F S4096x1024 .bf16) (x3 : Vec F S512x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out1_4 x0 x1) ∗ owns (c : Thread nD τ) arg5 fullShare (out1_5 x0 x1 x2 x3)) -∗ K ⟨⟩))
      ⊢ wp frame (wpE (defs₀ (F := F)) Variants.none c none) E (cc1__fused_scores_softmax_av_kernel i arg0 harg0 arg1 harg1 arg2 harg2 arg3 harg3 arg4 harg4 arg5 harg5) K := by
  simp only [cc1__fused_scores_softmax_av_kernel_eq_skeleton]; unfold cc1__fused_scores_softmax_av_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block, window 4's at the softmax block `out1_4` of the `b_a` block and `a_v`,
    window 5's at `out1_5` of the four input blocks; the invariant the class's (the scoped rest and the generator
    register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, what the core owes, and each window's current staging
    buffer, owned whole, at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.TransposedSum.lean ====
/-
  Region 2 of @main: the transposed-product reduction with a residual.

  The kernel runs on a 4 × 4 grid; point `t` has coordinates `(t / 4, t % 4)`, the second the reduction axis.
  It keeps a 1024 × 1024 f32 scratch from point to point: at `t % 4 = 0` it first stores the zero block into the
  scratch; at every point it adds to the scratch the product of the transposed block of its first operand with
  the block of its second; at `t % 4 = 3` it adds the residual block to the scratch and stores the sum into the
  output window's staging buffer, which the pipeline writes back at those points only (elsewhere the window is
  idle). So after the body at point `t` the scratch holds the partial sum over the row-blocks `0 … t % 4` of
  the reduction axis, and the output block written back at `t % 4 = 3` is the whole sum plus the residual.

  This module states that accumulation (`accAt2`), the region's proof data over it (`dat2`) and the body
  obligation: the body's run in each of its three control cases, and the invariant that carries the scratch's
  contents between the points.
-/
import proofs.«419996_j83399674953760_3_alg».proof.Proof.Gen.Kernel.Launch
import proofs.«419996_j83399674953760_3_alg».proof.Proof.Gen.Kernel.Skeleton
import proofs.«419996_j83399674953760_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the accumulation -/

/-- The whole rectangle of a 1024 × 1024 buffer: every load and store of the body goes through it. -/
abbrev rB : Rect S1024x1024 := Rect.unit (s := S1024x1024) ![0, 0] S1024x1024.size inb_S1024x1024_S1024x1024_0_0

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the reset store leaves in the scratch: the zero block. -/
def zero2 : Vec F S1024x1024 .f32 := View.canon [⟨rB, k2_pay1 (F := F)⟩]

/-- One accumulation step: the scratch `s` plus the product of the transposed block `a` with the block `b`. -/
def acc2 (a b : Vec F S1024x1024 .bf16) (s : Vec F S1024x1024 .f32) : Vec F S1024x1024 .f32 :=
  View.canon [⟨rB, k2_pay2 (View.ld a rB) (View.ld b rB) (View.ld s rB)⟩]

/-- The output block: the accumulated scratch `s` plus the residual block `r`. -/
def fin2 (s r : Vec F S1024x1024 .f32) : Vec F S1024x1024 .f32 :=
  View.canon [⟨rB, k2_pay3 (View.ld s rB) (View.ld r rB)⟩]

/-- The scratch after the body at position `n`: the partial sum, over the row-blocks `0 … n % 4` of the reduction
    axis, of the transposed first operand's block times the second operand's block — restarted from the zero
    block at every point whose second coordinate is `0`, otherwise added onto what the point before left. -/
def accAt2 (c : Dev nD) : (n : ℕ) → n < cfg2.N → Vec F S1024x1024 .f32
  | 0, hn => acc2 (iblk2 V c 0 ⟨0, hn⟩) (iblk2 V c 1 ⟨0, hn⟩) zero2
  | n + 1, hn => acc2 (iblk2 V c 0 ⟨n + 1, hn⟩) (iblk2 V c 1 ⟨n + 1, hn⟩)
      (if (n + 1) % 4 = 0 then zero2 else accAt2 c n (Nat.lt_of_succ_lt hn))

/-- The accumulation's two equations. -/
theorem accAt2_zero (c : Dev nD) (hn : 0 < cfg2.N) :
    accAt2 V c 0 hn = acc2 (iblk2 V c 0 ⟨0, hn⟩) (iblk2 V c 1 ⟨0, hn⟩) zero2 := rfl

theorem accAt2_succ (c : Dev nD) (n : ℕ) (hn : n + 1 < cfg2.N) :
    accAt2 V c (n + 1) hn = acc2 (iblk2 V c 0 ⟨n + 1, hn⟩) (iblk2 V c 1 ⟨n + 1, hn⟩)
      (if (n + 1) % 4 = 0 then zero2 else accAt2 V c n (Nat.lt_of_succ_lt hn)) := rfl

/-! ## The body's branch conditions, decided over the grid -/

/-- The condition of the body's first `scf.if`: the second grid coordinate is `0` (the scalar chain of the body
    substituted). -/
abbrev cond2_0 (i : grid2.Coords) : Prop :=
  (Scalar.cmpi .ne (Scalar.extui (Scalar.cmpi .eq (BitVec.ofNat 32 (i 1).val) 0#32)) 0#32) = 1#1
/-- It holds at the points ≡ 0 (mod 4): the first point of each reduction. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if`: the second grid coordinate is `3`. -/
abbrev cond2_1 (i : grid2.Coords) : Prop := k2_cond2 i = 1#1
/-- It holds at the points ≡ 3 (mod 4): the last point of each reduction. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

/-- Away from a reduction's last point the output window is idle (the body stores nothing into it) -/
theorem idleAt2_3 : ∀ t : Fin cfg2.N, ¬ t.val % 4 = 3 → cfg2.idle 3 (grid2.coords t) = true := by decide +kernel
/-- and is not written back; -/
theorem noFlush2_3 : ∀ t : Fin cfg2.N, ¬ t.val % 4 = 3 → (cfg2.win 3).flush t = false := by decide +kernel
/-- at a reduction's last point it is live. -/
theorem liveAt2_3 : ∀ t : Fin cfg2.N, t.val % 4 = 3 → cfg2.idle 3 (grid2.coords t) = false := by decide +kernel

/-! ## The scratch and the region invariant -/

/-- The scratch operand: a whole scoped buffer of the kernel's own, carried from point to point. -/
abbrev scM2 : Memref sig .tc .vmem S1024x1024 .f32 := Memref.whole cc2_scratch0

/-- The core's scoped buffers other than this region's staging buffers and its scratch, at some contents each:
    carried through the region unopened. -/
def restS2 (c : Dev nD) : sProp 𝕄 :=
  Pipeline.scopedRestBut (Ix := Unit) (Name := ℕ) (U := UR sig nD τ) (Lvl := ℕ) (Val := Elt F) spec2 c [cc2_scratch0]

/-- The class's invariant with the scratch split off as a memref owned at some contents. -/
theorem PhiA2_eq (c : Dev nD) :
    (Pipeline.ΦA spec2 c : sProp 𝕄)
      = iprop(iprop(iprop(∃ d, owns (c : Thread nD τ) scM2 fullShare d) ∗ restS2 (F := F) c) ∗ (∃ r, prngReg c r)) := by
  unfold Pipeline.ΦA restS2
  rw [Pipeline.scopedRest_split_of_list spec2 c [cc2_scratch0] (by decide) (by decide)]
  simp only [scM2, owns_whole, bigSepL_singleton]; try rfl

/-- The region invariant before position `n`: before the first point the class's (the scratch at anything);
    afterwards the scratch owned at the partial sum the point before left, the other scoped buffers at anything
    and the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ restS2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ restS2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ restS2 (F := F) c) ∗ (∃ r, prngReg c r)) := by
  cases n with
  | zero => exact absurd rfl hz
  | succ n => rfl

/-! ## The proof data -/

/-- The proof data of the region on core `c`: the arrays as the region finds them; after the body each input's
    buffer at its block, the output's at the accumulated scratch plus the residual block (consulted only at a
    reduction's last point: elsewhere the window is idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => fin2 (accAt2 V c t.val t.isLt) (iblk2 V c 2 t)
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = fin2 (accAt2 V c t.val t.isLt) (iblk2 V c 2 t) := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- Each input's current staging buffer holds its block at every point, fetched there or not: unfetched, the
    block index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## Reading through the whole rectangle -/

theorem zeros2 : (![0, 0] : Fin S1024x1024.rank → ℕ) = fun _ => 0 := by funext a; fin_cases a <;> rfl

/-- Every index of the buffer lies in the whole rectangle. -/
theorem mem_rB (y : S1024x1024.Idx) : y ∈ rB.set := View.mem_set_unit_zero (S := S1024x1024) zeros2 _ y

/-- A list of stores whose first piece is through the whole rectangle covers the buffer. -/
theorem cover_rB {e : EltTy} (w : rB.shape.Idx → Elt F e) (L : List (View.Piece (Elt F) S1024x1024 e)) (y : S1024x1024.Idx) :
    ∃ p ∈ (⟨rB, w⟩ : View.Piece (Elt F) S1024x1024 e) :: L, y ∈ p.1.set :=
  ⟨_, List.mem_cons_self, mem_rB y⟩

/-- A store through the whole rectangle, last, leaves its payload whatever the earlier stores were. -/
theorem canon_rB {e : EltTy} (w : rB.shape.Idx → Elt F e) (L : List (View.Piece (Elt F) S1024x1024 e)) :
    View.canon ((⟨rB, w⟩ : View.Piece (Elt F) S1024x1024 e) :: L) = w :=
  View.canon_cons_unit_zero (S := S1024x1024) zeros2 _ w L

/-- A load through a rectangle of a whole memref owned at contents `x` reads `x` through it. -/
theorem readAt_unread {e : EltTy} (m : Memref sig .tc .vmem S1024x1024 e) (hm : m.IsWhole) (x : Vec F S1024x1024 e)
    (r : Rect S1024x1024) : View.readAt (Elt F) m.view r.toLoadRect (hm.unread x) = View.ld x r := by
  rw [View.readAt_eq_ld, hm.read_unread]

/-- So only the last whole store matters. -/
theorem canon_rB_cons {e : EltTy} (w : rB.shape.Idx → Elt F e) (L : List (View.Piece (Elt F) S1024x1024 e)) :
    View.canon ((⟨rB, w⟩ : View.Piece (Elt F) S1024x1024 e) :: L) = View.canon [(⟨rB, w⟩ : View.Piece (Elt F) S1024x1024 e)] :=
  (canon_rB w L).trans (canon_rB w []).symm

/-! ## The body's run, case by case -/

set_option maxHeartbeats 1000000 in
/-- A reduction's first point (the second coordinate is `0`). On whole memrefs — the inputs' at their blocks, the
    output's at contents handed back untouched, the scratch at anything — the body stores the zero block into the
    scratch, reads it back, adds the transposed product of the two operand blocks and stores the sum: the scratch
    ends at `acc2 x0 x1 zero2`. -/
theorem run2_A (c : Dev nD) (i : grid2.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond2_0 i) (hc1 : ¬cond2_1 i)
    (x0 x1 : Vec F S1024x1024 .bf16) (x2 xi3 : Vec F S1024x1024 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (acc2 x0 x1 zero2)) -∗ K ⟨⟩))
      ⊢ wp frame (wpE (defs₀ (F := F)) Variants.none c none) E
          (cc2__mm_transposeA_reduceK_residual_kernel i arg2 harg2 arg3 harg3 arg4 harg4 arg5 harg5 arg6 harg6) K := by
  simp only [cc2__mm_transposeA_reduceK_residual_kernel_eq_skeleton]; unfold cc2__mm_transposeA_reduceK_residual_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the scratch: the reset store, then the accumulation store over it, whose third operand is the reset's block read back
  unfold run2_A.sl.v7 run2_A.sl.HS_1
  rw [View.read_writes_eq_canon _ _ _ (cover_rB _ _), canon_rB_cons, View.readCov_eq_canon_ld _ _ _ (cover_rB _ _)]
  rw [readAt_unread, readAt_unread]
  rfl

set_option maxHeartbeats 1000000 in
/-- A middle point (the second coordinate is `1` or `2`). The scratch comes at the partial sum `xs` the point before
    left and ends at `acc2 x0 x1 xs`, one more block product added; the output's buffer goes back untouched. -/
theorem run2_B (c : Dev nD) (i : grid2.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond2_0 i) (hc1 : ¬cond2_1 i)
    (x0 x1 : Vec F S1024x1024 .bf16) (x2 xi3 xs : Vec F S1024x1024 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (acc2 x0 x1 xs)) -∗ K ⟨⟩))
      ⊢ wp frame (wpE (defs₀ (F := F)) Variants.none c none) E
          (cc2__mm_transposeA_reduceK_residual_kernel i arg2 harg2 arg3 harg3 arg4 harg4 arg5 harg5 arg6 harg6) K := by
  simp only [cc2__mm_transposeA_reduceK_residual_kernel_eq_skeleton]; unfold cc2__mm_transposeA_reduceK_residual_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (cover_rB _ _)]
  rw [readAt_unread, readAt_unread, readAt_unread]
  rfl

set_option maxHeartbeats 1000000 in
/-- A reduction's last point (the second coordinate is `3`). The scratch comes at `xs` and ends at `acc2 x0 x1 xs`,
    the whole sum; the body then reads it back, adds the residual block `x2` and stores the result into the output's
    buffer, whatever that held: it ends at `fin2 (acc2 x0 x1 xs) x2`. -/
theorem run2_C (c : Dev nD) (i : grid2.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond2_0 i) (hc1 : cond2_1 i)
    (x0 x1 : Vec F S1024x1024 .bf16) (x2 xs : Vec F S1024x1024 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare (fin2 (acc2 x0 x1 xs) x2)
            ∗ owns (c : Thread nD τ) arg6 fullShare (acc2 x0 x1 xs)) -∗ K ⟨⟩))
      ⊢ wp frame (wpE (defs₀ (F := F)) Variants.none c none) E
          (cc2__mm_transposeA_reduceK_residual_kernel i arg2 harg2 arg3 harg3 arg4 harg4 arg5 harg5 arg6 harg6) K := by
  simp only [cc2__mm_transposeA_reduceK_residual_kernel_eq_skeleton]; unfold cc2__mm_transposeA_reduceK_residual_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · -- the output block: the scratch as the accumulation store left it, read back, plus the residual block
    iexists _; isplitr
    swap; · iexact H3
    ipureintro
    unfold run2_C.sl.v16 run2_C.sl.HS_1
    rw [View.read_writes_eq_canon _ _ _ (cover_rB _ _), View.readCov_eq_canon_ld _ _ _ (cover_rB _ _)]
    rw [readAt_unread, readAt_unread, readAt_unread, readAt_unread]
    rfl
  iexists _; isplitr
  swap; · iexact HS
  ipureintro
  unfold run2_C.sl.HS_1
  rw [View.read_writes_eq_canon _ _ _ (cover_rB _ _)]
  rw [readAt_unread, readAt_unread, readAt_unread]
  rfl

/-! ## The body obligation -/

/-- Each window's current staging memref at point `t`, spelled as the pipeline passes it to the body. -/
abbrev ms2_0 (t : Fin cfg2.N) : Memref sig .tc .vmem S1024x1024 .bf16 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S1024x1024 .f32 := win2_2.stage (cfg2.slots t 2)
abbrev ms2_3 (t : Fin cfg2.N) : Memref sig .tc .vmem S1024x1024 .f32 := win2_3.stage (cfg2.slots t 3)

/-- The inputs are never idle: the body leaves each one's buffer at its block. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
/-- At a reduction's last point the output's buffer is left at the sum plus the residual block. -/
theorem leaves2_3 (c : Dev nD) (t : Fin cfg2.N) (h3 : t.val % 4 = 3) :
    (dat2 V c).leavesExact 3 t
      = owns (c : Thread nD τ) (ms2_3 t) fullShare (fin2 (accAt2 V c t.val t.isLt) (iblk2 V c 2 t)) := by
  unfold Dat.leavesExact; rw [liveAt2_3 t h3, after2_3]

/-- The accumulation at a reduction's first point: restarted from the zero block. -/
theorem accAt2_reset (c : Dev nD) (t : Fin cfg2.N) (h0 : t.val % 4 = 0) :
    accAt2 V c t.val t.isLt = acc2 (iblk2 V c 0 t) (iblk2 V c 1 t) zero2 := by
  obtain ⟨n, hn⟩ := t
  cases n with
  | zero => rfl
  | succ n => exact (accAt2_succ V c n hn).trans (by rw [if_pos h0])

/-- At any other point: one more block product onto what the point before left. -/
theorem accAt2_step (c : Dev nD) (t : Fin cfg2.N) (h0 : ¬ t.val % 4 = 0) :
    accAt2 V c t.val t.isLt
      = acc2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact (accAt2_succ V c n hn).trans (by rw [if_neg h0]; rfl)

/-- Before any point the invariant yields the scratch at some contents. -/
theorem PhiS2_any (c : Dev nD) (n : ℕ) (h : n ≤ cfg2.N) :
    PhiS2 V c n h ⊢ iprop(iprop(iprop(∃ d, owns (c : Thread nD τ) scM2 fullShare d) ∗ restS2 (F := F) c) ∗ (∃ r, prngReg c r)) := by
  cases n with
  | zero => rw [PhiS2_zero V c 0 _ rfl, PhiA2_eq]
  | succ n =>
    rw [PhiS2_succ]
    iintro ⟨⟨HS, Hr⟩, Hg⟩
    isplitl [HS Hr]
    · isplitl [HS]
      · iexists _; iexact HS
      iexact Hr
    iexact Hg

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. Its second coordinate says which case it is in. The inputs' buffers hold their blocks;
    the invariant hands over the scratch — at the partial sum the point before left, or (a reduction's first
    point, where the body overwrites it first) at anything — and takes it back at this point's partial sum. Away
    from a reduction's last point the output's buffer goes back as it came; there it is left at the sum plus the
    residual block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ, PhiS2_castSucc]
  rw [leaves2_0, leaves2_1, leaves2_2]
  have hN : t.val < 16 := lt_of_lt_of_eq t.isLt (show cfg2.N = 16 from N_2)
  by_cases h3 : t.val % 4 = 3
  · -- a reduction's last point
    have h0 : ¬ t.val % 4 = 0 := by omega
    have hz : t.val ≠ 0 := by omega
    rw [leaves2_3 V c t h3, accAt2_step V c t h0, PhiS2_pos V c _ _ hz]
    iintro ⟨⟨⟨HS, Hr⟩, Hg⟩, Ho, ⟨%d0, H0⟩, ⟨%d1, H1⟩, ⟨%d2, H2⟩, ⟨%d3, H3⟩⟩
    iapply (run2_C c (grid2.coords t) _ _ _ _ _ _ _ _ _ _ (fun h => h0 ((hcond2_0 t).mp h)) ((hcond2_1 t).mpr h3)
      (iblk2 V c 0 t) (iblk2 V c 1 t) (iblk2 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t h3) (noFlush2_3 t h3)]
    by_cases h0 : t.val % 4 = 0
    · -- a reduction's first point: whatever the scratch held is overwritten
      rw [accAt2_reset V c t h0]
      iintro ⟨HP, Ho, ⟨%d0, H0⟩, ⟨%d1, H1⟩, ⟨%d2, H2⟩, ⟨%d3, H3⟩⟩
      icases (PhiS2_any V c _ _) $$ HP with ⟨⟨HS, Hr⟩, Hg⟩
      iapply (run2_A c (grid2.coords t) _ _ _ _ _ _ _ _ _ _ ((hcond2_0 t).mpr h0) (fun h => h3 ((hcond2_1 t).mp h))
        (iblk2 V c 0 t) (iblk2 V c 1 t) (iblk2 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · -- a middle point
      have hz : t.val ≠ 0 := fun e => h0 (by rw [e])
      rw [accAt2_step V c t h0, PhiS2_pos V c _ _ hz]
      iintro ⟨⟨⟨HS, Hr⟩, Hg⟩, Ho, ⟨%d0, H0⟩, ⟨%d1, H1⟩, ⟨%d2, H2⟩, ⟨%d3, H3⟩⟩
      iapply (run2_B c (grid2.coords t) _ _ _ _ _ _ _ _ _ _ (fun h => h0 ((hcond2_0 t).mp h)) (fun h => h3 ((hcond2_1 t).mp h))
        (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: what the scratch holds is forgotten. -/
theorem Phi_out2 (c : Dev nD) (t : Fin (cfg2.N + 1)) : (dat2 V c).Φ t ⊢ Pipeline.ΦA spec2 c := by
  rw [show (dat2 V c).Φ t = PhiS2 V c t.val (Nat.le_of_lt_succ t.isLt) from rfl, PhiA2_eq]
  exact PhiS2_any V c _ _

/-- The same after the last point. -/
theorem hout2 (c : Dev nD) : (dat2 V c).Φ (Fin.last cfg2.N) ⊢ Pipeline.ΦA spec2 c := Phi_out2 V c _

end Cert.Kernel.Fr

end
-- ==== Proof.K.Run.lean ====
/-
  The whole program's run. @main is five items: a stretch of host operations (the two row-stacked inputs and the two
  stacked weight pairs are laid out), the projection region, a stretch of four slices (the two halves of each projection
  output), the attention region, the transposed-sum region. The contents of every unscoped buffer at each boundary are a
  fold from the launch memory: a host stretch applies its operations, a region replaces its windows' arrays by what its
  write-backs leave (the inputs as entered, each output's flushed blocks folded) and leaves every other buffer alone.
  Each region is entered from "every unscoped buffer at the boundary's contents, the generator register at some state,
  nothing owed" and left at the next boundary's contents; the run ends with every unscoped buffer at the last fold.
-/
import proofs.«419996_j83399674953760_3_alg».proof.Proof.K.Projections
import proofs.«419996_j83399674953760_3_alg».proof.Proof.K.Attention
import proofs.«419996_j83399674953760_3_alg».proof.Proof.K.TransposedSum
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => (s₀ m ρ).mem ((c : Dev nD), b)
/-- After the first host stretch: the stacked inputs and weights are laid out (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its two output arrays hold their flushed blocks, every other buffer is as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the four halves are sliced out (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region (the transposed-sum region's entry: no host operation lies between the two). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the transposed-sum region: the end of @main. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_noAlloc : (hostOps0 : List (HloOp τ sig (Elt F))).Forall fun op => op.fresh = ∅ := by
  simp only [List.Forall]; repeat' constructor
/-- No operation of the second stretch allocates a buffer. -/
theorem hostOps1_noAlloc : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last fold, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The projection region: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The transposed-sum region: entered at `W4`, left at `W5`; its invariant carries the accumulator between points,
    and is the class invariant before the first point and gives it back after the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (V4 m ρ) c)
    unfold Pipeline.ΦA
    iintro ⟨Hp, -, Hr⟩
    isplitl [Hr]; · iexact Hr
    iexact Hp
  hout c := by
    refine (hout2 (V4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_noAlloc (W0 m ρ)),
    .region (reg0 m ρ),
    .host (hseg hostOps1 hostOps1_sub hostOps1_noAlloc (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## Reading the fold back

No host operation writes an argument, and a region changes only its output windows' arrays: an argument's buffer at the
end is its launch contents. The four slices, the attention weights and the two results are read off the fold at the
regions' final arrays. -/

/-- The references the first host stretch writes. -/
abbrev hostOps0_Wr : List (Ref sig .tc) := [main_v0, main_v1, main_v2, main_v3, main_v4, main_v5, main_v6]
theorem hostOps0_writes : (hostOps0 : List (HloOp τ sig (Elt F))).Forall fun op => op.writes ⊆ (hostOps0_Wr.map (Proc.devRef (τ := τ) .tc)).toFinset := by
  simp only [List.Forall]
  refine ⟨?_, ?_, ?_, ?_, ?_, ?_, ?_⟩ <;>
    (simp only [StableHlo.unary_writes, StableHlo.binary_writes, Finset.singleton_subset_iff, List.mem_toFinset]; exact List.mem_map_of_mem (by decide))
/-- The references the second host stretch writes. -/
abbrev hostOps1_Wr : List (Ref sig .tc) := [main_v8, main_v9, main_v10, main_v11]
theorem hostOps1_writes : (hostOps1 : List (HloOp τ sig (Elt F))).Forall fun op => op.writes ⊆ (hostOps1_Wr.map (Proc.devRef (τ := τ) .tc)).toFinset := by
  simp only [List.Forall]
  refine ⟨?_, ?_, ?_, ?_⟩ <;>
    (simp only [StableHlo.unary_writes, StableHlo.binary_writes, Finset.singleton_subset_iff, List.mem_toFinset]; exact List.mem_map_of_mem (by decide))

theorem W1_keep (c : Dev nD) (b : Ref sig .tc) (hb : b ∉ hostOps0_Wr) :
    W1 m ρ c (Proc.devRef .tc b) = m ((c : Thread nD τ).loc b) :=
  StableHlo.after_of_writes_sub hostOps0 _ hostOps0_writes hb
theorem W3_keep (c : Dev nD) (b : Ref sig .tc) (hb : b ∉ hostOps1_Wr) :
    W3 m ρ c (Proc.devRef .tc b) = W2 m ρ c (Proc.devRef .tc b) :=
  StableHlo.after_of_writes_sub hostOps1 _ hostOps1_writes hb

/-- A buffer that is no window's array of any region and that no host operation writes ends as launched. -/
theorem W5_bypass (c : Dev nD) (b : Ref sig .tc) (h0 : b ∉ hostOps0_Wr) (h1 : b ∉ hostOps1_Wr)
    (hw0 : ∀ w, Pipeline.arrRef spec0 w ≠ b) (hw1 : ∀ w, Pipeline.arrRef spec1 w ≠ b) (hw2 : ∀ w, Pipeline.arrRef spec2 w ≠ b) :
    W5 m ρ c (Proc.devRef .tc b) = m ((c : Thread nD τ).loc b) :=
  (W5_of_ne m ρ c b hw2).trans <| (W4_of_ne m ρ c b hw1).trans <| (W3_keep m ρ c b h1).trans <|
    (W2_of_ne m ρ c b hw0).trans (W1_keep m ρ c b h0)

/-- The first argument is the attention region's residual input window: read, never written. -/
theorem W3_main_arg0 (c : Dev nD) : W3 m ρ c (Proc.devRef .tc main_arg0) = m ((c : Thread nD τ).loc main_arg0) :=
  (W3_keep m ρ c main_arg0 (by decide)).trans <| (W2_of_ne m ρ c main_arg0 (by decide)).trans (W1_keep m ρ c main_arg0 (by decide))
theorem W4_main_arg0 (c : Dev nD) : W4 m ρ c (Proc.devRef .tc main_arg0) = m ((c : Thread nD τ).loc main_arg0) :=
  ((W4_arr m ρ c 3).trans (((dat1 (V3 m ρ) c).arrAt_in 3 rfl _).trans (A_eq1 (V3 m ρ) c 3))).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
/-- The second argument is the transposed-sum region's residual input window. -/
theorem W4_main_arg1 (c : Dev nD) : W4 m ρ c (Proc.devRef .tc main_arg1) = m ((c : Thread nD τ).loc main_arg1) :=
  (W4_of_ne m ρ c main_arg1 (by decide)).trans <| (W3_keep m ρ c main_arg1 (by decide)).trans <|
    (W2_of_ne m ρ c main_arg1 (by decide)).trans (W1_keep m ρ c main_arg1 (by decide))
theorem W5_main_arg1 (c : Dev nD) : W5 m ρ c (Proc.devRef .tc main_arg1) = m ((c : Thread nD τ).loc main_arg1) :=
  ((W5_arr m ρ c 2).trans (((dat2 (V4 m ρ) c).arrAt_in 2 rfl _).trans (A_eq2 (V4 m ρ) c 2))).trans (W4_main_arg1 m ρ c)
theorem W5_main_arg2 (c : Dev nD) : W5 m ρ c (Proc.devRef .tc main_arg2) = m ((c : Thread nD τ).loc main_arg2) :=
  W5_bypass m ρ c main_arg2 (by decide) (by decide) (by decide) (by decide) (by decide)
theorem W5_main_arg3 (c : Dev nD) : W5 m ρ c (Proc.devRef .tc main_arg3) = m ((c : Thread nD τ).loc main_arg3) :=
  W5_bypass m ρ c main_arg3 (by decide) (by decide) (by decide) (by decide) (by decide)
theorem W5_main_arg4 (c : Dev nD) : W5 m ρ c (Proc.devRef .tc main_arg4) = m ((c : Thread nD τ).loc main_arg4) :=
  W5_bypass m ρ c main_arg4 (by decide) (by decide) (by decide) (by decide) (by decide)
theorem W5_main_arg5 (c : Dev nD) : W5 m ρ c (Proc.devRef .tc main_arg5) = m ((c : Thread nD τ).loc main_arg5) :=
  W5_bypass m ρ c main_arg5 (by decide) (by decide) (by decide) (by decide) (by decide)

/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

/-- The first result is the attention region's second output array as that region left it. -/
theorem W5_main_v12_1 (c : Dev nD) : W5 m ρ c (Proc.devRef .tc main_v12_1) = (dat1 (V3 m ρ) c).arrAt 5 cfg1.N :=
  (W5_of_ne m ρ c main_v12_1 (by decide)).trans (W4_arr m ρ c 5)
/-- The second result is the transposed-sum region's output array. -/
theorem W5_main_v13 (c : Dev nD) : W5 m ρ c (Proc.devRef .tc main_v13) = (dat2 (V4 m ρ) c).arrAt 3 cfg2.N :=
  W5_arr m ρ c 3
/-- The attention weights the transposed-sum region reads are the attention region's first output array. -/
theorem V4_main_v12_0 (c : Dev nD) : V4 m ρ c main_v12_0 = (dat1 (V3 m ρ) c).arrAt 4 cfg1.N := W4_arr m ρ c 4
/-- The projection half the transposed-sum region reads is the slice the second host stretch took. -/
theorem V4_main_v8 (c : Dev nD) : V4 m ρ c main_v8 = V3 m ρ c main_v8 := W4_of_ne m ρ c main_v8 (by decide)
theorem V4_main_arg1 (c : Dev nD) : V4 m ρ c main_arg1 = m ((c : Thread nD τ).loc main_arg1) := W4_main_arg1 m ρ c
theorem V3_main_arg0 (c : Dev nD) : V3 m ρ c main_arg0 = m ((c : Thread nD τ).loc main_arg0) := W3_main_arg0 m ρ c

/-- The first host stretch: the row-stacked inputs and the two stacked weight pairs, of the launch contents. -/
theorem V1_main_v0 (c : Dev nD) : V1 m ρ c main_v0 = concatenate S8192x1024 0 [⟨S4096x1024, m ((c : Thread nD τ).loc main_arg0)⟩, ⟨S4096x1024, m ((c : Thread nD τ).loc main_arg1)⟩] concatenates_S4096x1024_S4096x1024_S8192x1024_d0 := by
  show StableHlo.after hostOps0 (fun b => m (c, b)) (Proc.devRef .tc main_v0) = _
  after_results
theorem V1_main_v3 (c : Dev nD) : V1 m ρ c main_v3 = concatenate S2x1024x1024 0 [⟨S1x1024x1024, broadcastInDim S1x1024x1024 ![1, 2] bcast_S1024x1024_S1x1024x1024_1_2 (m ((c : Thread nD τ).loc main_arg3))⟩, ⟨S1x1024x1024, broadcastInDim S1x1024x1024 ![1, 2] bcast_S1024x1024_S1x1024x1024_1_2 (m ((c : Thread nD τ).loc main_arg5))⟩] concatenates_S1x1024x1024_S1x1024x1024_S2x1024x1024_d0 := by
  show StableHlo.after hostOps0 (fun b => m (c, b)) (Proc.devRef .tc main_v3) = _
  after_results
theorem V1_main_v6 (c : Dev nD) : V1 m ρ c main_v6 = concatenate S2x1024x1024 0 [⟨S1x1024x1024, broadcastInDim S1x1024x1024 ![1, 2] bcast_S1024x1024_S1x1024x1024_1_2 (m ((c : Thread nD τ).loc main_arg2))⟩, ⟨S1x1024x1024, broadcastInDim S1x1024x1024 ![1, 2] bcast_S1024x1024_S1x1024x1024_1_2 (m ((c : Thread nD τ).loc main_arg4))⟩] concatenates_S1x1024x1024_S1x1024x1024_S2x1024x1024_d0 := by
  show StableHlo.after hostOps0 (fun b => m (c, b)) (Proc.devRef .tc main_v6) = _
  after_results

/-- The second host stretch: the two halves of each projection output, sliced out of the projection region's final arrays. -/
theorem V3_main_v8 (c : Dev nD) : V3 m ρ c main_v8 = extractStridedSlice S4096x1024 ![0, 0] ((dat0 (V1 m ρ) c).arrAt 3 cfg0.N) slices_S8192x1024_S4096x1024_0_0 := by
  rw [← W2_arr m ρ c 3]
  show StableHlo.after hostOps1 (W2 m ρ c) (Proc.devRef .tc main_v8) = _
  after_results
theorem V3_main_v9 (c : Dev nD) : V3 m ρ c main_v9 = extractStridedSlice S4096x1024 ![4096, 0] ((dat0 (V1 m ρ) c).arrAt 3 cfg0.N) slices_S8192x1024_S4096x1024_4096_0 := by
  rw [← W2_arr m ρ c 3]
  show StableHlo.after hostOps1 (W2 m ρ c) (Proc.devRef .tc main_v9) = _
  after_results
theorem V3_main_v10 (c : Dev nD) : V3 m ρ c main_v10 = extractStridedSlice S4096x1024 ![0, 0] ((dat0 (V1 m ρ) c).arrAt 4 cfg0.N) slices_S8192x1024_S4096x1024_0_0 := by
  rw [← W2_arr m ρ c 4]
  show StableHlo.after hostOps1 (W2 m ρ c) (Proc.devRef .tc main_v10) = _
  after_results
theorem V3_main_v11 (c : Dev nD) : V3 m ρ c main_v11 = extractStridedSlice S4096x1024 ![4096, 0] ((dat0 (V1 m ρ) c).arrAt 4 cfg0.N) slices_S8192x1024_S4096x1024_4096_0 := by
  rw [← W2_arr m ρ c 4]
  show StableHlo.after hostOps1 (W2 m ρ c) (Proc.devRef .tc main_v11) = _
  after_results

end Cert.Kernel.Fr

end
-- ==== Proof.KI.Projections.lean ====
import proofs.«419996_j83399674953760_3_alg».proof.Proof.Gen.KernelIdeal.Launch
import proofs.«419996_j83399674953760_3_alg».proof.Proof.Gen.KernelIdeal.Skeleton
import proofs.«419996_j83399674953760_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first pallas_call of the cross-attention: the four projections, as a class-A region

The first TensorCore call of `main` runs on a grid of 8 points. Its first operand is the 8192 x 1024 matrix
`concat(inputs_a, inputs_v)` (rows 0..4095 are `inputs_a`, rows 4096..8191 are `inputs_v`), read in blocks of
1024 rows: point `i` holds rows `1024 i .. 1024 i + 1023`. Its second and third operands are two stacks of two
1024 x 1024 weight matrices; at point `i` the pipeline holds slab `i / 4` of each stack, so points 0..3 (the rows
of `inputs_a`) see the first weight of each stack and points 4..7 (the rows of `inputs_v`) the second. The
pipeline moves a slab only when its index changes, that is at points 0 and 4.

The body rounds the row block `x` and the two slabs `W, W'` to bf16, forms `x Wᵀ` and `x W'ᵀ` (contraction over
the second axis of both factors, f32 accumulation from zero) and rounds both products to bf16; each product is
stored whole, once, into the block of 1024 rows of its 8192 x 1024 bf16 result at the same row offset as `x`.

This file states that region at an arbitrary content `V` of the TensorCore's buffers on entry: which block each
window holds at a point, what the body leaves in each result block as a closed function of the operand blocks,
the body's separation-logic triple, the pipeline's proof data and its body obligation at every grid point.
-/

-- membership in a rectangle of 1024 x 1024 extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`): for window 0 the rows
    `1024 t .. 1024 t + 1023` of the concatenated input, for windows 1 and 2 slab `t / 4` of a weight stack, for
    windows 3 and 4 the rows `1024 t .. 1024 t + 1023` of a result. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the input: its current staging buffer holds rows `1024 t ..` at every point, for ANY proof data
    whose array is `V`'s (`hA`) and whose body leaves the block in place (`hafter`). The window is uncut and never
    idle; it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The slab of the first weight stack: the pipeline fetches it only where `t / 4` changes (points 0 and 4); at the
    other points the slab index has not moved and the body left the buffer as it found it, so the buffer still holds
    slab `t / 4`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The slab of the second weight stack, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 1024 x 1024 buffer (a row block of the input, or a block of a result). -/
abbrev r0_x : Rect S1024x1024 := Rect.unit (s := S1024x1024) ![0, 0] S1024x1024.size inb_S1024x1024_S1024x1024_0_0
/-- The whole of a 1 x 1024 x 1024 buffer (one slab of a weight stack). -/
abbrev r0_w : Rect S1x1024x1024 := Rect.unit (s := S1x1024x1024) ![0, 0, 0] S1x1024x1024.size inb_S1x1024x1024_S1x1024x1024_0_0_0

/-! ## What the body leaves in each result window's buffer -/

/-- The first result's block after the body, from the row block `x0` and the slab `x1` of the first stack: one
    store of the whole block, of `bf16 (bf16 x0 · (bf16 x1)ᵀ)` (the slab read as a 1024 x 1024 matrix, the product
    accumulated in f32 from zero). -/
def out0_3 (x0 : Vec F S1024x1024 .f32) (x1 : Vec F S1x1024x1024 .f32) : Vec F S1024x1024 .bf16 :=
  View.canon [⟨r0_x, k0_pay2 (View.ld x0 r0_x) (View.ld x1 r0_w)⟩]

/-- The second result's block after the body, from the row block `x0` and the slab `x2` of the second stack: the
    same product against the other weight. -/
def out0_4 (x0 : Vec F S1024x1024 .f32) (x2 : Vec F S1x1024x1024 .f32) : Vec F S1024x1024 .bf16 :=
  View.canon [⟨r0_x, k0_pay3 (View.ld x0 r0_x) (View.ld x2 r0_w)⟩]

/-- One store through the whole-buffer rectangle tiles the buffer (checked by evaluation), so it covers it. -/
theorem cover0_3 (p0 : Vec F S1024x1024 .bf16) (y : S1024x1024.Idx) :
    ∃ pc ∈ ([⟨r0_x, p0⟩] : List (View.Piece (Elt F) S1024x1024 .bf16)), y ∈ pc.1.set :=
  View.cover_of_tiled [⟨r0_x, p0⟩] S1024x1024.size (by rfl) y

/-- The same of the second result's one store. -/
theorem cover0_4 (p0 : Vec F S1024x1024 .bf16) (y : S1024x1024.Idx) :
    ∃ pc ∈ ([⟨r0_x, p0⟩] : List (View.Piece (Elt F) S1024x1024 .bf16)), y ∈ pc.1.set :=
  View.cover_of_tiled [⟨r0_x, p0⟩] S1024x1024.size (by rfl) y

/-! ## The body's triple -/

set_option maxHeartbeats 1000000 in
/-- The kernel body on whole staging memrefs — the row block's at read contents `x0`, the two slabs' at `x1`, `x2`,
    the two results' at anything — runs to the continuation holding the three operands' as they were and each
    result's at `out0_3` / `out0_4` of the operands. The printed function is its skeleton: three whole-buffer loads
    of the operands, then per result a load of its buffer (the value is discarded) and one whole-buffer store. The
    grid coordinate is not read. -/
theorem sound_kernel0 (c : Dev nD) (E : Set ℕ) (i : grid0.Coords)
    (arg1 : Memref sig .tc .vmem S1024x1024 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1024 .bf16) (harg4 : arg4.IsWhole)
    (arg5 : Memref sig .tc .vmem S1024x1024 .bf16) (harg5 : arg5.IsWhole)
    (x0 : Vec F S1024x1024 .f32) (x1 : Vec F S1x1024x1024 .f32) (x2 : Vec F S1x1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj4_kernel i arg1 harg1 arg2 harg2 arg3 harg3 arg4 harg4 arg5 harg5) K := by
  simp only [cc0__proj4_kernel_eq_skeleton]; unfold cc0__proj4_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  -- the three operands are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  -- each result's buffer reads as the canon of its one covering store
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_4 _)

/-! ## The pipeline's proof data -/

/-- The proof data of the region's pipeline on core `c`: the arrays as the region finds them (`V`); after the body
    at point `t` each operand's buffer at its block (the body leaves operands alone) and each result's at the
    rounded product of the row block with the slab of its stack; the invariant is the class's (the scoped rest and
    the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each operand's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the five windows' current
    staging buffers, each owned whole at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the operands' memrefs hold their blocks (`before0_0`, `before0_1`, `before0_2`), so
    `sound_kernel0` applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Attention.lean ====
/- REGION 1 of @main — the fused scores / softmax / weighted-sum kernel (custom_call 1, pipeline 1) — as a class-A
   region at a PARAMETER `V`, the TensorCore's buffer contents when the region is entered.

   The kernel runs on a grid of 8 points. At point `t` it is handed
     window 0: rows 512·t … 512·t+511 of `b_a` (4096 x 1024, bf16), a 512 x 1024 block;
     window 1: `a_v` whole (4096 x 1024, bf16), the same block at every point;
     window 2: `b_v` whole (4096 x 1024, bf16), the same block at every point;
     window 3: rows 512·t … 512·t+511 of the residual input (4096 x 1024, f32);
   and it fills
     window 4: rows 512·t … 512·t+511 of the attention weights `alpha` (4096 x 4096, bf16), a 512 x 4096 block:
               the row softmax of the scores  block(b_a) · a_vᵀ, rounded to bf16;
     window 5: rows 512·t … 512·t+511 of the output (4096 x 1024, f32):  alpha_block · b_v + residual block.
   Each staging buffer is loaded whole and each output buffer is stored whole, once, through a literal rectangle.

   Here: each window's block at a point read off `V` (`iblk1`), what the body leaves in each output buffer
   (`out1_4`, `out1_5`), the body's triple (`sound_kernel1`), the pipeline's proof data (`dat1`) and its body
   obligation (`body_obligation1`). -/
import proofs.«419996_j83399674953760_3_alg».proof.Proof.Gen.KernelIdeal.Launch
import proofs.«419996_j83399674953760_3_alg».proof.Proof.Gen.KernelIdeal.Skeleton
import proofs.«419996_j83399674953760_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, the fused scores / softmax / weighted-sum kernel (pipeline 1), at the entry contents `V` -/

/-! ## The windows' blocks -/

/-- Window `w`'s block at point `t`, read off its array as the region finds it (`V`): for windows 0, 3, 4, 5 the
    rows 512·t … 512·t+511 of the window's matrix, for windows 1 and 2 the whole matrix. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block — rows 512·t … 512·t+511 of the matrix `b_a` — at every point, fetched there or not, for
    ANY proof data whose array is `V`'s (`hA`) and whose body leaves the block in place (`hafter`): unfetched, the
    block index has not moved since the point before; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block — the matrix `a_v`, whole, the same at every point and fetched at the first only — at every point, fetched there or not, for
    ANY proof data whose array is `V`'s (`hA`) and whose body leaves the block in place (`hafter`): unfetched, the
    block index has not moved since the point before; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block — the matrix `b_v`, whole, the same at every point and fetched at the first only — at every point, fetched there or not, for
    ANY proof data whose array is `V`'s (`hA`) and whose body leaves the block in place (`hafter`): unfetched, the
    block index has not moved since the point before; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block — rows 512·t … 512·t+511 of the residual input — at every point, fetched there or not, for
    ANY proof data whose array is `V`'s (`hA`) and whose body leaves the block in place (`hafter`): unfetched, the
    block index has not moved since the point before; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

/-- The whole 512 x 1024 block (the `b_a` block; the residual block; the output block). -/
abbrev r1_0 : Rect S512x1024 := Rect.unit (s := S512x1024) ![0, 0] S512x1024.size inb_S512x1024_S512x1024_0_0
/-- The whole 4096 x 1024 matrix (the matrix `a_v`; the matrix `b_v`). -/
abbrev r1_1 : Rect S4096x1024 := Rect.unit (s := S4096x1024) ![0, 0] S4096x1024.size inb_S4096x1024_S4096x1024_0_0
/-- The whole 512 x 4096 block of attention weights. -/
abbrev r1_4 : Rect S512x4096 := Rect.unit (s := S512x4096) ![0, 0] S512x4096.size inb_S512x4096_S512x4096_0_0

/-! ## What the body leaves in each output window's buffer -/

/-- Window 4's staging buffer after the body, from the `b_a` block `x0` and the matrix `a_v` `x1`: its one store, of the
    whole block, of `k1_pay1` — the scores `x0 · x1ᵀ` (f32 accumulation from 0), less each row's maximum,
    exponentiated, divided by each row's sum, rounded to bf16: the row softmax. -/
def out1_4 (x0 : Vec F S512x1024 .bf16) (x1 : Vec F S4096x1024 .bf16) : Vec F S512x4096 .bf16 :=
  View.canon [⟨r1_4, k1_pay1 (View.ld x0 r1_0) (View.ld x1 r1_1)⟩]

/-- Window 5's staging buffer after the body, from the `b_a` block `x0`, the matrix `a_v` `x1`, the matrix `b_v` `x2` and the
    residual block `x3`: its one store, of the whole block, of `k1_pay2` — the attention weights (the bf16 softmax
    above) times `x2` (f32 accumulation from 0), plus `x3`. -/
def out1_5 (x0 : Vec F S512x1024 .bf16) (x1 : Vec F S4096x1024 .bf16) (x2 : Vec F S4096x1024 .bf16) (x3 : Vec F S512x1024 .f32) : Vec F S512x1024 .f32 :=
  View.canon [⟨r1_0, k1_pay2 (View.ld x0 r1_0) (View.ld x1 r1_1) (View.ld x2 r1_1) (View.ld x3 r1_0)⟩]

/-- The one store of window 4 is of the whole block, so it covers it (checked by evaluation). -/
theorem cover1_4 (p0 : Vec F S512x4096 .bf16) (y : S512x4096.Idx) :
    ∃ pc ∈ ([⟨r1_4, p0⟩] : List (View.Piece (Elt F) S512x4096 .bf16)), y ∈ pc.1.set :=
  View.cover_of_tiled [⟨r1_4, p0⟩] S512x4096.size (by rfl) y

/-- The one store of window 5 is of the whole block, so it covers it (checked by evaluation). -/
theorem cover1_5 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-! ## The body's triple -/

set_option maxHeartbeats 1000000 in
/-- The kernel body on whole staging memrefs, the four inputs' at read contents `x0 … x3` and the two outputs' at
    anything, runs to the continuation holding the inputs' as they were, window 4's at `out1_4 x0 x1` and window 5's
    at `out1_5 x0 x1 x2 x3`: the printed function is its skeleton — four whole loads, a (dead) load and the whole store
    of the softmax block, a (dead) load and the whole store of the weighted sum plus residual. -/
theorem sound_kernel1 (c : Dev nD) (E : Set ℕ) (i : grid1.Coords)
    (arg0 : Memref sig .tc .vmem S512x1024 .bf16) (harg0 : arg0.IsWhole) (arg1 : Memref sig .tc .vmem S4096x1024 .bf16) (harg1 : arg1.IsWhole)
    (arg2 : Memref sig .tc .vmem S4096x1024 .bf16) (harg2 : arg2.IsWhole) (arg3 : Memref sig .tc .vmem S512x1024 .f32) (harg3 : arg3.IsWhole)
    (arg4 : Memref sig .tc .vmem S512x4096 .bf16) (harg4 : arg4.IsWhole) (arg5 : Memref sig .tc .vmem S512x1024 .f32) (harg5 : arg5.IsWhole)
    (x0 : Vec F S512x1024 .bf16) (x1 : Vec F S4096x1024 .bf16) (x2 : Vec F S4096x1024 .bf16) (x3 : Vec F S512x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out1_4 x0 x1) ∗ owns (c : Thread nD τ) arg5 fullShare (out1_5 x0 x1 x2 x3)) -∗ K ⟨⟩))
      ⊢ wp frame (wpE (defs₀ (F := F)) Variants.none c none) E (cc1__fused_scores_softmax_av_kernel i arg0 harg0 arg1 harg1 arg2 harg2 arg3 harg3 arg4 harg4 arg5 harg5) K := by
  simp only [cc1__fused_scores_softmax_av_kernel_eq_skeleton]; unfold cc1__fused_scores_softmax_av_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block, window 4's at the softmax block `out1_4` of the `b_a` block and `a_v`,
    window 5's at `out1_5` of the four input blocks; the invariant the class's (the scoped rest and the generator
    register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, what the core owes, and each window's current staging
    buffer, owned whole, at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.TransposedSum.lean ====
/-
  Region 2 of @main: the transposed-product reduction with a residual.

  The kernel runs on a 4 × 4 grid; point `t` has coordinates `(t / 4, t % 4)`, the second the reduction axis.
  It keeps a 1024 × 1024 f32 scratch from point to point: at `t % 4 = 0` it first stores the zero block into the
  scratch; at every point it adds to the scratch the product of the transposed block of its first operand with
  the block of its second; at `t % 4 = 3` it adds the residual block to the scratch and stores the sum into the
  output window's staging buffer, which the pipeline writes back at those points only (elsewhere the window is
  idle). So after the body at point `t` the scratch holds the partial sum over the row-blocks `0 … t % 4` of
  the reduction axis, and the output block written back at `t % 4 = 3` is the whole sum plus the residual.

  This module states that accumulation (`accAt2`), the region's proof data over it (`dat2`) and the body
  obligation: the body's run in each of its three control cases, and the invariant that carries the scratch's
  contents between the points.
-/
import proofs.«419996_j83399674953760_3_alg».proof.Proof.Gen.KernelIdeal.Launch
import proofs.«419996_j83399674953760_3_alg».proof.Proof.Gen.KernelIdeal.Skeleton
import proofs.«419996_j83399674953760_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the accumulation -/

/-- The whole rectangle of a 1024 × 1024 buffer: every load and store of the body goes through it. -/
abbrev rB : Rect S1024x1024 := Rect.unit (s := S1024x1024) ![0, 0] S1024x1024.size inb_S1024x1024_S1024x1024_0_0

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the reset store leaves in the scratch: the zero block. -/
def zero2 : Vec F S1024x1024 .f32 := View.canon [⟨rB, k2_pay1 (F := F)⟩]

/-- One accumulation step: the scratch `s` plus the product of the transposed block `a` with the block `b`. -/
def acc2 (a b : Vec F S1024x1024 .bf16) (s : Vec F S1024x1024 .f32) : Vec F S1024x1024 .f32 :=
  View.canon [⟨rB, k2_pay2 (View.ld a rB) (View.ld b rB) (View.ld s rB)⟩]

/-- The output block: the accumulated scratch `s` plus the residual block `r`. -/
def fin2 (s r : Vec F S1024x1024 .f32) : Vec F S1024x1024 .f32 :=
  View.canon [⟨rB, k2_pay3 (View.ld s rB) (View.ld r rB)⟩]

/-- The scratch after the body at position `n`: the partial sum, over the row-blocks `0 … n % 4` of the reduction
    axis, of the transposed first operand's block times the second operand's block — restarted from the zero
    block at every point whose second coordinate is `0`, otherwise added onto what the point before left. -/
def accAt2 (c : Dev nD) : (n : ℕ) → n < cfg2.N → Vec F S1024x1024 .f32
  | 0, hn => acc2 (iblk2 V c 0 ⟨0, hn⟩) (iblk2 V c 1 ⟨0, hn⟩) zero2
  | n + 1, hn => acc2 (iblk2 V c 0 ⟨n + 1, hn⟩) (iblk2 V c 1 ⟨n + 1, hn⟩)
      (if (n + 1) % 4 = 0 then zero2 else accAt2 c n (Nat.lt_of_succ_lt hn))

/-- The accumulation's two equations. -/
theorem accAt2_zero (c : Dev nD) (hn : 0 < cfg2.N) :
    accAt2 V c 0 hn = acc2 (iblk2 V c 0 ⟨0, hn⟩) (iblk2 V c 1 ⟨0, hn⟩) zero2 := rfl

theorem accAt2_succ (c : Dev nD) (n : ℕ) (hn : n + 1 < cfg2.N) :
    accAt2 V c (n + 1) hn = acc2 (iblk2 V c 0 ⟨n + 1, hn⟩) (iblk2 V c 1 ⟨n + 1, hn⟩)
      (if (n + 1) % 4 = 0 then zero2 else accAt2 V c n (Nat.lt_of_succ_lt hn)) := rfl

/-! ## The body's branch conditions, decided over the grid -/

/-- The condition of the body's first `scf.if`: the second grid coordinate is `0` (the scalar chain of the body
    substituted). -/
abbrev cond2_0 (i : grid2.Coords) : Prop :=
  (Scalar.cmpi .ne (Scalar.extui (Scalar.cmpi .eq (BitVec.ofNat 32 (i 1).val) 0#32)) 0#32) = 1#1
/-- It holds at the points ≡ 0 (mod 4): the first point of each reduction. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if`: the second grid coordinate is `3`. -/
abbrev cond2_1 (i : grid2.Coords) : Prop := k2_cond2 i = 1#1
/-- It holds at the points ≡ 3 (mod 4): the last point of each reduction. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

/-- Away from a reduction's last point the output window is idle (the body stores nothing into it) -/
theorem idleAt2_3 : ∀ t : Fin cfg2.N, ¬ t.val % 4 = 3 → cfg2.idle 3 (grid2.coords t) = true := by decide +kernel
/-- and is not written back; -/
theorem noFlush2_3 : ∀ t : Fin cfg2.N, ¬ t.val % 4 = 3 → (cfg2.win 3).flush t = false := by decide +kernel
/-- at a reduction's last point it is live. -/
theorem liveAt2_3 : ∀ t : Fin cfg2.N, t.val % 4 = 3 → cfg2.idle 3 (grid2.coords t) = false := by decide +kernel

/-! ## The scratch and the region invariant -/

/-- The scratch operand: a whole scoped buffer of the kernel's own, carried from point to point. -/
abbrev scM2 : Memref sig .tc .vmem S1024x1024 .f32 := Memref.whole cc2_scratch0

/-- The core's scoped buffers other than this region's staging buffers and its scratch, at some contents each:
    carried through the region unopened. -/
def restS2 (c : Dev nD) : sProp 𝕄 :=
  Pipeline.scopedRestBut (Ix := Unit) (Name := ℕ) (U := UR sig nD τ) (Lvl := ℕ) (Val := Elt F) spec2 c [cc2_scratch0]

/-- The class's invariant with the scratch split off as a memref owned at some contents. -/
theorem PhiA2_eq (c : Dev nD) :
    (Pipeline.ΦA spec2 c : sProp 𝕄)
      = iprop(iprop(iprop(∃ d, owns (c : Thread nD τ) scM2 fullShare d) ∗ restS2 (F := F) c) ∗ (∃ r, prngReg c r)) := by
  unfold Pipeline.ΦA restS2
  rw [Pipeline.scopedRest_split_of_list spec2 c [cc2_scratch0] (by decide) (by decide)]
  simp only [scM2, owns_whole, bigSepL_singleton]; try rfl

/-- The region invariant before position `n`: before the first point the class's (the scratch at anything);
    afterwards the scratch owned at the partial sum the point before left, the other scoped buffers at anything
    and the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ restS2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ restS2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ restS2 (F := F) c) ∗ (∃ r, prngReg c r)) := by
  cases n with
  | zero => exact absurd rfl hz
  | succ n => rfl

/-! ## The proof data -/

/-- The proof data of the region on core `c`: the arrays as the region finds them; after the body each input's
    buffer at its block, the output's at the accumulated scratch plus the residual block (consulted only at a
    reduction's last point: elsewhere the window is idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => fin2 (accAt2 V c t.val t.isLt) (iblk2 V c 2 t)
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = fin2 (accAt2 V c t.val t.isLt) (iblk2 V c 2 t) := by dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- Each input's current staging buffer holds its block at every point, fetched there or not: unfetched, the
    block index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## Reading through the whole rectangle -/

theorem zeros2 : (![0, 0] : Fin S1024x1024.rank → ℕ) = fun _ => 0 := by funext a; fin_cases a <;> rfl

/-- Every index of the buffer lies in the whole rectangle. -/
theorem mem_rB (y : S1024x1024.Idx) : y ∈ rB.set := View.mem_set_unit_zero (S := S1024x1024) zeros2 _ y

/-- A list of stores whose first piece is through the whole rectangle covers the buffer. -/
theorem cover_rB {e : EltTy} (w : rB.shape.Idx → Elt F e) (L : List (View.Piece (Elt F) S1024x1024 e)) (y : S1024x1024.Idx) :
    ∃ p ∈ (⟨rB, w⟩ : View.Piece (Elt F) S1024x1024 e) :: L, y ∈ p.1.set :=
  ⟨_, List.mem_cons_self, mem_rB y⟩

/-- A store through the whole rectangle, last, leaves its payload whatever the earlier stores were. -/
theorem canon_rB {e : EltTy} (w : rB.shape.Idx → Elt F e) (L : List (View.Piece (Elt F) S1024x1024 e)) :
    View.canon ((⟨rB, w⟩ : View.Piece (Elt F) S1024x1024 e) :: L) = w :=
  View.canon_cons_unit_zero (S := S1024x1024) zeros2 _ w L

/-- A load through a rectangle of a whole memref owned at contents `x` reads `x` through it. -/
theorem readAt_unread {e : EltTy} (m : Memref sig .tc .vmem S1024x1024 e) (hm : m.IsWhole) (x : Vec F S1024x1024 e)
    (r : Rect S1024x1024) : View.readAt (Elt F) m.view r.toLoadRect (hm.unread x) = View.ld x r := by
  rw [View.readAt_eq_ld, hm.read_unread]

/-- So only the last whole store matters. -/
theorem canon_rB_cons {e : EltTy} (w : rB.shape.Idx → Elt F e) (L : List (View.Piece (Elt F) S1024x1024 e)) :
    View.canon ((⟨rB, w⟩ : View.Piece (Elt F) S1024x1024 e) :: L) = View.canon [(⟨rB, w⟩ : View.Piece (Elt F) S1024x1024 e)] :=
  (canon_rB w L).trans (canon_rB w []).symm

/-! ## The body's run, case by case -/

set_option maxHeartbeats 1000000 in
/-- A reduction's first point (the second coordinate is `0`). On whole memrefs — the inputs' at their blocks, the
    output's at contents handed back untouched, the scratch at anything — the body stores the zero block into the
    scratch, reads it back, adds the transposed product of the two operand blocks and stores the sum: the scratch
    ends at `acc2 x0 x1 zero2`. -/
theorem run2_A (c : Dev nD) (i : grid2.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond2_0 i) (hc1 : ¬cond2_1 i)
    (x0 x1 : Vec F S1024x1024 .bf16) (x2 xi3 : Vec F S1024x1024 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (acc2 x0 x1 zero2)) -∗ K ⟨⟩))
      ⊢ wp frame (wpE (defs₀ (F := F)) Variants.none c none) E
          (cc2__mm_transposeA_reduceK_residual_kernel i arg2 harg2 arg3 harg3 arg4 harg4 arg5 harg5 arg6 harg6) K := by
  simp only [cc2__mm_transposeA_reduceK_residual_kernel_eq_skeleton]; unfold cc2__mm_transposeA_reduceK_residual_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the scratch: the reset store, then the accumulation store over it, whose third operand is the reset's block read back
  unfold run2_A.sl.v7 run2_A.sl.HS_1
  rw [View.read_writes_eq_canon _ _ _ (cover_rB _ _), canon_rB_cons, View.readCov_eq_canon_ld _ _ _ (cover_rB _ _)]
  rw [readAt_unread, readAt_unread]
  rfl

set_option maxHeartbeats 1000000 in
/-- A middle point (the second coordinate is `1` or `2`). The scratch comes at the partial sum `xs` the point before
    left and ends at `acc2 x0 x1 xs`, one more block product added; the output's buffer goes back untouched. -/
theorem run2_B (c : Dev nD) (i : grid2.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond2_0 i) (hc1 : ¬cond2_1 i)
    (x0 x1 : Vec F S1024x1024 .bf16) (x2 xi3 xs : Vec F S1024x1024 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (acc2 x0 x1 xs)) -∗ K ⟨⟩))
      ⊢ wp frame (wpE (defs₀ (F := F)) Variants.none c none) E
          (cc2__mm_transposeA_reduceK_residual_kernel i arg2 harg2 arg3 harg3 arg4 harg4 arg5 harg5 arg6 harg6) K := by
  simp only [cc2__mm_transposeA_reduceK_residual_kernel_eq_skeleton]; unfold cc2__mm_transposeA_reduceK_residual_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (cover_rB _ _)]
  rw [readAt_unread, readAt_unread, readAt_unread]
  rfl

set_option maxHeartbeats 1000000 in
/-- A reduction's last point (the second coordinate is `3`). The scratch comes at `xs` and ends at `acc2 x0 x1 xs`,
    the whole sum; the body then reads it back, adds the residual block `x2` and stores the result into the output's
    buffer, whatever that held: it ends at `fin2 (acc2 x0 x1 xs) x2`. -/
theorem run2_C (c : Dev nD) (i : grid2.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond2_0 i) (hc1 : cond2_1 i)
    (x0 x1 : Vec F S1024x1024 .bf16) (x2 xs : Vec F S1024x1024 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare (fin2 (acc2 x0 x1 xs) x2)
            ∗ owns (c : Thread nD τ) arg6 fullShare (acc2 x0 x1 xs)) -∗ K ⟨⟩))
      ⊢ wp frame (wpE (defs₀ (F := F)) Variants.none c none) E
          (cc2__mm_transposeA_reduceK_residual_kernel i arg2 harg2 arg3 harg3 arg4 harg4 arg5 harg5 arg6 harg6) K := by
  simp only [cc2__mm_transposeA_reduceK_residual_kernel_eq_skeleton]; unfold cc2__mm_transposeA_reduceK_residual_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · -- the output block: the scratch as the accumulation store left it, read back, plus the residual block
    iexists _; isplitr
    swap; · iexact H3
    ipureintro
    unfold run2_C.sl.v16 run2_C.sl.HS_1
    rw [View.read_writes_eq_canon _ _ _ (cover_rB _ _), View.readCov_eq_canon_ld _ _ _ (cover_rB _ _)]
    rw [readAt_unread, readAt_unread, readAt_unread, readAt_unread]
    rfl
  iexists _; isplitr
  swap; · iexact HS
  ipureintro
  unfold run2_C.sl.HS_1
  rw [View.read_writes_eq_canon _ _ _ (cover_rB _ _)]
  rw [readAt_unread, readAt_unread, readAt_unread]
  rfl

/-! ## The body obligation -/

/-- Each window's current staging memref at point `t`, spelled as the pipeline passes it to the body. -/
abbrev ms2_0 (t : Fin cfg2.N) : Memref sig .tc .vmem S1024x1024 .bf16 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S1024x1024 .f32 := win2_2.stage (cfg2.slots t 2)
abbrev ms2_3 (t : Fin cfg2.N) : Memref sig .tc .vmem S1024x1024 .f32 := win2_3.stage (cfg2.slots t 3)

/-- The inputs are never idle: the body leaves each one's buffer at its block. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
/-- At a reduction's last point the output's buffer is left at the sum plus the residual block. -/
theorem leaves2_3 (c : Dev nD) (t : Fin cfg2.N) (h3 : t.val % 4 = 3) :
    (dat2 V c).leavesExact 3 t
      = owns (c : Thread nD τ) (ms2_3 t) fullShare (fin2 (accAt2 V c t.val t.isLt) (iblk2 V c 2 t)) := by
  unfold Dat.leavesExact; rw [liveAt2_3 t h3, after2_3]

/-- The accumulation at a reduction's first point: restarted from the zero block. -/
theorem accAt2_reset (c : Dev nD) (t : Fin cfg2.N) (h0 : t.val % 4 = 0) :
    accAt2 V c t.val t.isLt = acc2 (iblk2 V c 0 t) (iblk2 V c 1 t) zero2 := by
  obtain ⟨n, hn⟩ := t
  cases n with
  | zero => rfl
  | succ n => exact (accAt2_succ V c n hn).trans (by rw [if_pos h0])

/-- At any other point: one more block product onto what the point before left. -/
theorem accAt2_step (c : Dev nD) (t : Fin cfg2.N) (h0 : ¬ t.val % 4 = 0) :
    accAt2 V c t.val t.isLt
      = acc2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact (accAt2_succ V c n hn).trans (by rw [if_neg h0]; rfl)

/-- Before any point the invariant yields the scratch at some contents. -/
theorem PhiS2_any (c : Dev nD) (n : ℕ) (h : n ≤ cfg2.N) :
    PhiS2 V c n h ⊢ iprop(iprop(iprop(∃ d, owns (c : Thread nD τ) scM2 fullShare d) ∗ restS2 (F := F) c) ∗ (∃ r, prngReg c r)) := by
  cases n with
  | zero => rw [PhiS2_zero V c 0 _ rfl, PhiA2_eq]
  | succ n =>
    rw [PhiS2_succ]
    iintro ⟨⟨HS, Hr⟩, Hg⟩
    isplitl [HS Hr]
    · isplitl [HS]
      · iexists _; iexact HS
      iexact Hr
    iexact Hg

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. Its second coordinate says which case it is in. The inputs' buffers hold their blocks;
    the invariant hands over the scratch — at the partial sum the point before left, or (a reduction's first
    point, where the body overwrites it first) at anything — and takes it back at this point's partial sum. Away
    from a reduction's last point the output's buffer goes back as it came; there it is left at the sum plus the
    residual block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ, PhiS2_castSucc]
  rw [leaves2_0, leaves2_1, leaves2_2]
  have hN : t.val < 16 := lt_of_lt_of_eq t.isLt (show cfg2.N = 16 from N_2)
  by_cases h3 : t.val % 4 = 3
  · -- a reduction's last point
    have h0 : ¬ t.val % 4 = 0 := by omega
    have hz : t.val ≠ 0 := by omega
    rw [leaves2_3 V c t h3, accAt2_step V c t h0, PhiS2_pos V c _ _ hz]
    iintro ⟨⟨⟨HS, Hr⟩, Hg⟩, Ho, ⟨%d0, H0⟩, ⟨%d1, H1⟩, ⟨%d2, H2⟩, ⟨%d3, H3⟩⟩
    iapply (run2_C c (grid2.coords t) _ _ _ _ _ _ _ _ _ _ (fun h => h0 ((hcond2_0 t).mp h)) ((hcond2_1 t).mpr h3)
      (iblk2 V c 0 t) (iblk2 V c 1 t) (iblk2 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t h3) (noFlush2_3 t h3)]
    by_cases h0 : t.val % 4 = 0
    · -- a reduction's first point: whatever the scratch held is overwritten
      rw [accAt2_reset V c t h0]
      iintro ⟨HP, Ho, ⟨%d0, H0⟩, ⟨%d1, H1⟩, ⟨%d2, H2⟩, ⟨%d3, H3⟩⟩
      icases (PhiS2_any V c _ _) $$ HP with ⟨⟨HS, Hr⟩, Hg⟩
      iapply (run2_A c (grid2.coords t) _ _ _ _ _ _ _ _ _ _ ((hcond2_0 t).mpr h0) (fun h => h3 ((hcond2_1 t).mp h))
        (iblk2 V c 0 t) (iblk2 V c 1 t) (iblk2 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · -- a middle point
      have hz : t.val ≠ 0 := fun e => h0 (by rw [e])
      rw [accAt2_step V c t h0, PhiS2_pos V c _ _ hz]
      iintro ⟨⟨⟨HS, Hr⟩, Hg⟩, Ho, ⟨%d0, H0⟩, ⟨%d1, H1⟩, ⟨%d2, H2⟩, ⟨%d3, H3⟩⟩
      iapply (run2_B c (grid2.coords t) _ _ _ _ _ _ _ _ _ _ (fun h => h0 ((hcond2_0 t).mp h)) (fun h => h3 ((hcond2_1 t).mp h))
        (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: what the scratch holds is forgotten. -/
theorem Phi_out2 (c : Dev nD) (t : Fin (cfg2.N + 1)) : (dat2 V c).Φ t ⊢ Pipeline.ΦA spec2 c := by
  rw [show (dat2 V c).Φ t = PhiS2 V c t.val (Nat.le_of_lt_succ t.isLt) from rfl, PhiA2_eq]
  exact PhiS2_any V c _ _

/-- The same after the last point. -/
theorem hout2 (c : Dev nD) : (dat2 V c).Φ (Fin.last cfg2.N) ⊢ Pipeline.ΦA spec2 c := Phi_out2 V c _

end Cert.KernelIdeal.Fr

end
-- ==== Proof.KI.Run.lean ====
/-
  The whole program's run. @main is five items: a stretch of host operations (the two row-stacked inputs and the two
  stacked weight pairs are laid out), the projection region, a stretch of four slices (the two halves of each projection
  output), the attention region, the transposed-sum region. The contents of every unscoped buffer at each boundary are a
  fold from the launch memory: a host stretch applies its operations, a region replaces its windows' arrays by what its
  write-backs leave (the inputs as entered, each output's flushed blocks folded) and leaves every other buffer alone.
  Each region is entered from "every unscoped buffer at the boundary's contents, the generator register at some state,
  nothing owed" and left at the next boundary's contents; the run ends with every unscoped buffer at the last fold.
-/
import proofs.«419996_j83399674953760_3_alg».proof.Proof.KI.Projections
import proofs.«419996_j83399674953760_3_alg».proof.Proof.KI.Attention
import proofs.«419996_j83399674953760_3_alg».proof.Proof.KI.TransposedSum
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => (s₀ m ρ).mem ((c : Dev nD), b)
/-- After the first host stretch: the stacked inputs and weights are laid out (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its two output arrays hold their flushed blocks, every other buffer is as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the four halves are sliced out (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region (the transposed-sum region's entry: no host operation lies between the two). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the transposed-sum region: the end of @main. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_noAlloc : (hostOps0 : List (HloOp τ sig (Elt F))).Forall fun op => op.fresh = ∅ := by
  simp only [List.Forall]; repeat' constructor
/-- No operation of the second stretch allocates a buffer. -/
theorem hostOps1_noAlloc : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last fold, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The projection region: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The transposed-sum region: entered at `W4`, left at `W5`; its invariant carries the accumulator between points,
    and is the class invariant before the first point and gives it back after the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (V4 m ρ) c)
    unfold Pipeline.ΦA
    iintro ⟨Hp, -, Hr⟩
    isplitl [Hr]; · iexact Hr
    iexact Hp
  hout c := by
    refine (hout2 (V4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_noAlloc (W0 m ρ)),
    .region (reg0 m ρ),
    .host (hseg hostOps1 hostOps1_sub hostOps1_noAlloc (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## Reading the fold back

No host operation writes an argument, and a region changes only its output windows' arrays: an argument's buffer at the
end is its launch contents. The four slices, the attention weights and the two results are read off the fold at the
regions' final arrays. -/

/-- The references the first host stretch writes. -/
abbrev hostOps0_Wr : List (Ref sig .tc) := [main_v0, main_v1, main_v2, main_v3, main_v4, main_v5, main_v6]
theorem hostOps0_writes : (hostOps0 : List (HloOp τ sig (Elt F))).Forall fun op => op.writes ⊆ (hostOps0_Wr.map (Proc.devRef (τ := τ) .tc)).toFinset := by
  simp only [List.Forall]
  refine ⟨?_, ?_, ?_, ?_, ?_, ?_, ?_⟩ <;>
    (simp only [StableHlo.unary_writes, StableHlo.binary_writes, Finset.singleton_subset_iff, List.mem_toFinset]; exact List.mem_map_of_mem (by decide))
/-- The references the second host stretch writes. -/
abbrev hostOps1_Wr : List (Ref sig .tc) := [main_v8, main_v9, main_v10, main_v11]
theorem hostOps1_writes : (hostOps1 : List (HloOp τ sig (Elt F))).Forall fun op => op.writes ⊆ (hostOps1_Wr.map (Proc.devRef (τ := τ) .tc)).toFinset := by
  simp only [List.Forall]
  refine ⟨?_, ?_, ?_, ?_⟩ <;>
    (simp only [StableHlo.unary_writes, StableHlo.binary_writes, Finset.singleton_subset_iff, List.mem_toFinset]; exact List.mem_map_of_mem (by decide))

theorem W1_keep (c : Dev nD) (b : Ref sig .tc) (hb : b ∉ hostOps0_Wr) :
    W1 m ρ c (Proc.devRef .tc b) = m ((c : Thread nD τ).loc b) :=
  StableHlo.after_of_writes_sub hostOps0 _ hostOps0_writes hb
theorem W3_keep (c : Dev nD) (b : Ref sig .tc) (hb : b ∉ hostOps1_Wr) :
    W3 m ρ c (Proc.devRef .tc b) = W2 m ρ c (Proc.devRef .tc b) :=
  StableHlo.after_of_writes_sub hostOps1 _ hostOps1_writes hb

/-- A buffer that is no window's array of any region and that no host operation writes ends as launched. -/
theorem W5_bypass (c : Dev nD) (b : Ref sig .tc) (h0 : b ∉ hostOps0_Wr) (h1 : b ∉ hostOps1_Wr)
    (hw0 : ∀ w, Pipeline.arrRef spec0 w ≠ b) (hw1 : ∀ w, Pipeline.arrRef spec1 w ≠ b) (hw2 : ∀ w, Pipeline.arrRef spec2 w ≠ b) :
    W5 m ρ c (Proc.devRef .tc b) = m ((c : Thread nD τ).loc b) :=
  (W5_of_ne m ρ c b hw2).trans <| (W4_of_ne m ρ c b hw1).trans <| (W3_keep m ρ c b h1).trans <|
    (W2_of_ne m ρ c b hw0).trans (W1_keep m ρ c b h0)

/-- The first argument is the attention region's residual input window: read, never written. -/
theorem W3_main_arg0 (c : Dev nD) : W3 m ρ c (Proc.devRef .tc main_arg0) = m ((c : Thread nD τ).loc main_arg0) :=
  (W3_keep m ρ c main_arg0 (by decide)).trans <| (W2_of_ne m ρ c main_arg0 (by decide)).trans (W1_keep m ρ c main_arg0 (by decide))
theorem W4_main_arg0 (c : Dev nD) : W4 m ρ c (Proc.devRef .tc main_arg0) = m ((c : Thread nD τ).loc main_arg0) :=
  ((W4_arr m ρ c 3).trans (((dat1 (V3 m ρ) c).arrAt_in 3 rfl _).trans (A_eq1 (V3 m ρ) c 3))).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
/-- The second argument is the transposed-sum region's residual input window. -/
theorem W4_main_arg1 (c : Dev nD) : W4 m ρ c (Proc.devRef .tc main_arg1) = m ((c : Thread nD τ).loc main_arg1) :=
  (W4_of_ne m ρ c main_arg1 (by decide)).trans <| (W3_keep m ρ c main_arg1 (by decide)).trans <|
    (W2_of_ne m ρ c main_arg1 (by decide)).trans (W1_keep m ρ c main_arg1 (by decide))
theorem W5_main_arg1 (c : Dev nD) : W5 m ρ c (Proc.devRef .tc main_arg1) = m ((c : Thread nD τ).loc main_arg1) :=
  ((W5_arr m ρ c 2).trans (((dat2 (V4 m ρ) c).arrAt_in 2 rfl _).trans (A_eq2 (V4 m ρ) c 2))).trans (W4_main_arg1 m ρ c)
theorem W5_main_arg2 (c : Dev nD) : W5 m ρ c (Proc.devRef .tc main_arg2) = m ((c : Thread nD τ).loc main_arg2) :=
  W5_bypass m ρ c main_arg2 (by decide) (by decide) (by decide) (by decide) (by decide)
theorem W5_main_arg3 (c : Dev nD) : W5 m ρ c (Proc.devRef .tc main_arg3) = m ((c : Thread nD τ).loc main_arg3) :=
  W5_bypass m ρ c main_arg3 (by decide) (by decide) (by decide) (by decide) (by decide)
theorem W5_main_arg4 (c : Dev nD) : W5 m ρ c (Proc.devRef .tc main_arg4) = m ((c : Thread nD τ).loc main_arg4) :=
  W5_bypass m ρ c main_arg4 (by decide) (by decide) (by decide) (by decide) (by decide)
theorem W5_main_arg5 (c : Dev nD) : W5 m ρ c (Proc.devRef .tc main_arg5) = m ((c : Thread nD τ).loc main_arg5) :=
  W5_bypass m ρ c main_arg5 (by decide) (by decide) (by decide) (by decide) (by decide)

/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

/-- The first result is the attention region's second output array as that region left it. -/
theorem W5_main_v12_1 (c : Dev nD) : W5 m ρ c (Proc.devRef .tc main_v12_1) = (dat1 (V3 m ρ) c).arrAt 5 cfg1.N :=
  (W5_of_ne m ρ c main_v12_1 (by decide)).trans (W4_arr m ρ c 5)
/-- The second result is the transposed-sum region's output array. -/
theorem W5_main_v13 (c : Dev nD) : W5 m ρ c (Proc.devRef .tc main_v13) = (dat2 (V4 m ρ) c).arrAt 3 cfg2.N :=
  W5_arr m ρ c 3
/-- The attention weights the transposed-sum region reads are the attention region's first output array. -/
theorem V4_main_v12_0 (c : Dev nD) : V4 m ρ c main_v12_0 = (dat1 (V3 m ρ) c).arrAt 4 cfg1.N := W4_arr m ρ c 4
/-- The projection half the transposed-sum region reads is the slice the second host stretch took. -/
theorem V4_main_v8 (c : Dev nD) : V4 m ρ c main_v8 = V3 m ρ c main_v8 := W4_of_ne m ρ c main_v8 (by decide)
theorem V4_main_arg1 (c : Dev nD) : V4 m ρ c main_arg1 = m ((c : Thread nD τ).loc main_arg1) := W4_main_arg1 m ρ c
theorem V3_main_arg0 (c : Dev nD) : V3 m ρ c main_arg0 = m ((c : Thread nD τ).loc main_arg0) := W3_main_arg0 m ρ c

/-- The first host stretch: the row-stacked inputs and the two stacked weight pairs, of the launch contents. -/
theorem V1_main_v0 (c : Dev nD) : V1 m ρ c main_v0 = concatenate S8192x1024 0 [⟨S4096x1024, m ((c : Thread nD τ).loc main_arg0)⟩, ⟨S4096x1024, m ((c : Thread nD τ).loc main_arg1)⟩] concatenates_S4096x1024_S4096x1024_S8192x1024_d0 := by
  show StableHlo.after hostOps0 (fun b => m (c, b)) (Proc.devRef .tc main_v0) = _
  after_results
theorem V1_main_v3 (c : Dev nD) : V1 m ρ c main_v3 = concatenate S2x1024x1024 0 [⟨S1x1024x1024, broadcastInDim S1x1024x1024 ![1, 2] bcast_S1024x1024_S1x1024x1024_1_2 (m ((c : Thread nD τ).loc main_arg3))⟩, ⟨S1x1024x1024, broadcastInDim S1x1024x1024 ![1, 2] bcast_S1024x1024_S1x1024x1024_1_2 (m ((c : Thread nD τ).loc main_arg5))⟩] concatenates_S1x1024x1024_S1x1024x1024_S2x1024x1024_d0 := by
  show StableHlo.after hostOps0 (fun b => m (c, b)) (Proc.devRef .tc main_v3) = _
  after_results
theorem V1_main_v6 (c : Dev nD) : V1 m ρ c main_v6 = concatenate S2x1024x1024 0 [⟨S1x1024x1024, broadcastInDim S1x1024x1024 ![1, 2] bcast_S1024x1024_S1x1024x1024_1_2 (m ((c : Thread nD τ).loc main_arg2))⟩, ⟨S1x1024x1024, broadcastInDim S1x1024x1024 ![1, 2] bcast_S1024x1024_S1x1024x1024_1_2 (m ((c : Thread nD τ).loc main_arg4))⟩] concatenates_S1x1024x1024_S1x1024x1024_S2x1024x1024_d0 := by
  show StableHlo.after hostOps0 (fun b => m (c, b)) (Proc.devRef .tc main_v6) = _
  after_results

/-- The second host stretch: the two halves of each projection output, sliced out of the projection region's final arrays. -/
theorem V3_main_v8 (c : Dev nD) : V3 m ρ c main_v8 = extractStridedSlice S4096x1024 ![0, 0] ((dat0 (V1 m ρ) c).arrAt 3 cfg0.N) slices_S8192x1024_S4096x1024_0_0 := by
  rw [← W2_arr m ρ c 3]
  show StableHlo.after hostOps1 (W2 m ρ c) (Proc.devRef .tc main_v8) = _
  after_results
theorem V3_main_v9 (c : Dev nD) : V3 m ρ c main_v9 = extractStridedSlice S4096x1024 ![4096, 0] ((dat0 (V1 m ρ) c).arrAt 3 cfg0.N) slices_S8192x1024_S4096x1024_4096_0 := by
  rw [← W2_arr m ρ c 3]
  show StableHlo.after hostOps1 (W2 m ρ c) (Proc.devRef .tc main_v9) = _
  after_results
theorem V3_main_v10 (c : Dev nD) : V3 m ρ c main_v10 = extractStridedSlice S4096x1024 ![0, 0] ((dat0 (V1 m ρ) c).arrAt 4 cfg0.N) slices_S8192x1024_S4096x1024_0_0 := by
  rw [← W2_arr m ρ c 4]
  show StableHlo.after hostOps1 (W2 m ρ c) (Proc.devRef .tc main_v10) = _
  after_results
theorem V3_main_v11 (c : Dev nD) : V3 m ρ c main_v11 = extractStridedSlice S4096x1024 ![4096, 0] ((dat0 (V1 m ρ) c).arrAt 4 cfg0.N) slices_S8192x1024_S4096x1024_4096_0 := by
  rw [← W2_arr m ρ c 4]
  show StableHlo.after hostOps1 (W2 m ρ c) (Proc.devRef .tc main_v11) = _
  after_results

end Cert.KernelIdeal.Fr

end
-- ==== Proof.Val.RefRun.lean ====
/-
  The reference program's run read back: every weakly fair execution of the reference ends with its two results at the
  composed host operations of the arguments (the generated run), and each operation of that composition read at an
  index (the generated read lemmas). This module only brings the two generated modules into the proof.
-/
import proofs.«419996_j83399674953760_3_alg».proof.Proof.Gen.ReferenceIdeal.Run
import proofs.«419996_j83399674953760_3_alg».proof.Proof.Gen.ReferenceIdeal.Read
-- ==== Proof.Val.ProjectionsPure.lean ====
import proofs.«419996_j83399674953760_3_alg».proof.Proof.Gen.KernelIdeal.Skeleton
import proofs.«419996_j83399674953760_3_alg».proof.Proof.Val.RefRun
import Idealize.ShloMosaic.Lib.Pipeline.Value
import Idealize.ShloMosaic.Lib.ValueIdx
import Idealize.ShloMosaic.PureOps.Ideal.Laws

/-!
# The four projections, index by index

The first call of the cross-attention multiplies the 8192 x 1024 stack of the two inputs (rows 0..4095 the first
input, rows 4096..8191 the second) by weight matrices taken from two stacks of two 1024 x 1024 matrices: row `r`
of either result is row `r` of the stacked input against slab `r / 4096` of the stack, contracted over the
second axis of both factors,

  `out r d = ∑ k, X r k * W (r / 4096) d k`.

This file states that function (`projAt`, `projG`), reads the body's arithmetic at an index (a matrix product
into a zero accumulator is the plain sum; the roundings are the identity on extended reals; the slab's leading
unit axis is dropped), and reads the reference's four `x @ W.T` products at an index.
-/

noncomputable section

namespace Cert.KernelIdeal.Val

open Cert.KernelIdeal Cert.KernelIdeal.Gen
open Idealize.ShloMosaic Idealize.ShloMosaic.ValueIdx
open scoped BigOperators

/-! ## The result as one function of the stacked input and a weight stack -/

/-- Row `r`, column `d` of a projection: row `r` of the stacked input against row `d` of slab `r / 4096`. -/
def projAt (X : Vec Ideal S8192x1024 .f32) (W : Vec Ideal S2x1024x1024 .f32) (r : Fin 8192) (d : Fin 1024) : EReal :=
  ∑ k : Fin 1024, X (ix2 r k) * W (ix3 (⟨r.val / 4096, by have := r.isLt; omega⟩ : Fin 2) d k)

/-- The whole 8192 x 1024 result. -/
def projG (X : Vec Ideal S8192x1024 .f32) (W : Vec Ideal S2x1024x1024 .f32) : Vec Ideal S8192x1024 .bf16 :=
  fun i => projAt X W ⟨(i 0).val, idx2_lt0 i⟩ ⟨(i 1).val, idx2_lt1 i⟩

theorem projG_apply (X : Vec Ideal S8192x1024 .f32) (W : Vec Ideal S2x1024x1024 .f32) (r : Fin 8192) (d : Fin 1024) :
    projG X W (ix2 r d) = projAt X W r d := rfl

/-! ## The body's matrix product at an index -/

theorem lhs_mm_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_mm_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_mm_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_mm_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A 1024 x 1024 product contracted over the second axis of both factors, accumulated from zero: entry `(p, q)`
    is `∑ k, l p k * r q k`. -/
theorem mm_apply (l r : FVec Ideal S1024x1024 .bf16) (p q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) := by
  refine (Ideal.matmul_constant_zero_apply dot_S1024x1024_S1024x1024_S1024x1024_1_1_0_0_n_n none l r (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-- A 1 x 1024 x 1024 slab viewed as a 1024 x 1024 matrix reads `(0, q, k)` at `(q, k)`. -/
theorem slab_cast_apply (w : Vec Ideal S1x1024x1024 .f32) (h : S1x1024x1024.ShapeCasts S1024x1024) (q k : Fin 1024) :
    shapeCast S1024x1024 w h (ix2 q k) = w (ix3 (0 : Fin 1) q k) := by
  refine shapeCast_apply w h (ix2 q k) (ix3 (0 : Fin 1) q k) ?_
  rw [Shape.rowMajor_val_three, Shape.rowMajor_val_two]
  show ((0 : Nat) * 1024 + q.val) * 1024 + k.val = q.val * 1024 + k.val
  omega

/-- The first result's payload at `(p, q)`: row `p` of the row block against row `q` of the slab. -/
theorem proj_pay2_apply (x0 : Vec Ideal S1024x1024 .f32) (w : Vec Ideal S1x1024x1024 .f32) (p q : Fin 1024) :
    k0_pay2 (F := Ideal) x0 w (ix2 p q) = ∑ k : Fin 1024, x0 (ix2 p k) * w (ix3 (0 : Fin 1) q k) := by
  unfold k0_pay2 k0_pay1
  refine (mm_apply _ _ p q).trans ?_
  refine Finset.sum_congr rfl fun k _ => ?_
  show shapeCast S1024x1024 x0 _ (ix2 p k) * shapeCast S1024x1024 w _ (ix2 q k) = _
  rw [shapeCast_self, slab_cast_apply]

/-- The second result's payload, likewise. -/
theorem proj_pay3_apply (x0 : Vec Ideal S1024x1024 .f32) (w : Vec Ideal S1x1024x1024 .f32) (p q : Fin 1024) :
    k0_pay3 (F := Ideal) x0 w (ix2 p q) = ∑ k : Fin 1024, x0 (ix2 p k) * w (ix3 (0 : Fin 1) q k) := by
  unfold k0_pay3 k0_pay1
  refine (mm_apply _ _ p q).trans ?_
  refine Finset.sum_congr rfl fun k _ => ?_
  show shapeCast S1024x1024 x0 _ (ix2 p k) * shapeCast S1024x1024 w _ (ix2 q k) = _
  rw [shapeCast_self, slab_cast_apply]

/-! ## The stacked operands at an index -/

/-- The upper half of the stacked input is the first input. -/
theorem stackX_top (x0 x1 : Vec Ideal S4096x1024 .f32) (h : Shape.Concatenates [S4096x1024, S4096x1024] S8192x1024 0)
    (r : Fin 4096) (k : Fin 1024) :
    concatenate S8192x1024 0 [⟨S4096x1024, x0⟩, ⟨S4096x1024, x1⟩] h (ix2 (⟨r.val, by have := r.isLt; omega⟩ : Fin 8192) k) = x0 (ix2 r k) := by
  refine concatenate_pair_apply_left (0 : Fin S8192x1024.rank) x0 x1 h _ rfl (ix2 r k) fun b => ?_
  match b with
  | ⟨0, _⟩ => rfl
  | ⟨1, _⟩ => rfl

/-- The lower half of the stacked input is the second input. -/
theorem stackX_bot (x0 x1 : Vec Ideal S4096x1024 .f32) (h : Shape.Concatenates [S4096x1024, S4096x1024] S8192x1024 0)
    (r : Fin 4096) (k : Fin 1024) :
    concatenate S8192x1024 0 [⟨S4096x1024, x0⟩, ⟨S4096x1024, x1⟩] h (ix2 (⟨4096 + r.val, by have := r.isLt; omega⟩ : Fin 8192) k) = x1 (ix2 r k) := by
  refine concatenate_pair_apply_right (0 : Fin S8192x1024.rank) x0 x1 h _ rfl rfl (ix2 r k) (fun b hb => ?_) ?_
  · match b with
    | ⟨0, _⟩ => exact absurd rfl hb
    | ⟨1, _⟩ => rfl
  · show r.val + 4096 = 4096 + r.val
    omega

/-- Slab 0 of a stack of two weight matrices is the first matrix. -/
theorem stackW_fst (a b : Vec Ideal S1024x1024 .f32)
    (hb : S1024x1024.BroadcastsInDim S1x1024x1024 (![1, 2] : Fin 2 → Fin S1x1024x1024.rank))
    (h : Shape.Concatenates [S1x1024x1024, S1x1024x1024] S2x1024x1024 0) (d k : Fin 1024) :
    concatenate S2x1024x1024 0 [⟨S1x1024x1024, broadcastInDim S1x1024x1024 ![1, 2] hb a⟩, ⟨S1x1024x1024, broadcastInDim S1x1024x1024 ![1, 2] hb b⟩] h (ix3 (0 : Fin 2) d k)
      = a (ix2 d k) := by
  refine (concatenate_pair_apply_left (0 : Fin S2x1024x1024.rank) (broadcastInDim S1x1024x1024 ![1, 2] hb a) (broadcastInDim S1x1024x1024 ![1, 2] hb b) h _ rfl (ix3 (0 : Fin 1) d k) fun b' => ?_).trans ?_
  · match b' with
    | ⟨0, _⟩ => rfl
    | ⟨1, _⟩ => rfl
    | ⟨2, _⟩ => rfl
  · refine broadcastInDim_apply _ hb a _ (ix2 d k) fun a' => ?_
    match a' with
    | ⟨0, _⟩ => rfl
    | ⟨1, _⟩ => rfl

/-- Slab 1 is the second matrix. -/
theorem stackW_snd (a b : Vec Ideal S1024x1024 .f32)
    (hb : S1024x1024.BroadcastsInDim S1x1024x1024 (![1, 2] : Fin 2 → Fin S1x1024x1024.rank))
    (h : Shape.Concatenates [S1x1024x1024, S1x1024x1024] S2x1024x1024 0) (d k : Fin 1024) :
    concatenate S2x1024x1024 0 [⟨S1x1024x1024, broadcastInDim S1x1024x1024 ![1, 2] hb a⟩, ⟨S1x1024x1024, broadcastInDim S1x1024x1024 ![1, 2] hb b⟩] h (ix3 (1 : Fin 2) d k)
      = b (ix2 d k) := by
  refine (concatenate_pair_apply_right (0 : Fin S2x1024x1024.rank) (broadcastInDim S1x1024x1024 ![1, 2] hb a) (broadcastInDim S1x1024x1024 ![1, 2] hb b) h _ rfl rfl (ix3 (0 : Fin 1) d k) (fun b' hb' => ?_) ?_).trans ?_
  · match b' with
    | ⟨0, _⟩ => exact absurd rfl hb'
    | ⟨1, _⟩ => rfl
    | ⟨2, _⟩ => rfl
  · rfl
  · refine broadcastInDim_apply _ hb b _ (ix2 d k) fun a' => ?_
    match a' with
    | ⟨0, _⟩ => rfl
    | ⟨1, _⟩ => rfl

/-- Rows 0..4095 of a projection of the stacked operands: the first input against the first matrix. -/
theorem projAt_top (x0 x1 : Vec Ideal S4096x1024 .f32) (a b : Vec Ideal S1024x1024 .f32)
    (h0 : Shape.Concatenates [S4096x1024, S4096x1024] S8192x1024 0)
    (hb : S1024x1024.BroadcastsInDim S1x1024x1024 (![1, 2] : Fin 2 → Fin S1x1024x1024.rank))
    (h3 : Shape.Concatenates [S1x1024x1024, S1x1024x1024] S2x1024x1024 0) (r : Fin 4096) (d : Fin 1024) :
    projAt (concatenate S8192x1024 0 [⟨S4096x1024, x0⟩, ⟨S4096x1024, x1⟩] h0)
        (concatenate S2x1024x1024 0 [⟨S1x1024x1024, broadcastInDim S1x1024x1024 ![1, 2] hb a⟩, ⟨S1x1024x1024, broadcastInDim S1x1024x1024 ![1, 2] hb b⟩] h3)
        ⟨r.val, by have := r.isLt; omega⟩ d
      = ∑ k : Fin 1024, x0 (ix2 r k) * a (ix2 d k) := by
  unfold projAt
  refine Finset.sum_congr rfl fun k _ => ?_
  have hs : (⟨(⟨r.val, by have := r.isLt; omega⟩ : Fin 8192).val / 4096, by have := r.isLt; show r.val / 4096 < 2; omega⟩ : Fin 2) = (0 : Fin 2) :=
    Fin.ext (by have := r.isLt; show r.val / 4096 = 0; omega)
  rw [hs, stackX_top, stackW_fst]

/-- Rows 4096..8191: the second input against the second matrix. -/
theorem projAt_bot (x0 x1 : Vec Ideal S4096x1024 .f32) (a b : Vec Ideal S1024x1024 .f32)
    (h0 : Shape.Concatenates [S4096x1024, S4096x1024] S8192x1024 0)
    (hb : S1024x1024.BroadcastsInDim S1x1024x1024 (![1, 2] : Fin 2 → Fin S1x1024x1024.rank))
    (h3 : Shape.Concatenates [S1x1024x1024, S1x1024x1024] S2x1024x1024 0) (r : Fin 4096) (d : Fin 1024) :
    projAt (concatenate S8192x1024 0 [⟨S4096x1024, x0⟩, ⟨S4096x1024, x1⟩] h0)
        (concatenate S2x1024x1024 0 [⟨S1x1024x1024, broadcastInDim S1x1024x1024 ![1, 2] hb a⟩, ⟨S1x1024x1024, broadcastInDim S1x1024x1024 ![1, 2] hb b⟩] h3)
        ⟨4096 + r.val, by have := r.isLt; omega⟩ d
      = ∑ k : Fin 1024, x1 (ix2 r k) * b (ix2 d k) := by
  unfold projAt
  refine Finset.sum_congr rfl fun k _ => ?_
  have hs : (⟨(⟨4096 + r.val, by have := r.isLt; omega⟩ : Fin 8192).val / 4096, by have := r.isLt; show (4096 + r.val) / 4096 < 2; omega⟩ : Fin 2) = (1 : Fin 2) :=
    Fin.ext (by have := r.isLt; show (4096 + r.val) / 4096 = 1; omega)
  rw [hs, stackX_bot, stackW_snd]

/-! ## The reference's projections at an index -/

/-- `x @ W.T`: entry `(r, d)` is row `r` of `x` against row `d` of `W`. -/
theorem ref_v1_apply (x0 : Vec Ideal S4096x1024 .f32) (x3 : Vec Ideal S1024x1024 .f32) (r : Fin 4096) (d : Fin 1024) :
    Cert.ReferenceIdeal.Read.val_main_v1 (F := Ideal) x0 x3 (ix2 r d) = ∑ k : Fin 1024, x0 (ix2 r k) * x3 (ix2 d k) := by
  rw [Cert.ReferenceIdeal.Read.val_main_v1_apply]
  refine Finset.sum_congr rfl fun k _ => ?_
  rw [Cert.ReferenceIdeal.Read.val_main_v0_apply]
  exact congrArg₂ (· * ·) (congrArg x0 (funext fun a => Fin.ext (by match a with | ⟨0, _⟩ => rfl | ⟨1, _⟩ => rfl)))
    (congrArg x3 (funext fun a => Fin.ext (by match a with | ⟨0, _⟩ => rfl | ⟨1, _⟩ => rfl)))

theorem ref_v3_apply (x0 : Vec Ideal S4096x1024 .f32) (x2 : Vec Ideal S1024x1024 .f32) (r : Fin 4096) (d : Fin 1024) :
    Cert.ReferenceIdeal.Read.val_main_v3 (F := Ideal) x0 x2 (ix2 r d) = ∑ k : Fin 1024, x0 (ix2 r k) * x2 (ix2 d k) := by
  rw [Cert.ReferenceIdeal.Read.val_main_v3_apply]
  refine Finset.sum_congr rfl fun k _ => ?_
  rw [Cert.ReferenceIdeal.Read.val_main_v2_apply]
  exact congrArg₂ (· * ·) (congrArg x0 (funext fun a => Fin.ext (by match a with | ⟨0, _⟩ => rfl | ⟨1, _⟩ => rfl)))
    (congrArg x2 (funext fun a => Fin.ext (by match a with | ⟨0, _⟩ => rfl | ⟨1, _⟩ => rfl)))

theorem ref_v5_apply (x1 : Vec Ideal S4096x1024 .f32) (x5 : Vec Ideal S1024x1024 .f32) (r : Fin 4096) (d : Fin 1024) :
    Cert.ReferenceIdeal.Read.val_main_v5 (F := Ideal) x1 x5 (ix2 r d) = ∑ k : Fin 1024, x1 (ix2 r k) * x5 (ix2 d k) := by
  rw [Cert.ReferenceIdeal.Read.val_main_v5_apply]
  refine Finset.sum_congr rfl fun k _ => ?_
  rw [Cert.ReferenceIdeal.Read.val_main_v4_apply]
  exact congrArg₂ (· * ·) (congrArg x1 (funext fun a => Fin.ext (by match a with | ⟨0, _⟩ => rfl | ⟨1, _⟩ => rfl)))
    (congrArg x5 (funext fun a => Fin.ext (by match a with | ⟨0, _⟩ => rfl | ⟨1, _⟩ => rfl)))

theorem ref_v7_apply (x1 : Vec Ideal S4096x1024 .f32) (x4 : Vec Ideal S1024x1024 .f32) (r : Fin 4096) (d : Fin 1024) :
    Cert.ReferenceIdeal.Read.val_main_v7 (F := Ideal) x1 x4 (ix2 r d) = ∑ k : Fin 1024, x1 (ix2 r k) * x4 (ix2 d k) := by
  rw [Cert.ReferenceIdeal.Read.val_main_v7_apply]
  refine Finset.sum_congr rfl fun k _ => ?_
  rw [Cert.ReferenceIdeal.Read.val_main_v6_apply]
  exact congrArg₂ (· * ·) (congrArg x1 (funext fun a => Fin.ext (by match a with | ⟨0, _⟩ => rfl | ⟨1, _⟩ => rfl)))
    (congrArg x4 (funext fun a => Fin.ext (by match a with | ⟨0, _⟩ => rfl | ⟨1, _⟩ => rfl)))

end Cert.KernelIdeal.Val

end
-- ==== Proof.Val.Projections.lean ====
import proofs.«419996_j83399674953760_3_alg».proof.Proof.Val.ProjectionsPure
import proofs.«419996_j83399674953760_3_alg».proof.Proof.KI.Projections

/-!
# The four projections: from the blocks a point writes to the two result arrays

Point `t` of the first call holds rows `1024 t .. 1024 t + 1023` of the stacked input and slab `t / 4` of each
weight stack, and writes the same rows of each result. Row `1024 t + p` of the stacked input belongs to slab
`(1024 t + p) / 4096 = t / 4`, so what a point writes back is its block of the one whole-array function `projG`;
the eight blocks tile the 8192 rows, so each result array ends holding `projG` of the stacked input and its weight
stack. The host then slices each result in two halves of 4096 rows: the upper halves are the first input against
the first matrix of a stack, the lower halves the second input against the second, which are the reference's four
`x @ W.T` products.
-/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the row windows sit at block `t`, the weight windows at slab `t / 4`. -/
theorem idx_facts : ∀ t : Fin cfg0.N,
    win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The operand blocks as parts of their arrays -/

/-- The row block at point `t` is rows `1024 t ..` of the stacked input. -/
theorem xblk_apply (c : Dev nD) (t : Fin cfg0.N) (p k : Fin 1024) :
    (iblk0 V c 0 t : Vec Ideal S1024x1024 .f32) (ix2 p k)
      = (V c main_v0 : Vec Ideal S8192x1024 .f32) (ix2 (⟨t.val * 1024 + p.val, by have := t.isLt; have hN : cfg0.N = 8 := N_0; have := p.isLt; omega⟩ : Fin 8192) k) := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * k.val = k.val; rw [e1]; omega

/-- The first stack's block at point `t` is its slab `t / 4`. -/
theorem w1blk_apply (c : Dev nD) (t : Fin cfg0.N) (q k : Fin 1024) :
    (iblk0 V c 1 t : Vec Ideal S1x1024x1024 .f32) (ix3 (0 : Fin 1) q k)
      = (V c main_v3 : Vec Ideal S2x1024x1024 .f32) (ix3 (⟨t.val / 4, by have := t.isLt; have hN : cfg0.N = 8 := N_0; omega⟩ : Fin 2) q k) := by
  obtain ⟨-, -, e0, e1, e2, -⟩ := idx_facts t
  unfold iblk0
  rw [View.read_apply]
  show V c main_v3 _ = V c main_v3 _
  congr 1
  funext a
  apply Fin.ext
  match a with
  | ⟨0, _⟩ => show win0_1.index t (0 : Fin 3) * 1 + 1 * 0 = t.val / 4; rw [e0]; omega
  | ⟨1, _⟩ => show win0_1.index t (1 : Fin 3) * 1024 + 1 * q.val = q.val; rw [e1]; omega
  | ⟨2, _⟩ => show win0_1.index t (2 : Fin 3) * 1024 + 1 * k.val = k.val; rw [e2]; omega

/-- The second stack's block at point `t` is its slab `t / 4`. -/
theorem w2blk_apply (c : Dev nD) (t : Fin cfg0.N) (q k : Fin 1024) :
    (iblk0 V c 2 t : Vec Ideal S1x1024x1024 .f32) (ix3 (0 : Fin 1) q k)
      = (V c main_v6 : Vec Ideal S2x1024x1024 .f32) (ix3 (⟨t.val / 4, by have := t.isLt; have hN : cfg0.N = 8 := N_0; omega⟩ : Fin 2) q k) := by
  obtain ⟨-, -, -, -, -, e0, e1, e2, -⟩ := idx_facts t
  unfold iblk0
  rw [View.read_apply]
  show V c main_v6 _ = V c main_v6 _
  congr 1
  funext a
  apply Fin.ext
  match a with
  | ⟨0, _⟩ => show win0_2.index t (0 : Fin 3) * 1 + 1 * 0 = t.val / 4; rw [e0]; omega
  | ⟨1, _⟩ => show win0_2.index t (1 : Fin 3) * 1024 + 1 * q.val = q.val; rw [e1]; omega
  | ⟨2, _⟩ => show win0_2.index t (2 : Fin 3) * 1024 + 1 * k.val = k.val; rw [e2]; omega

/-! ## A point's payload is its block of the whole-array function -/

/-- If a row block is rows `1024 b ..` of `X` and a slab is slab `b / 4` of `W`, the first payload at `j` is
    `projG X W` at row `1024 b + j 0`, column `j 1`: that row's slab is `(1024 b + j 0) / 4096 = b / 4`. -/
theorem block_pay2 (X : Vec Ideal S8192x1024 .f32) (W : Vec Ideal S2x1024x1024 .f32)
    (x0 : Vec Ideal S1024x1024 .f32) (w : Vec Ideal S1x1024x1024 .f32) (b : Nat) (hb : b < 8)
    (hx : ∀ p k : Fin 1024, x0 (ix2 p k) = X (ix2 (⟨b * 1024 + p.val, by have := p.isLt; omega⟩ : Fin 8192) k))
    (hw : ∀ q k : Fin 1024, w (ix3 (0 : Fin 1) q k) = W (ix3 (⟨b / 4, by omega⟩ : Fin 2) q k))
    (j : S1024x1024.Idx) (i : S8192x1024.Idx) (hi0 : (i 0).val = b * 1024 + (j 0).val) (hi1 : (i 1).val = (j 1).val) :
    k0_pay2 (F := Ideal) x0 w j = projG X W i := by
  obtain ⟨p, q, rfl⟩ : ∃ (p q : Fin 1024), j = ix2 p q := ⟨j 0, j 1, eq_ix2 j⟩
  rw [proj_pay2_apply]
  unfold projG projAt
  refine Finset.sum_congr rfl fun k _ => ?_
  rw [hx, hw]
  have hp := p.isLt
  have h0 : (i 0).val = b * 1024 + p.val := hi0
  have h1 : (i 1).val = q.val := hi1
  refine congrArg₂ (· * ·) (congrArg X ?_) (congrArg W ?_)
  · funext a; apply Fin.ext
    match a with
    | ⟨0, _⟩ => exact h0.symm
    | ⟨1, _⟩ => rfl
  · funext a; apply Fin.ext
    match a with
    | ⟨0, _⟩ => show b / 4 = (i 0).val / 4096; omega
    | ⟨1, _⟩ => exact h1.symm
    | ⟨2, _⟩ => rfl

/-- The same of the second payload. -/
theorem block_pay3 (X : Vec Ideal S8192x1024 .f32) (W : Vec Ideal S2x1024x1024 .f32)
    (x0 : Vec Ideal S1024x1024 .f32) (w : Vec Ideal S1x1024x1024 .f32) (b : Nat) (hb : b < 8)
    (hx : ∀ p k : Fin 1024, x0 (ix2 p k) = X (ix2 (⟨b * 1024 + p.val, by have := p.isLt; omega⟩ : Fin 8192) k))
    (hw : ∀ q k : Fin 1024, w (ix3 (0 : Fin 1) q k) = W (ix3 (⟨b / 4, by omega⟩ : Fin 2) q k))
    (j : S1024x1024.Idx) (i : S8192x1024.Idx) (hi0 : (i 0).val = b * 1024 + (j 0).val) (hi1 : (i 1).val = (j 1).val) :
    k0_pay3 (F := Ideal) x0 w j = projG X W i := by
  obtain ⟨p, q, rfl⟩ : ∃ (p q : Fin 1024), j = ix2 p q := ⟨j 0, j 1, eq_ix2 j⟩
  rw [proj_pay3_apply]
  unfold projG projAt
  refine Finset.sum_congr rfl fun k _ => ?_
  rw [hx, hw]
  have hp := p.isLt
  have h0 : (i 0).val = b * 1024 + p.val := hi0
  have h1 : (i 1).val = q.val := hi1
  refine congrArg₂ (· * ·) (congrArg X ?_) (congrArg W ?_)
  · funext a; apply Fin.ext
    match a with
    | ⟨0, _⟩ => exact h0.symm
    | ⟨1, _⟩ => rfl
  · funext a; apply Fin.ext
    match a with
    | ⟨0, _⟩ => show b / 4 = (i 0).val / 4096; omega
    | ⟨1, _⟩ => exact h1.symm
    | ⟨2, _⟩ => rfl

/-! ## What a point writes back -/

/-- Point `t` writes back, into the first result, block `t` of `projG` of the stacked input and the first stack. -/
theorem flushed3_eq (c : Dev nD) (t : Fin cfg0.N) :
    (dat0 V c).flushed 3 t = ((cfg0.win 3).blk t).view.read (Elt Ideal) (projG (V c main_v0) (V c main_v3)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1x1024x1024) hz3]
  obtain ⟨-, -, -, -, -, -, -, -, e0, e1, -⟩ := idx_facts t
  have hN : cfg0.N = 8 := N_0
  funext j
  rw [View.read_apply]
  refine block_pay2 (V c main_v0) (V c main_v3) (iblk0 V c 0 t) (iblk0 V c 1 t) t.val (by have := t.isLt; omega)
    (fun p k => xblk_apply V c t p k) (fun q k => w1blk_apply V c t q k)
    ((cfg0.win 3).xinj (grid0.coords t) j) (((cfg0.win 3).blk t).view.emb j) ?_ ?_
  · show win0_3.index t (0 : Fin 2) * 1024 + 1 * (j 0).val = t.val * 1024 + (j 0).val
    rw [e0]; omega
  · show win0_3.index t (1 : Fin 2) * 1024 + 1 * (j 1).val = (j 1).val
    rw [e1]; omega

/-- Point `t` writes back, into the second result, block `t` of `projG` of the stacked input and the second stack. -/
theorem flushed4_eq (c : Dev nD) (t : Fin cfg0.N) :
    (dat0 V c).flushed 4 t = ((cfg0.win 4).blk t).view.read (Elt Ideal) (projG (V c main_v0) (V c main_v6)) := by
  show (cfg0.win 4).cut (grid0.coords t) ((dat0 V c).after 4 t) = _
  rw [after0_4]
  unfold out0_4
  rw [View.canon_unit_zero hz2]
  simp only [View.ld_unit_zero (S := S1024x1024) hz2, View.ld_unit_zero (S := S1x1024x1024) hz3]
  obtain ⟨-, -, -, -, -, -, -, -, -, -, e0, e1⟩ := idx_facts t
  have hN : cfg0.N = 8 := N_0
  funext j
  rw [View.read_apply]
  refine block_pay3 (V c main_v0) (V c main_v6) (iblk0 V c 0 t) (iblk0 V c 2 t) t.val (by have := t.isLt; omega)
    (fun p k => xblk_apply V c t p k) (fun q k => w2blk_apply V c t q k)
    ((cfg0.win 4).xinj (grid0.coords t) j) (((cfg0.win 4).blk t).view.emb j) ?_ ?_
  · show win0_4.index t (0 : Fin 2) * 1024 + 1 * (j 0).val = t.val * 1024 + (j 0).val
    rw [e0]; omega
  · show win0_4.index t (1 : Fin 2) * 1024 + 1 * (j 1).val = (j 1).val
    rw [e1]; omega

/-! ## The eight blocks tile the result arrays -/

/-- An index of the first result is in point `t`'s block iff each coordinate is in the block's range on its axis. -/
theorem mem_blk3 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v7_0).slice (win0_3.rect t)).set ↔ _
  rw [View.set_slice_whole, Rect.mem_set_unit]
  exact Iff.rfl

/-- The same of the second result. -/
theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7_1).slice (win0_4.rect t)).set ↔ _
  rw [View.set_slice_whole, Rect.mem_set_unit]
  exact Iff.rfl

/-- Row `r` of the first result is written by point `r / 1024`. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, e0, e1, -⟩ := idx_facts t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; rw [e0]; omega
  | ⟨1, _⟩ => show win0_3.index t (1 : Fin 2) * 1024 ≤ (i 1).val ∧ (i 1).val < win0_3.index t (1 : Fin 2) * 1024 + 1024; rw [e1]; omega

/-- Row `r` of the second result is written by point `r / 1024`. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, -, -, e0, e1⟩ := idx_facts t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 1024 ≤ (i 1).val ∧ (i 1).val < win0_4.index t (1 : Fin 2) * 1024 + 1024; rw [e1]; omega

/-! ## The result arrays after the run -/

/-- The first result array ends holding `projG` of the stacked input and the first weight stack. -/
theorem final3 (c : Dev nD) : (dat0 V c).arrAt 3 cfg0.N = projG (V c main_v0) (V c main_v3) :=
  (dat0 V c).arrAt_eq_of_cover 3 (projG (V c main_v0) (V c main_v3)) (fun t _ => flushed3_eq V c t) cover3

/-- The second result array ends holding `projG` of the stacked input and the second weight stack. -/
theorem final4 (c : Dev nD) : (dat0 V c).arrAt 4 cfg0.N = projG (V c main_v0) (V c main_v6) :=
  (dat0 V c).arrAt_eq_of_cover 4 (projG (V c main_v0) (V c main_v6)) (fun t _ => flushed4_eq V c t) cover4

/-! ## The host's four slices against the reference's four products -/

/-- The upper 4096 rows of a result array holding `G`. -/
theorem slice_top (G : Vec Ideal S8192x1024 .bf16) (h : S8192x1024.Slices ![0, 0] S4096x1024) (r : Fin 4096) (d : Fin 1024) :
    extractStridedSlice S4096x1024 ![0, 0] G h (ix2 r d) = G (ix2 (⟨r.val, by have := r.isLt; omega⟩ : Fin 8192) d) := by
  refine extractStridedSlice_apply _ G h (ix2 r d) _ fun a => ?_
  match a with
  | ⟨0, _⟩ => show r.val = 0 + r.val; omega
  | ⟨1, _⟩ => show d.val = 0 + d.val; omega

/-- The lower 4096 rows. -/
theorem slice_bot (G : Vec Ideal S8192x1024 .bf16) (h : S8192x1024.Slices ![4096, 0] S4096x1024) (r : Fin 4096) (d : Fin 1024) :
    extractStridedSlice S4096x1024 ![4096, 0] G h (ix2 r d) = G (ix2 (⟨4096 + r.val, by have := r.isLt; omega⟩ : Fin 8192) d) := by
  refine extractStridedSlice_apply _ G h (ix2 r d) _ fun a => ?_
  match a with
  | ⟨0, _⟩ => show 4096 + r.val = 4096 + r.val; rfl
  | ⟨1, _⟩ => show d.val = 0 + d.val; omega

/-- THE PROJECTIONS. If the first call finds the stacked input and the two weight stacks as the host built them
    from the six arguments, its two result arrays, sliced in halves as the host slices them, are the reference's
    four projections `a_a, a_v, b_a, b_v`. -/
theorem proj_val (V : (c : Dev nD) → (b : Ref sig .tc) → Buf (Elt Ideal) ((c : Thread nD τ).loc b)) (c : Dev nD)
    (x0 x1 : Vec Ideal S4096x1024 .f32) (x2 x3 x4 x5 : Vec Ideal S1024x1024 .f32)
    (h0 : V c main_v0 = concatenate S8192x1024 0 [⟨S4096x1024, x0⟩, ⟨S4096x1024, x1⟩] concatenates_S4096x1024_S4096x1024_S8192x1024_d0)
    (h3 : V c main_v3 = concatenate S2x1024x1024 0 [⟨S1x1024x1024, broadcastInDim S1x1024x1024 ![1, 2] bcast_S1024x1024_S1x1024x1024_1_2 x3⟩, ⟨S1x1024x1024, broadcastInDim S1x1024x1024 ![1, 2] bcast_S1024x1024_S1x1024x1024_1_2 x5⟩] concatenates_S1x1024x1024_S1x1024x1024_S2x1024x1024_d0)
    (h6 : V c main_v6 = concatenate S2x1024x1024 0 [⟨S1x1024x1024, broadcastInDim S1x1024x1024 ![1, 2] bcast_S1024x1024_S1x1024x1024_1_2 x2⟩, ⟨S1x1024x1024, broadcastInDim S1x1024x1024 ![1, 2] bcast_S1024x1024_S1x1024x1024_1_2 x4⟩] concatenates_S1x1024x1024_S1x1024x1024_S2x1024x1024_d0) :
    extractStridedSlice S4096x1024 ![0, 0] ((dat0 V c).arrAt 3 cfg0.N) slices_S8192x1024_S4096x1024_0_0 = Cert.ReferenceIdeal.Read.val_main_v1 x0 x3
    ∧ extractStridedSlice S4096x1024 ![4096, 0] ((dat0 V c).arrAt 3 cfg0.N) slices_S8192x1024_S4096x1024_4096_0 = Cert.ReferenceIdeal.Read.val_main_v5 x1 x5
    ∧ extractStridedSlice S4096x1024 ![0, 0] ((dat0 V c).arrAt 4 cfg0.N) slices_S8192x1024_S4096x1024_0_0 = Cert.ReferenceIdeal.Read.val_main_v3 x0 x2
    ∧ extractStridedSlice S4096x1024 ![4096, 0] ((dat0 V c).arrAt 4 cfg0.N) slices_S8192x1024_S4096x1024_4096_0 = Cert.ReferenceIdeal.Read.val_main_v7 x1 x4 := by
  rw [final3, final4, h0, h3, h6]
  refine ⟨funext fun j => ?_, funext fun j => ?_, funext fun j => ?_, funext fun j => ?_⟩
  · obtain ⟨r, d, rfl⟩ : ∃ (r : Fin 4096) (d : Fin 1024), j = ix2 r d := ⟨j 0, j 1, eq_ix2 j⟩
    rw [slice_top, projG_apply, projAt_top, ref_v1_apply]
  · obtain ⟨r, d, rfl⟩ : ∃ (r : Fin 4096) (d : Fin 1024), j = ix2 r d := ⟨j 0, j 1, eq_ix2 j⟩
    rw [slice_bot, projG_apply, projAt_bot, ref_v5_apply]
  · obtain ⟨r, d, rfl⟩ : ∃ (r : Fin 4096) (d : Fin 1024), j = ix2 r d := ⟨j 0, j 1, eq_ix2 j⟩
    rw [slice_top, projG_apply, projAt_top, ref_v3_apply]
  · obtain ⟨r, d, rfl⟩ : ∃ (r : Fin 4096) (d : Fin 1024), j = ix2 r d := ⟨j 0, j 1, eq_ix2 j⟩
    rw [slice_bot, projG_apply, projAt_bot, ref_v7_apply]

end Cert.KernelIdeal.Val

end
-- ==== Proof.Val.AttentionPure.lean ====
/- The attention stage, index by index, away from the pipeline.

   One row of the attention weights is the softmax of one row of scores: with q a row of the query matrix b_a
   (1024 entries) and a_v the key matrix (4096 x 1024), the scores are s(c) = sum_k q(k) * a_v(c, k), the weights
   alpha(c) = exp(s(c) - max_c' s(c')) / sum_c' exp(s(c') - max_c'' s(c'')), and one entry of the output row is
   sum_k alpha(k) * b_v(k, d) plus the residual. The row's maximum is the fold of max from minus infinity over the
   4096 columns, taken in any order; the divisions and exponentials are those of the extended reals.

   Here: these row functions; the kernel body's two stored values read at an entry of a 512-row block as the row
   functions of the block's row of b_a; the reference's weights and output read at an entry as the same row functions
   of the corresponding row; and the statement that joins a block entry with the array entry it is written to. -/
import proofs.«419996_j83399674953760_3_alg».proof.Proof.Gen.KernelIdeal.Skeleton
import proofs.«419996_j83399674953760_3_alg».proof.Proof.Val.RefRun
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx
open Idealize.SL.Sem

/-! ## The row functions -/

/-- The largest of a row of 4096 scores, from minus infinity. -/
def smax (s : Fin 4096 → EReal) : EReal :=
  (Finset.univ : Finset (Fin 4096)).fold max (Ideal.ofBits .f32 0xFF800000#32) s

/-- The exponential of a score less the row's largest. -/
def sexp (s : Fin 4096 → EReal) (c : Fin 4096) : EReal := Ideal.exp (s c - smax s)

/-- The sum of those exponentials over the row. -/
def ssum (s : Fin 4096 → EReal) : EReal := ∑ c : Fin 4096, sexp s c

/-- The softmax of a row of scores at column c. -/
def softmaxRow (s : Fin 4096 → EReal) (c : Fin 4096) : EReal := Ideal.div (sexp s c) (ssum s)

/-- The scores of a query row q against every key row of a_v. -/
def scoreRow (q : Fin 1024 → EReal) (av : S4096x1024.Idx → EReal) (c : Fin 4096) : EReal :=
  ∑ k : Fin 1024, q k * av (ix2 c k)

/-- The attention weights of a query row. -/
def alphaRow (q : Fin 1024 → EReal) (av : S4096x1024.Idx → EReal) (c : Fin 4096) : EReal :=
  softmaxRow (scoreRow q av) c

/-- The weighted sum of the value rows b_v by a query row's attention weights, at feature d. -/
def outRow (q : Fin 1024 → EReal) (av bv : S4096x1024.Idx → EReal) (d : Fin 1024) : EReal :=
  ∑ k : Fin 4096, alphaRow q av k * bv (ix2 k d)

/-- The attention weights as a 4096 x 4096 array: row r is the softmax of the scores of row r of b_a. -/
def alphaArr (ba av : S4096x1024.Idx → EReal) : S4096x4096.Idx → EReal :=
  fun i => alphaRow (fun k => ba (ix2 (⟨(i 0).val, idx2_lt0 i⟩ : Fin 4096) k)) av ⟨(i 1).val, idx2_lt1 i⟩

/-- The stage's output array: the weights times b_v, plus the residual. -/
def outArr (ba av bv res : S4096x1024.Idx → EReal) : S4096x1024.Idx → EReal :=
  fun i => outRow (fun k => ba (ix2 (⟨(i 0).val, idx2_lt0 i⟩ : Fin 4096) k)) av bv ⟨(i 1).val, idx2_lt1 i⟩ + res i

/-- Minus infinity is the unit of max. -/
theorem max_ninf (y : EReal) : max (Ideal.ofBits .f32 0xFF800000#32) y = y := by
  simp [Ideal.ofBits, Ideal.ieee]

/-! ## Layout operations of the body at an entry -/

section Layout
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The exponential of a vector at an entry. -/
theorem exp_at {s : Shape} {φ : FTy} (x : FVec Ideal s φ) (i : s.Idx) : exp x i = Ideal.exp (x i) := rfl

/-! ## The body's softmax of a block of scores -/

/-- The softmax the body computes on a 512 x 4096 block of scores S (row maximum, broadcast, subtract, exponential,
    row sum, broadcast, divide), read at (p, c): the softmax of row p of S at c. -/
theorem softmax_block (S : FVec Ideal S512x4096 .f32) (h : S512x4096.Reduces [1] S512) (hφ : FKind.Formats .f32)
    (hm : (0xFF800000#32 : BitVec 32) = FKind.maximumf.neutral .f32 hφ) (ha : (0x00000000#32 : BitVec 32) = FKind.add.neutral .f32 hφ)
    (hc : S512.ShapeCasts S512x1) (hb : S512x1.Broadcasts S512x4096) (p : Fin 512) (c : Fin 4096) :
    divf (exp (subf S (broadcastTo S512x4096 (shapeCast S512x1 (multiReduction .maximumf [1] S512 S 0xFF800000#32 h hφ hm) hc) hb)))
        (broadcastTo S512x4096 (shapeCast S512x1 (multiReduction .add [1] S512
          (exp (subf S (broadcastTo S512x4096 (shapeCast S512x1 (multiReduction .maximumf [1] S512 S 0xFF800000#32 h hφ hm) hc) hb)))
          0x00000000#32 h hφ ha) hc) hb) (ix2 p c)
      = softmaxRow (fun c' => S (ix2 p c')) c := by
  have hlift : ∀ (q : Fin 512) (c' : Fin 4096), h.lift (ix1 q) c' = ix2 q c' := fun q c' =>
    funext fun a => Fin.ext (by match a with | ⟨0, _⟩ => rfl | ⟨1, _⟩ => rfl)
  have hmax : ∀ q : Fin 512, multiReduction .maximumf [1] S512 S 0xFF800000#32 h hφ hm (ix1 q) = smax (fun c' => S (ix2 q c')) := fun q => by
    refine (Ideal.multiReduction_maximumf_single S _ h hφ hm (ix1 q)).trans ?_
    unfold smax
    show (Finset.univ : Finset (Fin 4096)).fold max (Ideal.ofBits .f32 0xFF800000#32) (fun c' => S (h.lift (ix1 q) c')) = _
    exact congrArg (fun f => Finset.fold max (Ideal.ofBits .f32 0xFF800000#32) f (Finset.univ : Finset (Fin 4096)))
      (funext fun c' => congrArg S (hlift q c'))
  have hsum : ∀ (E : FVec Ideal S512x4096 .f32) (q : Fin 512),
      multiReduction .add [1] S512 E 0x00000000#32 h hφ ha (ix1 q) = ∑ c' : Fin 4096, E (ix2 q c') := fun E q => by
    refine (Ideal.multiReduction_add_single E _ h hφ ha (ix1 q)).trans ?_
    show ∑ c' : Fin 4096, E (h.lift (ix1 q) c') = _
    exact Finset.sum_congr rfl fun c' _ => congrArg E (hlift q c')
  simp only [divf_apply, exp_at, subf_apply, broadcastTo_a1_ab_apply, shapeCast_a_a1_apply, hsum, hmax]
  rfl

/-! ## The body's two matrix products at an entry -/

theorem lhs_qk_0 (i : S512x4096.Idx) (q : dot_S512x1024_S4096x1024_S512x4096_1_1_0_0_n_n.contr.Idx) :
    (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs_qk_1 (i : S512x4096.Idx) (q : dot_S512x1024_S4096x1024_S512x4096_1_1_0_0_n_n.contr.Idx) :
    (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs_qk_0 (i : S512x4096.Idx) (q : dot_S512x1024_S4096x1024_S512x4096_1_1_0_0_n_n.contr.Idx) :
    (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs_qk_1 (i : S512x4096.Idx) (q : dot_S512x1024_S4096x1024_S512x4096_1_1_0_0_n_n.contr.Idx) :
    (dot_S512x1024_S4096x1024_S512x4096_1_1_0_0_n_n.rhsIdx i q 1).val = (q ⟨0, by decide⟩).val :=
  dot_S512x1024_S4096x1024_S512x4096_1_1_0_0_n_n.rhsIdx_val_of_single rfl i q

/-- The scores product, a block of b_a against a_v contracting the feature axis of both, into zero: at (p, c) the sum
    over the 1024 features of row p of the block times row c of a_v. -/
theorem qk_apply (l : FVec Ideal S512x1024 .bf16) (r : FVec Ideal S4096x1024 .bf16) (p : Fin 512) (c : Fin 4096) :
    matmul dot_S512x1024_S4096x1024_S512x4096_1_1_0_0_n_n none l r (constant S512x4096 .f32 0x00000000#32) (ix2 p c)
      = ∑ k : Fin 1024, l (ix2 p k) * r (ix2 c k) := by
  simp only [matmul]
  rw [Ideal.matmul_constant_zero_apply, ← Equiv.sum_comp (contrEquiv1 dot_S512x1024_S4096x1024_S512x4096_1_1_0_0_n_n 1024 rfl rfl).symm]
  refine Finset.sum_congr rfl fun k _ => ?_
  have hk := contrEquiv1_symm_val dot_S512x1024_S4096x1024_S512x4096_1_1_0_0_n_n 1024 rfl rfl k
  have el : dot_S512x1024_S4096x1024_S512x4096_1_1_0_0_n_n.lhsIdx (ix2 p c) ((contrEquiv1 dot_S512x1024_S4096x1024_S512x4096_1_1_0_0_n_n 1024 rfl rfl).symm k) = ix2 p k := funext fun a => Fin.ext (by
    match a with
    | ⟨0, _⟩ => exact lhs_qk_0 _ _
    | ⟨1, _⟩ => exact (lhs_qk_1 _ _).trans hk)
  have er : dot_S512x1024_S4096x1024_S512x4096_1_1_0_0_n_n.rhsIdx (ix2 p c) ((contrEquiv1 dot_S512x1024_S4096x1024_S512x4096_1_1_0_0_n_n 1024 rfl rfl).symm k) = ix2 c k := funext fun a => Fin.ext (by
    match a with
    | ⟨0, _⟩ => exact rhs_qk_0 _ _
    | ⟨1, _⟩ => exact (rhs_qk_1 _ _).trans hk)
  rw [el, er]

theorem lhs_av_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_av_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs_av_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_av_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The weighted-sum product, a block of weights against b_v, into zero: at (p, d) the sum over the 4096 keys of the
    weight (p, k) times b_v (k, d). -/
theorem av_apply (l : FVec Ideal S512x4096 .bf16) (r : FVec Ideal S4096x1024 .bf16) (p : Fin 512) (d : Fin 1024) :
    matmul dot_S512x4096_S4096x1024_S512x1024_1_0_0_1_n_n none l r (constant S512x1024 .f32 0x00000000#32) (ix2 p d)
      = ∑ k : Fin 4096, l (ix2 p k) * r (ix2 k d) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p d) ((contrEquiv1 dot_S512x4096_S4096x1024_S512x1024_1_0_0_1_n_n 4096 rfl rfl).symm k) = ix2 p k := funext fun a => Fin.ext (by
    match a with
    | ⟨0, _⟩ => exact lhs_av_0 _ _
    | ⟨1, _⟩ => exact (lhs_av_1 _ _).trans hk)
  have er : dot_S512x4096_S4096x1024_S512x1024_1_0_0_1_n_n.rhsIdx (ix2 p d) ((contrEquiv1 dot_S512x4096_S4096x1024_S512x1024_1_0_0_1_n_n 4096 rfl rfl).symm k) = ix2 k d := funext fun a => Fin.ext (by
    match a with
    | ⟨0, _⟩ => exact (rhs_av_0 _ _).trans hk
    | ⟨1, _⟩ => exact rhs_av_1 _ _)
  rw [el, er]

/-! ## The body's two stored values at an entry -/

/-- The weights block the body stores, at (p, c): the attention weights of row p of the b_a block at c. -/
theorem at_pay1_apply (v0 : Vec Ideal S512x1024 .bf16) (v2 : Vec Ideal S4096x1024 .bf16) (p : Fin 512) (c : Fin 4096) :
    k1_pay1 v0 v2 (ix2 p c) = alphaRow (fun k => v0 (ix2 p k)) v2 c := by
  unfold k1_pay1
  simp only [shapeCast_self]
  rw [truncf_apply]
  refine (softmax_block _ _ _ _ _ _ _ p c).trans ?_
  unfold alphaRow
  exact congrArg (fun s => softmaxRow s c) (funext fun c' => qk_apply v0 v2 p c')

/-- The output block the body stores, at (p, d): the weighted sum of b_v by row p's weights, plus the residual. -/
theorem at_pay2_apply (v0 : Vec Ideal S512x1024 .bf16) (v2 v4 : Vec Ideal S4096x1024 .bf16) (v19 : Vec Ideal S512x1024 .f32)
    (p : Fin 512) (d : Fin 1024) :
    k1_pay2 v0 v2 v4 v19 (ix2 p d) = outRow (fun k => v0 (ix2 p k)) v2 v4 d + v19 (ix2 p d) := by
  unfold k1_pay2
  simp only [shapeCast_self]
  rw [addf_apply, av_apply]
  unfold outRow
  refine congrArg (· + v19 (ix2 p d)) (Finset.sum_congr rfl fun k _ => ?_)
  rw [at_pay1_apply]

end Cert.KernelIdeal.Val

end
-- ==== Proof.Val.AttentionRef.lean ====
import proofs.«419996_j83399674953760_3_alg».proof.Proof.Val.AttentionPure

/-!
# The reference's attention, read as the row functions

The reference forms the scores `s = b_a @ a_v.T`, takes a row softmax `alpha = exp(s - rowmax) / rowsum` and
returns `alpha @ b_v + inputs_a`. Read at an entry, each step is a function of ONE row of `b_a`: entry `(r, c)`
of the scores is the sum over the 1024 features of `b_a (r, k) * a_v (c, k)`; the row maximum is the fold of max
from minus infinity over the 4096 columns (the outer maximum with minus infinity changes nothing); the row sum
starts from zero; the quotient is the extended reals'. So the weights are `alphaArr` and the output is `outArr`
of the three projections `b_a, a_v, b_v`, which stay opaque here.
-/

noncomputable section

namespace Cert.KernelIdeal.Val

open Cert.KernelIdeal Cert.KernelIdeal.Gen
open Idealize.ShloMosaic Idealize.ShloMosaic.TcCoe Idealize.ShloMosaic.ValueIdx
open Idealize.SL.Sem
open Cert.ReferenceIdeal.Read

variable (x0 x1 : (⟨Cert.ReferenceIdeal.S4096x1024, .f32⟩ : BufTy).Contents (Elt Ideal))
  (x2 x4 x5 : (⟨Cert.ReferenceIdeal.S1024x1024, .f32⟩ : BufTy).Contents (Elt Ideal))

/-- Entry `(r, c)` of the scores: row `r` of `b_a` against row `c` of `a_v`. -/
theorem ref_score (r c : Fin 4096) :
    val_main_v9 (F := Ideal) x0 x1 x2 x5 (ix2 r c)
      = scoreRow (fun k => val_main_v3 (F := Ideal) x0 x2 (ix2 r k)) (val_main_v5 (F := Ideal) x1 x5) c := by
  rw [val_main_v9_apply]
  unfold scoreRow
  refine Finset.sum_congr rfl fun k _ => ?_
  rw [val_main_v8_apply]
  generalize val_main_v3 (F := Ideal) x0 x2 = ba
  generalize val_main_v5 (F := Ideal) x1 x5 = av
  exact congrArg₂ (· * ·) (congrArg ba (funext fun a => Fin.ext (by match a with | ⟨0, _⟩ => rfl | ⟨1, _⟩ => rfl)))
    (congrArg av (funext fun a => Fin.ext (by match a with | ⟨0, _⟩ => rfl | ⟨1, _⟩ => rfl)))

/-- The row maximum the reference subtracts: the largest score of the row, from minus infinity. -/
theorem ref_rowmax (r : Fin 4096) :
    val_main_v12 (F := Ideal) x0 x1 x2 x5 (ix1 r) = smax (fun c => val_main_v9 (F := Ideal) x0 x1 x2 x5 (ix2 r c)) := by
  rw [val_main_v12_apply, val_main_v11_apply, val_main_cst_0_apply]
  have hm : ∀ z : EReal, FloatOps.maximumf (F := Ideal) (φ := .f32) (FloatOps.ofBits .f32 0xFF800000#32) z = z := fun z => max_ninf z
  rw [hm]
  unfold val_main_v10
  generalize val_main_v9 (F := Ideal) x0 x1 x2 x5 = y
  have h : Cert.ReferenceIdeal.S4096x4096.Reduces [1] Cert.ReferenceIdeal.S4096 := by decide
  rw [Host.reduce_eq_fold_single (FloatOps.maximumf (F := Ideal) (φ := .f32)) y _ _ h _ (ix1 r)]
  unfold smax
  show (Finset.univ : Finset (Fin 4096)).fold max (Ideal.ofBits .f32 0xFF800000#32) (fun c => y (h.lift (ix1 r) c)) = _
  exact congrArg (fun f => Finset.fold max (Ideal.ofBits .f32 0xFF800000#32) f (Finset.univ : Finset (Fin 4096)))
    (funext fun c => congrArg y (funext fun a => Fin.ext (by match a with | ⟨0, _⟩ => rfl | ⟨1, _⟩ => rfl)))

/-- Entry `(r, c)` of the exponentials: of the score less its row's largest. -/
theorem ref_exp (r c : Fin 4096) :
    val_main_v16 (F := Ideal) x0 x1 x2 x5 (ix2 r c) = sexp (fun c' => val_main_v9 (F := Ideal) x0 x1 x2 x5 (ix2 r c')) c := by
  rw [val_main_v16_apply, val_main_v15_apply, val_main_v14_apply, val_main_v13_apply]
  have e : idx_main_v13 (idx_main_v14 (ix2 r c)) = ix1 r := funext fun a => Fin.ext (by match a with | ⟨0, _⟩ => rfl)
  rw [e, ref_rowmax]
  rfl

/-- The row sum of the exponentials, from zero. -/
theorem ref_sum (r : Fin 4096) :
    val_main_v17 (F := Ideal) x0 x1 x2 x5 (ix1 r) = ssum (fun c' => val_main_v9 (F := Ideal) x0 x1 x2 x5 (ix2 r c')) := by
  rw [val_main_v17_apply, val_main_cst_1_apply]
  show Ideal.ofBits .f32 0x00000000#32 + _ = _
  rw [Ideal.ofBits_zero_f32, zero_add]
  unfold ssum
  refine Finset.sum_congr rfl fun k _ => ?_
  have e : idx_main_v17 (ix1 r) k = ix2 r k := funext fun a => Fin.ext (by match a with | ⟨0, _⟩ => rfl | ⟨1, _⟩ => rfl)
  rw [e, ref_exp]

/-- Entry `(r, c)` of the weights: the attention weights of row `r` of `b_a` at `c`. -/
theorem ref_alpha (r c : Fin 4096) :
    val_main_v20 (F := Ideal) x0 x1 x2 x5 (ix2 r c)
      = alphaRow (fun k => val_main_v3 (F := Ideal) x0 x2 (ix2 r k)) (val_main_v5 (F := Ideal) x1 x5) c := by
  rw [val_main_v20_apply, val_main_v19_apply, val_main_v18_apply]
  have e : idx_main_v18 (idx_main_v19 (ix2 r c)) = ix1 r := funext fun a => Fin.ext (by match a with | ⟨0, _⟩ => rfl)
  rw [e, ref_sum, ref_exp]
  have hs : (fun c' => val_main_v9 (F := Ideal) x0 x1 x2 x5 (ix2 r c'))
      = scoreRow (fun k => val_main_v3 (F := Ideal) x0 x2 (ix2 r k)) (val_main_v5 (F := Ideal) x1 x5) :=
    funext fun c' => ref_score x0 x1 x2 x5 r c'
  rw [hs]
  rfl

/-- Entry `(r, d)` of the output: the weighted sum of the rows of `b_v` by row `r`'s weights, plus the residual. -/
theorem ref_out (r : Fin 4096) (d : Fin 1024) :
    val_main_v24 (F := Ideal) x0 x1 x2 x4 x5 (ix2 r d)
      = outRow (fun k => val_main_v3 (F := Ideal) x0 x2 (ix2 r k)) (val_main_v5 (F := Ideal) x1 x5) (val_main_v7 (F := Ideal) x1 x4) d
        + x0 (ix2 r d) := by
  rw [val_main_v24_apply, val_main_v21_apply]
  show (∑ k : Fin 4096, _) + _ = _
  unfold outRow
  refine congrArg (· + x0 (ix2 r d)) (Finset.sum_congr rfl fun k _ => ?_)
  have el : lidx_main_v21 (ix2 r d) k = ix2 r k := funext fun a => Fin.ext (by match a with | ⟨0, _⟩ => rfl | ⟨1, _⟩ => rfl)
  have er : ridx_main_v21 (ix2 r d) k = ix2 k d := funext fun a => Fin.ext (by match a with | ⟨0, _⟩ => rfl | ⟨1, _⟩ => rfl)
  rw [el, er, ref_alpha]

/-- THE WEIGHTS: the reference's `alpha` is `alphaArr` of its `b_a` and `a_v`. -/
theorem ref_alphaArr (x0 x1 : (⟨Cert.ReferenceIdeal.S4096x1024, .f32⟩ : BufTy).Contents (Elt Ideal)) (x2 x5 : (⟨Cert.ReferenceIdeal.S1024x1024, .f32⟩ : BufTy).Contents (Elt Ideal)) :
    val_main_v20 (F := Ideal) x0 x1 x2 x5 = alphaArr (val_main_v3 (F := Ideal) x0 x2) (val_main_v5 (F := Ideal) x1 x5) := by
  funext i
  obtain ⟨r, c, rfl⟩ : ∃ (r : Fin 4096) (c : Fin 4096), i = ix2 r c := ⟨i 0, i 1, eq_ix2 i⟩
  exact ref_alpha x0 x1 x2 x5 r c

/-- THE OUTPUT: the reference's `alpha @ b_v + inputs_a` is `outArr` of its `b_a`, `a_v`, `b_v` and the first input. -/
theorem ref_outArr (x0 x1 : (⟨Cert.ReferenceIdeal.S4096x1024, .f32⟩ : BufTy).Contents (Elt Ideal)) (x2 x4 x5 : (⟨Cert.ReferenceIdeal.S1024x1024, .f32⟩ : BufTy).Contents (Elt Ideal)) :
    val_main_v24 (F := Ideal) x0 x1 x2 x4 x5 = outArr (val_main_v3 (F := Ideal) x0 x2) (val_main_v5 (F := Ideal) x1 x5) (val_main_v7 (F := Ideal) x1 x4) x0 := by
  funext i
  obtain ⟨r, d, rfl⟩ : ∃ (r : Fin 4096) (d : Fin 1024), i = ix2 r d := ⟨i 0, i 1, eq_ix2 i⟩
  exact ref_out x0 x1 x2 x4 x5 r d

end Cert.KernelIdeal.Val

end
-- ==== Proof.Val.Attention.lean ====
/- The attention stage: from the blocks a point writes to the two result arrays.

   Point t of the second call holds rows 512 t .. 512 t + 511 of b_a and of the residual input, and the whole of a_v
   and b_v; it writes the same rows of the attention weights and of the output. A row of weights is the softmax of
   that row's scores against every key, so it depends on the one row of b_a only: what a point writes back is its
   block of one whole-array function (alphaArr, outArr), the eight blocks tile the 4096 rows, and each result array
   ends holding that function of the arrays the region was entered with. The reference computes the same functions of
   its own intermediate arrays, entry by entry. -/
import proofs.«419996_j83399674953760_3_alg».proof.Proof.Val.AttentionPure
import proofs.«419996_j83399674953760_3_alg».proof.Proof.Val.AttentionRef
import proofs.«419996_j83399674953760_3_alg».proof.Proof.KI.Attention

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem at_hz : (![0, 0] : Fin 2 → Nat) = fun _ => 0 := funext fun a => by
  match a with
  | ⟨0, _⟩ => rfl
  | ⟨1, _⟩ => rfl

/-- The printed index maps over the grid: the row windows sit at block t, the two whole-matrix windows at block 0. -/
theorem at_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The operand blocks as parts of their arrays -/

/-- The b_a block at point t is rows 512 t .. of b_a. -/
theorem at_baBlk_apply (c : Dev nD) (t : Fin cfg1.N) (p : Fin 512) (k : Fin 1024) :
    (iblk1 V c 0 t : Vec Ideal S512x1024 .bf16) (ix2 p k)
      = (V c main_v10 : Vec Ideal S4096x1024 .bf16) (ix2 (⟨t.val * 512 + p.val, by have := t.isLt; have hN : cfg1.N = 8 := N_1; have := p.isLt; omega⟩ : Fin 4096) k) := by
  obtain ⟨e0, e1, -⟩ := at_idx_facts t
  unfold iblk1
  rw [View.read_apply]
  show V c main_v10 _ = V c main_v10 _
  congr 1
  funext a
  apply Fin.ext
  match a with
  | ⟨0, _⟩ => show win1_0.index t (0 : Fin 2) * 512 + 1 * p.val = t.val * 512 + p.val; rw [e0]; omega
  | ⟨1, _⟩ => show win1_0.index t (1 : Fin 2) * 1024 + 1 * k.val = k.val; rw [e1]; omega

/-- The a_v block at every point is a_v whole. -/
theorem at_avBlk_eq (c : Dev nD) (t : Fin cfg1.N) :
    (iblk1 V c 1 t : Vec Ideal S4096x1024 .bf16) = (V c main_v9 : Vec Ideal S4096x1024 .bf16) := by
  obtain ⟨-, -, e0, e1, -⟩ := at_idx_facts t
  funext j
  unfold iblk1
  rw [View.read_apply]
  show V c main_v9 _ = V c main_v9 _
  congr 1
  funext a
  apply Fin.ext
  match a with
  | ⟨0, _⟩ => show win1_1.index t (0 : Fin 2) * 4096 + 1 * (j 0).val = (j 0).val; rw [e0]; omega
  | ⟨1, _⟩ => show win1_1.index t (1 : Fin 2) * 1024 + 1 * (j 1).val = (j 1).val; rw [e1]; omega

/-- The b_v block at every point is b_v whole. -/
theorem at_bvBlk_eq (c : Dev nD) (t : Fin cfg1.N) :
    (iblk1 V c 2 t : Vec Ideal S4096x1024 .bf16) = (V c main_v11 : Vec Ideal S4096x1024 .bf16) := by
  obtain ⟨-, -, -, -, e0, e1, -⟩ := at_idx_facts t
  funext j
  unfold iblk1
  rw [View.read_apply]
  show V c main_v11 _ = V c main_v11 _
  congr 1
  funext a
  apply Fin.ext
  match a with
  | ⟨0, _⟩ => show win1_2.index t (0 : Fin 2) * 4096 + 1 * (j 0).val = (j 0).val; rw [e0]; omega
  | ⟨1, _⟩ => show win1_2.index t (1 : Fin 2) * 1024 + 1 * (j 1).val = (j 1).val; rw [e1]; omega

/-- The residual block at point t is rows 512 t .. of the residual input. -/
theorem at_resBlk_apply (c : Dev nD) (t : Fin cfg1.N) (p : Fin 512) (d : Fin 1024) :
    (iblk1 V c 3 t : Vec Ideal S512x1024 .f32) (ix2 p d)
      = (V c main_arg0 : Vec Ideal S4096x1024 .f32) (ix2 (⟨t.val * 512 + p.val, by have := t.isLt; have hN : cfg1.N = 8 := N_1; have := p.isLt; omega⟩ : Fin 4096) d) := by
  obtain ⟨-, -, -, -, -, -, e0, e1, -⟩ := at_idx_facts t
  unfold iblk1
  rw [View.read_apply]
  show V c main_arg0 _ = V c main_arg0 _
  congr 1
  funext a
  apply Fin.ext
  match a with
  | ⟨0, _⟩ => show win1_3.index t (0 : Fin 2) * 512 + 1 * p.val = t.val * 512 + p.val; rw [e0]; omega
  | ⟨1, _⟩ => show win1_3.index t (1 : Fin 2) * 1024 + 1 * d.val = d.val; rw [e1]; omega

/-! ## A point's stored values are its blocks of the whole-array functions -/

/-- If a block of b_a is rows 512 b .. of ba, the weights the body stores at j are alphaArr at row 512 b + j 0,
    column j 1: that row's weights are the softmax of that row's scores. -/
theorem at_block_pay1 (ba av : Vec Ideal S4096x1024 .bf16) (x0 : Vec Ideal S512x1024 .bf16) (b : Nat) (hb : b < 8)
    (hx : ∀ (p : Fin 512) (k : Fin 1024), x0 (ix2 p k) = ba (ix2 (⟨b * 512 + p.val, by have := p.isLt; omega⟩ : Fin 4096) k))
    (j : S512x4096.Idx) (i : S4096x4096.Idx) (hi0 : (i 0).val = b * 512 + (j 0).val) (hi1 : (i 1).val = (j 1).val) :
    k1_pay1 (F := Ideal) x0 av j = alphaArr ba av i := by
  obtain ⟨p, q, rfl⟩ : ∃ (p : Fin 512) (q : Fin 4096), j = ix2 p q := ⟨j 0, j 1, eq_ix2 j⟩
  rw [at_pay1_apply]
  unfold alphaArr
  have h0 : (i 0).val = b * 512 + p.val := hi0
  have h1 : (i 1).val = q.val := hi1
  have hq : (fun k => x0 (ix2 p k)) = (fun k => ba (ix2 (⟨(i 0).val, idx2_lt0 i⟩ : Fin 4096) k)) := funext fun k => by
    rw [hx]
    refine congrArg ba (funext fun a => Fin.ext ?_)
    match a with
    | ⟨0, _⟩ => exact h0.symm
    | ⟨1, _⟩ => rfl
  rw [hq]
  exact congrArg (alphaRow _ av) (Fin.ext h1.symm)

/-- The same of the output block: the weighted sum of b_v by that row's weights plus that row of the residual. -/
theorem at_block_pay2 (ba av bv : Vec Ideal S4096x1024 .bf16) (res : Vec Ideal S4096x1024 .f32)
    (x0 : Vec Ideal S512x1024 .bf16) (x3 : Vec Ideal S512x1024 .f32) (b : Nat) (hb : b < 8)
    (hx : ∀ (p : Fin 512) (k : Fin 1024), x0 (ix2 p k) = ba (ix2 (⟨b * 512 + p.val, by have := p.isLt; omega⟩ : Fin 4096) k))
    (hr : ∀ (p : Fin 512) (d : Fin 1024), x3 (ix2 p d) = res (ix2 (⟨b * 512 + p.val, by have := p.isLt; omega⟩ : Fin 4096) d))
    (j : S512x1024.Idx) (i : S4096x1024.Idx) (hi0 : (i 0).val = b * 512 + (j 0).val) (hi1 : (i 1).val = (j 1).val) :
    k1_pay2 (F := Ideal) x0 av bv x3 j = outArr ba av bv res i := by
  obtain ⟨p, q, rfl⟩ : ∃ (p : Fin 512) (q : Fin 1024), j = ix2 p q := ⟨j 0, j 1, eq_ix2 j⟩
  rw [at_pay2_apply]
  unfold outArr
  have h0 : (i 0).val = b * 512 + p.val := hi0
  have h1 : (i 1).val = q.val := hi1
  have hq : (fun k => x0 (ix2 p k)) = (fun k => ba (ix2 (⟨(i 0).val, idx2_lt0 i⟩ : Fin 4096) k)) := funext fun k => by
    rw [hx]
    refine congrArg ba (funext fun a => Fin.ext ?_)
    match a with
    | ⟨0, _⟩ => exact h0.symm
    | ⟨1, _⟩ => rfl
  have hres : x3 (ix2 p q) = res i := by
    rw [hr]
    refine congrArg res (funext fun a => Fin.ext ?_)
    match a with
    | ⟨0, _⟩ => exact h0.symm
    | ⟨1, _⟩ => exact h1.symm
  rw [hq, hres]
  exact congrArg (fun d => outRow _ av bv d + res i) (Fin.ext h1.symm)

/-! ## What a point writes back -/

/-- Point t writes back, into the weights array, block t of alphaArr of b_a and a_v as the region finds them. -/
theorem at_flushed4_eq (c : Dev nD) (t : Fin cfg1.N) :
    (dat1 V c).flushed 4 t = ((cfg1.win 4).blk t).view.read (Elt Ideal) (alphaArr (V c main_v10) (V c main_v9)) := by
  show (cfg1.win 4).cut (grid1.coords t) ((dat1 V c).after 4 t) = _
  rw [after1_4]
  unfold out1_4
  rw [View.canon_unit_zero at_hz]
  simp only [View.ld_unit_zero (S := S512x1024) at_hz, View.ld_unit_zero (S := S4096x1024) at_hz]
  obtain ⟨-, -, -, -, -, -, -, -, e0, e1, -⟩ := at_idx_facts t
  have hN : cfg1.N = 8 := N_1
  rw [at_avBlk_eq V c t]
  funext j
  rw [View.read_apply]
  refine at_block_pay1 (V c main_v10) (V c main_v9) (iblk1 V c 0 t) t.val (by have := t.isLt; omega)
    (fun p k => at_baBlk_apply V c t p k)
    ((cfg1.win 4).xinj (grid1.coords t) j) (((cfg1.win 4).blk t).view.emb j) ?_ ?_
  · show win1_4.index t (0 : Fin 2) * 512 + 1 * (j 0).val = t.val * 512 + (j 0).val
    rw [e0]; omega
  · show win1_4.index t (1 : Fin 2) * 4096 + 1 * (j 1).val = (j 1).val
    rw [e1]; omega

/-- Point t writes back, into the output array, block t of outArr of b_a, a_v, b_v and the residual input. -/
theorem at_flushed5_eq (c : Dev nD) (t : Fin cfg1.N) :
    (dat1 V c).flushed 5 t = ((cfg1.win 5).blk t).view.read (Elt Ideal) (outArr (V c main_v10) (V c main_v9) (V c main_v11) (V c main_arg0)) := by
  show (cfg1.win 5).cut (grid1.coords t) ((dat1 V c).after 5 t) = _
  rw [after1_5]
  unfold out1_5
  rw [View.canon_unit_zero at_hz]
  simp only [View.ld_unit_zero (S := S512x1024) at_hz, View.ld_unit_zero (S := S4096x1024) at_hz]
  obtain ⟨-, -, -, -, -, -, -, -, -, -, e0, e1⟩ := at_idx_facts t
  have hN : cfg1.N = 8 := N_1
  rw [at_avBlk_eq V c t, at_bvBlk_eq V c t]
  funext j
  rw [View.read_apply]
  refine at_block_pay2 (V c main_v10) (V c main_v9) (V c main_v11) (V c main_arg0) (iblk1 V c 0 t) (iblk1 V c 3 t) t.val (by have := t.isLt; omega)
    (fun p k => at_baBlk_apply V c t p k) (fun p d => at_resBlk_apply V c t p d)
    ((cfg1.win 5).xinj (grid1.coords t) j) (((cfg1.win 5).blk t).view.emb j) ?_ ?_
  · show win1_5.index t (0 : Fin 2) * 512 + 1 * (j 0).val = t.val * 512 + (j 0).val
    rw [e0]; omega
  · show win1_5.index t (1 : Fin 2) * 1024 + 1 * (j 1).val = (j 1).val
    rw [e1]; omega

/-! ## The eight blocks tile the result arrays -/

/-- An index of the weights array is in point t's block iff each coordinate is in the block's range on its axis. -/
theorem at_mem_blk4 (t : Fin cfg1.N) (i : S4096x4096.Idx) :
    i ∈ ((cfg1.win 4).blk t).view.set ↔ ∀ a : Fin 2, win1_4.index t a * S512x4096.size a ≤ (i a).val ∧ (i a).val < win1_4.index t a * S512x4096.size a + S512x4096.size a := by
  show i ∈ ((View.whole main_v12_0).slice (win1_4.rect t)).set ↔ _
  rw [View.set_slice_whole, Rect.mem_set_unit]
  exact Iff.rfl

/-- The same of the output array. -/
theorem at_mem_blk5 (t : Fin cfg1.N) (i : S4096x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v12_1).slice (win1_5.rect t)).set ↔ _
  rw [View.set_slice_whole, Rect.mem_set_unit]
  exact Iff.rfl

/-- Row r of the weights array is written by point r / 512. -/
theorem at_cover4 (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  have hN : cfg1.N = 8 := N_1
  obtain ⟨t, ht⟩ : ∃ t : Fin cfg1.N, t.val = (i 0).val / 512 := ⟨⟨(i 0).val / 512, by omega⟩, rfl⟩
  obtain ⟨-, -, -, -, -, -, -, -, e0, e1, -⟩ := at_idx_facts t
  refine ⟨t, flush1_4 t, ?_⟩
  rw [at_mem_blk4]
  intro a
  match a with
  | ⟨0, _⟩ => show win1_4.index t (0 : Fin 2) * 512 ≤ (i 0).val ∧ (i 0).val < win1_4.index t (0 : Fin 2) * 512 + 512; rw [e0]; omega
  | ⟨1, _⟩ => show win1_4.index t (1 : Fin 2) * 4096 ≤ (i 1).val ∧ (i 1).val < win1_4.index t (1 : Fin 2) * 4096 + 4096; rw [e1]; omega

/-- Row r of the output array is written by point r / 512. -/
theorem at_cover5 (i : S4096x1024.Idx) : ∃ t : Fin cfg1.N, (cfg1.win 5).flush t = true ∧ i ∈ ((cfg1.win 5).blk t).view.set := by
  have hi0 : (i 0).val < 4096 := (i 0).isLt
  have hi1 : (i 1).val < 1024 := (i 1).isLt
  have hN : cfg1.N = 8 := N_1
  obtain ⟨t, ht⟩ : ∃ t : Fin cfg1.N, t.val = (i 0).val / 512 := ⟨⟨(i 0).val / 512, by omega⟩, rfl⟩
  obtain ⟨-, -, -, -, -, -, -, -, -, -, e0, e1⟩ := at_idx_facts t
  refine ⟨t, flush1_5 t, ?_⟩
  rw [at_mem_blk5]
  intro a
  match a with
  | ⟨0, _⟩ => show win1_5.index t (0 : Fin 2) * 512 ≤ (i 0).val ∧ (i 0).val < win1_5.index t (0 : Fin 2) * 512 + 512; rw [e0]; omega
  | ⟨1, _⟩ => show win1_5.index t (1 : Fin 2) * 1024 ≤ (i 1).val ∧ (i 1).val < win1_5.index t (1 : Fin 2) * 1024 + 1024; rw [e1]; omega

/-! ## The result arrays after the run -/

/-- The weights array ends holding alphaArr of b_a and a_v as the region finds them. -/
theorem at_final4 (c : Dev nD) : (dat1 V c).arrAt 4 cfg1.N = alphaArr (V c main_v10) (V c main_v9) :=
  (dat1 V c).arrAt_eq_of_cover 4 (alphaArr (V c main_v10) (V c main_v9)) (fun t _ => at_flushed4_eq V c t) at_cover4

/-- The output array ends holding outArr of b_a, a_v, b_v and the residual input as the region finds them. -/
theorem at_final5 (c : Dev nD) : (dat1 V c).arrAt 5 cfg1.N = outArr (V c main_v10) (V c main_v9) (V c main_v11) (V c main_arg0) :=
  (dat1 V c).arrAt_eq_of_cover 5 (outArr (V c main_v10) (V c main_v9) (V c main_v11) (V c main_arg0)) (fun t _ => at_flushed5_eq V c t) at_cover5

/-! ## The stage -/

/-- If the region is entered with b_a, a_v, b_v at the reference's three projections and the residual at the first
    input, it leaves the weights array at the reference's softmax and the output array at the reference's weighted
    sum plus the first input. -/
theorem attn_val (V : (c : Dev nD) → (b : Ref sig .tc) → Buf (Elt Ideal) ((c : Thread nD τ).loc b)) (c : Dev nD)
    (x0 x1 : Vec Ideal S4096x1024 .f32) (x2 x4 x5 : Vec Ideal S1024x1024 .f32)
    (h10 : V c main_v10 = Cert.ReferenceIdeal.Read.val_main_v3 x0 x2) (h9 : V c main_v9 = Cert.ReferenceIdeal.Read.val_main_v5 x1 x5)
    (h11 : V c main_v11 = Cert.ReferenceIdeal.Read.val_main_v7 x1 x4) (hres : V c main_arg0 = x0) :
    (dat1 V c).arrAt 4 cfg1.N = Cert.ReferenceIdeal.Read.val_main_v20 x0 x1 x2 x5
    ∧ (dat1 V c).arrAt 5 cfg1.N = Cert.ReferenceIdeal.Read.val_main_v24 x0 x1 x2 x4 x5 := by
  refine ⟨?_, ?_⟩
  · rw [at_final4, h10, h9]
    exact (ref_alphaArr x0 x1 x2 x5).symm
  · rw [at_final5, h10, h9, h11, hres]
    exact (ref_outArr x0 x1 x2 x4 x5).symm

end Cert.KernelIdeal.Val

end
-- ==== Proof.Val.TransposedSumPure.lean ====
/-
  The transposed product with a residual, index by index.

  The third kernel accumulates, for each block of 1024 output rows, the product of the transposed weight
  matrix alpha (4096 x 4096) with the projected rows a_a (4096 x 1024): entry (n, d) of the result is the sum
  over ALL 4096 rows m of alpha (m, n) * a_a (m, d), plus the residual entry (n, d). The kernel forms that sum in
  four steps, one per block of 1024 rows m, starting from zero and adding a block's partial sum at each step; the
  reference forms it as one contraction of the transposed alpha with a_a. The two agree on the extended reals
  because addition there is associative: a sum over 4096 = 4 * 1024 rows is the sum of its four blocks' sums
  (no finiteness is needed).

  This module has the parts that do not mention the run: the three payloads of the kernel body read at an index,
  the reference's last operation read at an index, the running sum over the points of the grid as a recursion on
  the point's number, and the law joining the two.
-/
import proofs.«419996_j83399674953760_3_alg».proof.Proof.Gen.KernelIdeal.Skeleton
import proofs.«419996_j83399674953760_3_alg».proof.Proof.Val.RefRun
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ## The body's payloads at an index -/

/-- The offsets of the rectangle every load and store of the body goes through are zero. -/
theorem ts_hz : (![0, 0] : Fin 2 → Nat) = fun _ => 0 := funext fun a => by fin_cases a <;> rfl

/-- The product contracts the FIRST axis of both factors: the left factor is read at (contraction, output row), -/
theorem ts_lhs_0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem ts_lhs_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
/-- the right factor at (contraction, output column). -/
theorem ts_rhs_0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem ts_rhs_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

/-- A 1024 x 1024 product with the left factor transposed, accumulated from zero: entry (p, q) is
    the sum over m of l (m, p) * r (m, q). -/
theorem ts_mm_apply (l r : FVec Ideal S1024x1024 .bf16) (p q : Fin 1024) :
    matmul dot_S1024x1024_S1024x1024_S1024x1024_0_0_1_1_n_n none l r (constant (F := Ideal) S1024x1024 .f32 0x00000000#32) (ix2 p q)
      = ∑ m : Fin 1024, l (ix2 m p) * r (ix2 m q) := by
  refine (Ideal.matmul_constant_zero_apply dot_S1024x1024_S1024x1024_S1024x1024_0_0_1_1_n_n none l r (ix2 p q)).trans ?_
  rw [← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 p q) ((contrEquiv1 dot_S1024x1024_S1024x1024_S1024x1024_0_0_1_1_n_n 1024 rfl rfl).symm k) = ix2 k p := funext fun a => Fin.ext (by
    match a with
    | ⟨0, _⟩ => exact (ts_lhs_0 _ _).trans hk
    | ⟨1, _⟩ => exact ts_lhs_1 _ _)
  have er : dot_S1024x1024_S1024x1024_S1024x1024_0_0_1_1_n_n.rhsIdx (ix2 p q) ((contrEquiv1 dot_S1024x1024_S1024x1024_S1024x1024_0_0_1_1_n_n 1024 rfl rfl).symm k) = ix2 k q := funext fun a => Fin.ext (by
    match a with
    | ⟨0, _⟩ => exact (ts_rhs_0 _ _).trans hk
    | ⟨1, _⟩ => exact ts_rhs_1 _ _)
  rw [el, er]

/-- The reset stores zero everywhere. -/
theorem ts_pay1_apply (j : S1024x1024.Idx) : (k2_pay1 (F := Ideal)) j = 0 := by
  unfold k2_pay1
  refine (congrFun (shapeCast_self _ _) j).trans ?_
  exact Ideal.ofBits_zero_f32

/-- An accumulation step adds to the scratch s the transposed product of the two loaded blocks. -/
theorem ts_pay2_apply (a b : Vec Ideal S1024x1024 .bf16) (s : Vec Ideal S1024x1024 .f32) (p q : Fin 1024) :
    k2_pay2 (F := Ideal) a b s (ix2 p q) = s (ix2 p q) + ∑ m : Fin 1024, a (ix2 m p) * b (ix2 m q) := by
  unfold k2_pay2
  refine (congrFun (shapeCast_self _ _) (ix2 p q)).trans ?_
  refine congrArg (s (ix2 p q) + ·) ?_
  refine (ts_mm_apply _ _ p q).trans ?_
  refine Finset.sum_congr rfl fun m _ => ?_
  show shapeCast S1024x1024 a _ (ix2 m p) * shapeCast S1024x1024 b _ (ix2 m q) = _
  rw [shapeCast_self, shapeCast_self]

/-- The last step adds the residual block. -/
theorem ts_pay3_apply (s r : Vec Ideal S1024x1024 .f32) (j : S1024x1024.Idx) :
    k2_pay3 (F := Ideal) s r j = s j + r j := rfl

/-! ## The running sum over the points of the grid -/

/-- Row (or column) m of block b of an axis of 4096 cut in four blocks of 1024 (the block number read modulo 4,
    so that the function is total). -/
def ts_row (b : ℕ) (m : Fin 1024) : Fin 4096 := ⟨1024 * (b % 4) + m.val, by have := m.isLt; omega⟩

theorem ts_row_val (b : ℕ) (m : Fin 1024) : (ts_row b m).val = 1024 * (b % 4) + m.val := rfl

theorem ts_row_congr {a b : ℕ} (h : a % 4 = b % 4) (m : Fin 1024) : ts_row a m = ts_row b m :=
  Fin.ext (by rw [ts_row_val, ts_row_val, h])

/-- What point n of the grid adds at entry (p, q) of its output block: the point's coordinates are
    (n / 4, n % 4); it multiplies rows block n % 4 of alpha, columns block n / 4, transposed, with rows block
    n % 4 of a_a. -/
def ts_term (al : Vec Ideal S4096x4096 .bf16) (aa : Vec Ideal S4096x1024 .bf16) (n : ℕ) (p q : Fin 1024) : EReal :=
  ∑ m : Fin 1024, al (ix2 (ts_row (n % 4) m) (ts_row (n / 4) p)) * aa (ix2 (ts_row (n % 4) m) q)

/-- The scratch after point n, as a recursion on n: restarted from zero at the points whose second
    coordinate is 0, otherwise carried from the point before; then the point's term added. -/
def ts_run (M : ℕ → EReal) : ℕ → EReal
  | 0 => 0 + M 0
  | n + 1 => (if (n + 1) % 4 = 0 then 0 else ts_run M n) + M (n + 1)

theorem ts_run_reset (M : ℕ → EReal) (n : ℕ) (h : n % 4 = 0) : ts_run M n = 0 + M n := by
  cases n with
  | zero => rfl
  | succ n => rw [ts_run, if_pos h]

theorem ts_run_step (M : ℕ → EReal) (n : ℕ) (h : ¬(n + 1) % 4 = 0) : ts_run M (n + 1) = ts_run M n + M (n + 1) := by
  rw [ts_run, if_neg h]

/-- At the last point of a reduction the scratch holds the four points' terms added in order from zero. -/
theorem ts_run_last (M : ℕ → EReal) (n : ℕ) (h : n % 4 = 0) :
    ts_run M (n + 3) = (((0 + M n) + M (n + 1)) + M (n + 2)) + M (n + 3) := by
  rw [ts_run_step M (n + 2) (by omega), ts_run_step M (n + 1) (by omega), ts_run_step M n (by omega), ts_run_reset M n h]

/-! ## The law: a sum over 4096 rows is the ordered sum of its four blocks' sums -/

theorem ts_sum_split (f : Fin 4096 → EReal) :
    ∑ m : Fin 4096, f m
      = (((0 + ∑ m : Fin 1024, f (ts_row 0 m)) + ∑ m : Fin 1024, f (ts_row 1 m)) + ∑ m : Fin 1024, f (ts_row 2 m))
          + ∑ m : Fin 1024, f (ts_row 3 m) := by
  have e : ∀ (k : Fin 4) (m : Fin 1024), (finProdFinEquiv (m := 4) (n := 1024) (k, m)) = ts_row k.val m := fun k m =>
    Fin.ext (by
      show m.val + 1024 * k.val = 1024 * (k.val % 4) + m.val
      have := k.isLt; omega)
  rw [← Equiv.sum_comp (finProdFinEquiv (m := 4) (n := 1024)) f, Fintype.sum_prod_type, Fin.sum_univ_four, zero_add]
  simp only [e]
  rfl

/-- So the running sum at the last point of reduction j is the whole contraction, at output row
    (block j, p) and column q. -/
theorem ts_run_eq_sum (al : Vec Ideal S4096x4096 .bf16) (aa : Vec Ideal S4096x1024 .bf16) (t : ℕ) (ht : t % 4 = 3)
    (p q : Fin 1024) :
    ts_run (fun n => ts_term al aa n p q) t = ∑ m : Fin 4096, al (ix2 m (ts_row (t / 4) p)) * aa (ix2 m q) := by
  obtain ⟨n, rfl⟩ : ∃ n, t = n + 3 := ⟨t - 3, by omega⟩
  have hn : n % 4 = 0 := by omega
  rw [ts_run_last _ n hn, ts_sum_split]
  have key : ∀ k : ℕ, k < 4 → ts_term al aa (n + k) p q
      = ∑ m : Fin 1024, al (ix2 (ts_row k m) (ts_row ((n + 3) / 4) p)) * aa (ix2 (ts_row k m) q) := fun k hk => by
    unfold ts_term
    refine Finset.sum_congr rfl fun m _ => ?_
    rw [ts_row_congr (show (n + k) % 4 % 4 = k % 4 by omega) m, ts_row_congr (show (n + k) / 4 % 4 = (n + 3) / 4 % 4 by omega) p]
  have k0 := key 0 (by omega)
  rw [Nat.add_zero] at k0
  rw [k0, key 1 (by omega), key 2 (by omega), key 3 (by omega)]

/-! ## The reference's last operation at an index -/

/-- Entry (n, d) of the reference's second result: the contraction over all rows m of alpha (m, n) with
    a_a (m, d), plus the residual entry. -/
theorem ts_ref_apply (x0 x1 : Vec Ideal S4096x1024 .f32) (x2 x3 x5 : Vec Ideal S1024x1024 .f32) (n : Fin 4096) (d : Fin 1024) :
    Cert.ReferenceIdeal.Read.val_main_v25 (F := Ideal) x0 x1 x2 x3 x5 (ix2 n d)
      = (∑ m : Fin 4096, Cert.ReferenceIdeal.Read.val_main_v20 (F := Ideal) x0 x1 x2 x5 (ix2 m n)
            * Cert.ReferenceIdeal.Read.val_main_v1 (F := Ideal) x0 x3 (ix2 m d)) + x1 (ix2 n d) := by
  rw [Cert.ReferenceIdeal.Read.val_main_v25_apply, Cert.ReferenceIdeal.Read.val_main_v23_apply]
  refine congrArg (· + x1 (ix2 n d)) ?_
  refine Finset.sum_congr rfl fun m _ => ?_
  rw [Cert.ReferenceIdeal.Read.val_main_v22_apply]
  have e1 : Cert.ReferenceIdeal.Read.idx_main_v22 (Cert.ReferenceIdeal.Read.lidx_main_v23 (ix2 n d) m) = ix2 m n :=
    funext fun a => Fin.ext (by match a with | ⟨0, _⟩ => rfl | ⟨1, _⟩ => rfl)
  have e2 : Cert.ReferenceIdeal.Read.ridx_main_v23 (ix2 n d) m = ix2 m d :=
    funext fun a => Fin.ext (by match a with | ⟨0, _⟩ => rfl | ⟨1, _⟩ => rfl)
  rw [e1, e2]

/-! ## The result as one function of the three arrays -/

/-- Entry (n, d) of the kernel's result from the arrays it is handed. -/
def tsAt (al : Vec Ideal S4096x4096 .bf16) (aa : Vec Ideal S4096x1024 .bf16) (res : Vec Ideal S4096x1024 .f32)
    (n : Fin 4096) (d : Fin 1024) : EReal :=
  (∑ m : Fin 4096, al (ix2 m n) * aa (ix2 m d)) + res (ix2 n d)

/-- The whole result array. -/
def tsG (al : Vec Ideal S4096x4096 .bf16) (aa : Vec Ideal S4096x1024 .bf16) (res : Vec Ideal S4096x1024 .f32) :
    Vec Ideal S4096x1024 .f32 := fun i => tsAt al aa res (i 0) (i 1)

theorem tsG_apply (al : Vec Ideal S4096x4096 .bf16) (aa : Vec Ideal S4096x1024 .bf16) (res : Vec Ideal S4096x1024 .f32)
    (n : Fin 4096) (d : Fin 1024) : tsG al aa res (ix2 n d) = tsAt al aa res n d := rfl

/-- At the reference's alpha, a_a and residual it is the reference's second result. -/
theorem tsG_eq_ref (x0 x1 : Vec Ideal S4096x1024 .f32) (x2 x3 x5 : Vec Ideal S1024x1024 .f32) :
    tsG (Cert.ReferenceIdeal.Read.val_main_v20 (F := Ideal) x0 x1 x2 x5) (Cert.ReferenceIdeal.Read.val_main_v1 (F := Ideal) x0 x3) x1
      = Cert.ReferenceIdeal.Read.val_main_v25 (F := Ideal) x0 x1 x2 x3 x5 := by
  funext i
  obtain ⟨n, d, rfl⟩ : ∃ (n : Fin 4096) (d : Fin 1024), i = ix2 n d := ⟨i 0, i 1, eq_ix2 i⟩
  rw [ts_ref_apply, tsG_apply]
  rfl

end Cert.KernelIdeal.Val

end
-- ==== Proof.Val.TransposedSum.lean ====
/-
  The third kernel's result array is the transposed product plus the residual.

  The region runs on a 4 x 4 grid; point t has coordinates (t / 4, t % 4). At point t the kernel is handed
  rows block t % 4, columns block t / 4 of alpha, rows block t % 4 of a_a, and rows block t / 4 of the residual;
  it keeps a scratch, zeroed at the points with t % 4 = 0, to which every point adds the transposed product of its
  two blocks; at the points with t % 4 = 3 the scratch plus the residual block is written back as rows block
  t / 4 of the result. This module reads the blocks off their arrays, shows by induction on the point that the
  scratch holds the running sum of the points' terms, and, at the four points that write back, that the block
  written is the block of the one function of the three arrays whose entry (n, d) is the sum over all 4096 rows
  m of alpha (m, n) * a_a (m, d) plus the residual's entry (n, d). Those four blocks cover the result array.
  When the three arrays hold the reference's alpha, a_a and second input, that function is the reference's
  second result.
-/
import proofs.«419996_j83399674953760_3_alg».proof.Proof.Val.TransposedSumPure
import proofs.«419996_j83399674953760_3_alg».proof.Proof.KI.TransposedSum

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The arrays and the blocks, at their literal types -/

/-- alpha, as the region finds it. -/
abbrev ts_alArr (c : Dev nD) : Vec Ideal S4096x4096 .bf16 := V c main_v12_0
/-- a_a, as the region finds it. -/
abbrev ts_aaArr (c : Dev nD) : Vec Ideal S4096x1024 .bf16 := V c main_v8
/-- The residual, as the region finds it. -/
abbrev ts_resArr (c : Dev nD) : Vec Ideal S4096x1024 .f32 := V c main_arg1

/-- The block of alpha at point t, -/
abbrev ts_alBlk (c : Dev nD) (t : Fin cfg2.N) : Vec Ideal S1024x1024 .bf16 := iblk2 V c 0 t
/-- of a_a, -/
abbrev ts_aaBlk (c : Dev nD) (t : Fin cfg2.N) : Vec Ideal S1024x1024 .bf16 := iblk2 V c 1 t
/-- of the residual. -/
abbrev ts_resBlk (c : Dev nD) (t : Fin cfg2.N) : Vec Ideal S1024x1024 .f32 := iblk2 V c 2 t

/-- The printed index maps, decided over the grid: which block of its array each window is on at point t. -/
theorem ts_idx_facts : ∀ t : Fin cfg2.N, win2_0.index t (0 : Fin 2) = t.val % 4
    ∧ win2_0.index t (1 : Fin 2) = t.val / 4
    ∧ win2_1.index t (0 : Fin 2) = t.val % 4
    ∧ win2_1.index t (1 : Fin 2) = 0
    ∧ win2_2.index t (0 : Fin 2) = t.val / 4
    ∧ win2_2.index t (1 : Fin 2) = 0
    ∧ win2_3.index t (0 : Fin 2) = t.val / 4
    ∧ win2_3.index t (1 : Fin 2) = 0 :=
  (by decide +kernel : ∀ t : Fin grid2.N, _)

/-- Entry (m, p) of alpha's block at point t is entry (block t % 4 row m, block t / 4 column p) of alpha. -/
theorem ts_alBlk_apply (c : Dev nD) (t : Fin cfg2.N) (m p : Fin 1024) :
    ts_alBlk V c t (ix2 m p) = ts_alArr V c (ix2 (ts_row (t.val % 4) m) (ts_row (t.val / 4) p)) := by
  obtain ⟨e0, e1, -⟩ := ts_idx_facts t
  have hN : cfg2.N = 16 := N_2
  have ht := t.isLt
  show V c main_v12_0 (((cfg2.win 0).blk t).view.emb (ix2 m p)) = V c main_v12_0 (ix2 (ts_row (t.val % 4) m) (ts_row (t.val / 4) p))
  have h : ((cfg2.win 0).blk t).view.emb (ix2 m p) = ix2 (ts_row (t.val % 4) m) (ts_row (t.val / 4) p) := by
    funext a; apply Fin.ext
    match a with
    | ⟨0, _⟩ => show win2_0.index t (0 : Fin 2) * 1024 + 1 * m.val = 1024 * (t.val % 4 % 4) + m.val; omega
    | ⟨1, _⟩ => show win2_0.index t (1 : Fin 2) * 1024 + 1 * p.val = 1024 * (t.val / 4 % 4) + p.val; omega
  rw [h]

/-- Entry (m, q) of a_a's block at point t is entry (block t % 4 row m, q) of a_a. -/
theorem ts_aaBlk_apply (c : Dev nD) (t : Fin cfg2.N) (m q : Fin 1024) :
    ts_aaBlk V c t (ix2 m q) = ts_aaArr V c (ix2 (ts_row (t.val % 4) m) q) := by
  obtain ⟨-, -, e2, e3, -⟩ := ts_idx_facts t
  show V c main_v8 (((cfg2.win 1).blk t).view.emb (ix2 m q)) = V c main_v8 (ix2 (ts_row (t.val % 4) m) q)
  have h : ((cfg2.win 1).blk t).view.emb (ix2 m q) = ix2 (ts_row (t.val % 4) m) q := by
    funext a; apply Fin.ext
    match a with
    | ⟨0, _⟩ => show win2_1.index t (0 : Fin 2) * 1024 + 1 * m.val = 1024 * (t.val % 4 % 4) + m.val; omega
    | ⟨1, _⟩ => show win2_1.index t (1 : Fin 2) * 1024 + 1 * q.val = q.val; omega
  rw [h]

/-- Entry (p, q) of the residual's block at point t is entry (block t / 4 row p, q) of the residual. -/
theorem ts_resBlk_apply (c : Dev nD) (t : Fin cfg2.N) (p q : Fin 1024) :
    ts_resBlk V c t (ix2 p q) = ts_resArr V c (ix2 (ts_row (t.val / 4) p) q) := by
  obtain ⟨-, -, -, -, e4, e5, -⟩ := ts_idx_facts t
  have hN : cfg2.N = 16 := N_2
  have ht := t.isLt
  show V c main_arg1 (((cfg2.win 2).blk t).view.emb (ix2 p q)) = V c main_arg1 (ix2 (ts_row (t.val / 4) p) q)
  have h : ((cfg2.win 2).blk t).view.emb (ix2 p q) = ix2 (ts_row (t.val / 4) p) q := by
    funext a; apply Fin.ext
    match a with
    | ⟨0, _⟩ => show win2_2.index t (0 : Fin 2) * 1024 + 1 * p.val = 1024 * (t.val / 4 % 4) + p.val; omega
    | ⟨1, _⟩ => show win2_2.index t (1 : Fin 2) * 1024 + 1 * q.val = q.val; omega
  rw [h]

/-- So the transposed product of the two blocks at point n is the point's term. -/
theorem ts_point_term (c : Dev nD) (n : ℕ) (hn : n < cfg2.N) (p q : Fin 1024) :
    ∑ m : Fin 1024, ts_alBlk V c ⟨n, hn⟩ (ix2 m p) * ts_aaBlk V c ⟨n, hn⟩ (ix2 m q) = ts_term (ts_alArr V c) (ts_aaArr V c) n p q := by
  unfold ts_term
  refine Finset.sum_congr rfl fun m _ => ?_
  rw [ts_alBlk_apply V c ⟨n, hn⟩ m p, ts_aaBlk_apply V c ⟨n, hn⟩ m q]

/-! ## What the body's three stores leave, at an index -/

theorem ts_zero2_apply (j : S1024x1024.Idx) : zero2 (F := Ideal) j = 0 := by
  unfold zero2
  rw [View.canon_unit_zero ts_hz]
  exact ts_pay1_apply j

theorem ts_acc2_apply (a b : Vec Ideal S1024x1024 .bf16) (s : Vec Ideal S1024x1024 .f32) (p q : Fin 1024) :
    acc2 a b s (ix2 p q) = s (ix2 p q) + ∑ m : Fin 1024, a (ix2 m p) * b (ix2 m q) := by
  unfold acc2
  rw [View.canon_unit_zero ts_hz]
  simp only [View.ld_unit_zero (S := S1024x1024) ts_hz]
  exact ts_pay2_apply a b s p q

theorem ts_fin2_apply (s r : Vec Ideal S1024x1024 .f32) (j : S1024x1024.Idx) : fin2 s r j = s j + r j := by
  unfold fin2
  rw [View.canon_unit_zero ts_hz]
  simp only [View.ld_unit_zero (S := S1024x1024) ts_hz]
  exact ts_pay3_apply s r j

/-! ## The scratch holds the running sum -/

theorem ts_accAt2_apply (c : Dev nD) : ∀ (n : ℕ) (hn : n < cfg2.N) (p q : Fin 1024),
    accAt2 V c n hn (ix2 p q) = ts_run (fun k => ts_term (ts_alArr V c) (ts_aaArr V c) k p q) n
  | 0, hn, p, q => by
    refine (congrFun (accAt2_zero V c hn) (ix2 p q)).trans ?_
    refine (ts_acc2_apply (ts_alBlk V c ⟨0, hn⟩) (ts_aaBlk V c ⟨0, hn⟩) (zero2 (F := Ideal)) p q).trans ?_
    rw [ts_zero2_apply, ts_point_term V c 0 hn p q]
    exact (ts_run_reset (fun k => ts_term (ts_alArr V c) (ts_aaArr V c) k p q) 0 rfl).symm
  | n + 1, hn, p, q => by
    refine (congrFun (accAt2_succ V c n hn) (ix2 p q)).trans ?_
    refine (ts_acc2_apply (ts_alBlk V c ⟨n + 1, hn⟩) (ts_aaBlk V c ⟨n + 1, hn⟩)
      (if (n + 1) % 4 = 0 then zero2 (F := Ideal) else accAt2 V c n (Nat.lt_of_succ_lt hn)) p q).trans ?_
    rw [ts_point_term V c (n + 1) hn p q]
    by_cases h : (n + 1) % 4 = 0
    · rw [if_pos h, ts_zero2_apply]
      exact (ts_run_reset (fun k => ts_term (ts_alArr V c) (ts_aaArr V c) k p q) (n + 1) h).symm
    · rw [if_neg h, ts_accAt2_apply c n (Nat.lt_of_succ_lt hn) p q]
      exact (ts_run_step (fun k => ts_term (ts_alArr V c) (ts_aaArr V c) k p q) n h).symm

/-! ## The block written back -/

/-- At a point that writes back, the scratch plus the residual block, at the block's entry y, is the result
    function at the array's entry i under it. -/
theorem ts_block_value (c : Dev nD) (t : Fin cfg2.N) (h3 : t.val % 4 = 3) (y : S1024x1024.Idx) (i : S4096x1024.Idx)
    (h0 : (i 0).val = 1024 * (t.val / 4) + (y 0).val) (h1 : (i 1).val = (y 1).val) :
    fin2 (accAt2 V c t.val t.isLt) (ts_resBlk V c t) y = tsG (ts_alArr V c) (ts_aaArr V c) (ts_resArr V c) i := by
  obtain ⟨p, q, rfl⟩ : ∃ (p q : Fin 1024), y = ix2 p q := ⟨y 0, y 1, eq_ix2 y⟩
  obtain ⟨n, d, rfl⟩ : ∃ (n : Fin 4096) (d : Fin 1024), i = ix2 n d := ⟨i 0, i 1, eq_ix2 i⟩
  have hN : cfg2.N = 16 := N_2
  have ht := t.isLt
  have hn : n = ts_row (t.val / 4) p := Fin.ext (by
    rw [ts_row_val]
    have h0' : n.val = 1024 * (t.val / 4) + p.val := h0
    omega)
  have hd : d = q := Fin.ext h1
  subst hn hd
  rw [ts_fin2_apply, tsG_apply, ts_accAt2_apply V c t.val t.isLt p d, ts_run_eq_sum _ _ _ h3, ts_resBlk_apply]
  rfl

/-- WHAT A POINT WRITES BACK is its block of the result function of the three arrays. -/
theorem ts_flushed_eq (c : Dev nD) (t : Fin cfg2.N) (hf : (cfg2.win 3).flush t = true) :
    (dat2 V c).flushed 3 t
      = ((cfg2.win 3).blk t).view.read (Elt Ideal) (tsG (ts_alArr V c) (ts_aaArr V c) (ts_resArr V c)) := by
  have h3 : t.val % 4 = 3 := (flush2_3 t).mp hf
  obtain ⟨-, -, -, -, -, -, e6, e7⟩ := ts_idx_facts t
  show (cfg2.win 3).cut (grid2.coords t) ((dat2 V c).after 3 t) = _
  rw [after2_3]
  funext y
  show fin2 (accAt2 V c t.val t.isLt) (ts_resBlk V c t) y
    = tsG (ts_alArr V c) (ts_aaArr V c) (ts_resArr V c) (((cfg2.win 3).blk t).view.emb y)
  refine ts_block_value V c t h3 y _ ?_ ?_
  · show win2_3.index t (0 : Fin 2) * 1024 + 1 * (y 0).val = 1024 * (t.val / 4) + (y 0).val
    omega
  · show win2_3.index t (1 : Fin 2) * 1024 + 1 * (y 1).val = (y 1).val
    omega

/-! ## The four blocks written back cover the array -/

theorem ts_mem_blk (t : Fin cfg2.N) (i : S4096x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v13).slice (win2_3.rect t)).set ↔ _
  rw [View.set_slice_whole, Rect.mem_set_unit]
  exact Iff.rfl

/-- Row r of the result is written at the last point of reduction r / 1024. -/
theorem ts_cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 16 := N_2
  obtain ⟨t, htv⟩ : ∃ t : Fin cfg2.N, t.val = 4 * ((i 0).val / 1024) + 3 := ⟨⟨4 * ((i 0).val / 1024) + 3, by omega⟩, rfl⟩
  obtain ⟨-, -, -, -, -, -, e6, e7⟩ := ts_idx_facts t
  refine ⟨t, (flush2_3 t).mpr (by omega), ?_⟩
  rw [ts_mem_blk]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

/-- THE RESULT ARRAY after the run is the result function of the three arrays as the region finds them. -/
theorem ts_final (c : Dev nD) :
    (dat2 V c).arrAt 3 cfg2.N = tsG (ts_alArr V c) (ts_aaArr V c) (ts_resArr V c) :=
  (dat2 V c).arrAt_eq_of_cover 3 (tsG (ts_alArr V c) (ts_aaArr V c) (ts_resArr V c)) (ts_flushed_eq V c) ts_cover

/-- When the region's three input arrays hold the reference's alpha, a_a and second input, its result array ends
    holding the reference's second result. -/
theorem tsum_val (c : Dev nD) (x0 x1 : Vec Ideal S4096x1024 .f32) (x2 x3 x5 : Vec Ideal S1024x1024 .f32)
    (hα : V c main_v12_0 = Cert.ReferenceIdeal.Read.val_main_v20 x0 x1 x2 x5)
    (haa : V c main_v8 = Cert.ReferenceIdeal.Read.val_main_v1 x0 x3) (hres : V c main_arg1 = x1) :
    (dat2 V c).arrAt 3 cfg2.N = Cert.ReferenceIdeal.Read.val_main_v25 x0 x1 x2 x3 x5 := by
  refine (ts_final V c).trans ?_
  show tsG (V c main_v12_0) (V c main_v8) (V c main_arg1) = _
  rw [hα, haa, hres]
  exact tsG_eq_ref x0 x1 x2 x3 x5

end Cert.KernelIdeal.Val

end
-- ==== Proof.Val.Bridge.lean ====
/-
  The three regions' value lemmas chained through the run of the idealized kernel program: each region's input arrays
  hold the reference's intermediate stages of the launch contents, so its output arrays hold the next ones, and the two
  result buffers end at the reference's two result stages.
-/
import proofs.«419996_j83399674953760_3_alg».proof.Proof.KI.Run
import proofs.«419996_j83399674953760_3_alg».proof.Proof.Val.RefRun
import proofs.«419996_j83399674953760_3_alg».proof.Proof.Val.Projections
import proofs.«419996_j83399674953760_3_alg».proof.Proof.Val.Attention
import proofs.«419996_j83399674953760_3_alg».proof.Proof.Val.TransposedSum
import Idealize.ShloMosaic.PureOps.Ideal

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg)

/-- The three stages chained: the projection region's four halves are the reference's four projections of the launch
    contents; over them the attention region leaves the reference's attention weights and first result; over those the
    transposed-sum region leaves the reference's second result. -/
theorem results (c : Dev nD) :
    W5 m ρ c (Proc.devRef .tc main_v12_1) = Cert.ReferenceIdeal.Read.val_main_v24 (m ((c : Thread nD τ).loc main_arg0)) (m ((c : Thread nD τ).loc main_arg1)) (m ((c : Thread nD τ).loc main_arg2)) (m ((c : Thread nD τ).loc main_arg4)) (m ((c : Thread nD τ).loc main_arg5))
    ∧ W5 m ρ c (Proc.devRef .tc main_v13) = Cert.ReferenceIdeal.Read.val_main_v25 (m ((c : Thread nD τ).loc main_arg0)) (m ((c : Thread nD τ).loc main_arg1)) (m ((c : Thread nD τ).loc main_arg2)) (m ((c : Thread nD τ).loc main_arg3)) (m ((c : Thread nD τ).loc main_arg5)) := by
  obtain ⟨haa, hav, hba, hbv⟩ := proj_val (V1 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (V1_main_v0 m ρ c) (V1_main_v3 m ρ c) (V1_main_v6 m ρ c)
  obtain ⟨hal, hra⟩ := attn_val (V3 m ρ) c (m ((c : Thread nD τ).loc main_arg0)) (m ((c : Thread nD τ).loc main_arg1)) (m ((c : Thread nD τ).loc main_arg2)) (m ((c : Thread nD τ).loc main_arg4)) (m ((c : Thread nD τ).loc main_arg5))
    ((V3_main_v10 m ρ c).trans hba) ((V3_main_v9 m ρ c).trans hav) ((V3_main_v11 m ρ c).trans hbv) (V3_main_arg0 m ρ c)
  have hrv := tsum_val (V4 m ρ) c (m ((c : Thread nD τ).loc main_arg0)) (m ((c : Thread nD τ).loc main_arg1)) (m ((c : Thread nD τ).loc main_arg2)) (m ((c : Thread nD τ).loc main_arg3)) (m ((c : Thread nD τ).loc main_arg5))
    ((V4_main_v12_0 m ρ c).trans hal) ((V4_main_v8 m ρ c).trans ((V3_main_v8 m ρ c).trans haa)) (V4_main_arg1 m ρ c)
  exact ⟨(W5_main_v12_1 m ρ c).trans hra, (W5_main_v13 m ρ c).trans hrv⟩

/-- The idealized kernel's run with both results named: the reference's two result stages of the launch contents. -/
theorem run_values : θ_run (defs (F := Ideal)) (onTc (τ := τ) (main (F := Ideal))) ⟨m, fun _ => 0, ρ⟩ (fun r => ∀ c : Dev nD,
      r.2.mem ((c.tc : Thread nD τ).loc main_v12_1) = Cert.ReferenceIdeal.Read.val_main_v24 (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c.tc : Thread nD τ).loc main_v13) = Cert.ReferenceIdeal.Read.val_main_v25 (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v12_1 (by decide))).trans (results m ρ c).1,
     (h c _ (mem_uc main_v13 (by decide))).trans (results m ρ c).2,
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Val

end
-- ==== Proof.lean ====
/-
  The certificate of a two-stream cross-attention. The kernel's program projects the two row-stacked inputs through two
  stacked weight pairs in one pipelined region (a_a, a_v and b_a, b_v as the halves of two outputs), computes in a second
  region, per block of 512 query rows, the scores b_a a_vᵀ, their row softmax (max, exp, sum, exact quotient) and
  alpha b_v plus the residual, and in a third region alphaᵀ a_a plus the residual, accumulated over four row blocks in a
  buffer carried between grid points. The reference computes the same quantities with whole-array host operations.
  Over the extended reals a change of float format is the identity, a matrix product into a zero accumulator is the sum
  over the contracted axis, and a sum over 4096 rows is the sum of its four blocks of 1024, so the two programs end with
  the same two arrays, element by element. The frames: each program runs to the end, faults nowhere and leaves its six
  arguments as launched. The kernel's idealization rewrote nothing, so there is nothing to preserve.
-/
import proofs.«419996_j83399674953760_3_alg».proof.Defs
import proofs.«419996_j83399674953760_3_alg».proof.Proof.Gen.Kernel
import proofs.«419996_j83399674953760_3_alg».proof.Proof.Gen.KernelIdeal
import proofs.«419996_j83399674953760_3_alg».proof.Proof.Gen.ReferenceIdeal
import proofs.«419996_j83399674953760_3_alg».proof.Proof.Gen.Pre_finite_inputs
import proofs.«419996_j83399674953760_3_alg».proof.Proof.K.Run
import proofs.«419996_j83399674953760_3_alg».proof.Proof.KI.Run
import proofs.«419996_j83399674953760_3_alg».proof.Proof.Val.RefRun
import proofs.«419996_j83399674953760_3_alg».proof.Proof.Val.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Fr.frame m ρ
/-- The idealized kernel program runs and keeps its arguments. -/
theorem frame_kernelIdeal : Cert.frame_KernelIdeal := fun m ρ _ => Cert.KernelIdeal.Fr.frame m ρ
/-- The reference runs and keeps its arguments: its generated run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the reference's two result stages of the
    launch contents: the kernel's by the three regions' value lemmas chained through the run, the reference's by its
    generated run. -/
theorem algebraic : Cert.algebraic_KernelIdeal_ReferenceIdeal := by
  intro m ρ m' ρ' _ hagree
  refine ⟨fun c => Cert.ReferenceIdeal.Read.val_main_v24 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v25 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
    Cert.KernelIdeal.Val.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v24_eq _ _ _ _ _).trans ?_
    rw [(hagree c).1, (hagree c).2.1, (hagree c).2.2.1, (hagree c).2.2.2.2.1, (hagree c).2.2.2.2.2]
  · refine (Cert.ReferenceIdeal.Read.val_main_v25_eq _ _ _ _ _).trans ?_
    rw [(hagree c).1, (hagree c).2.1, (hagree c).2.2.1, (hagree c).2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
